-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x513 : Shape := ⟨2, ![50000, 513]⟩
abbrev S2x400000 : Shape := ⟨2, ![2, 400000]⟩
abbrev S50000 : Shape := ⟨1, ![50000]⟩
abbrev S513x128 : Shape := ⟨2, ![513, 128]⟩
abbrev S128 : Shape := ⟨1, ![128]⟩
abbrev S128x128 : Shape := ⟨2, ![128, 128]⟩
abbrev S384x384 : Shape := ⟨2, ![384, 384]⟩
abbrev S384 : Shape := ⟨1, ![384]⟩
abbrev S384x3 : Shape := ⟨2, ![384, 3]⟩
abbrev S3 : Shape := ⟨1, ![3]⟩
abbrev S_ : Shape := ⟨0, ![]⟩

class Facts : Prop where
  bcast_S_S50000x513 : S_.BroadcastsInDim S50000x513 (![] : Fin 0 → Fin S50000x513.rank)
  reducesTo_S50000x513_S_d0_1 : S50000x513.ReducesTo [0, 1] S_
  h_S_ : 0 < S_.numel
  bcast_S_S513x128 : S_.BroadcastsInDim S513x128 (![] : Fin 0 → Fin S513x128.rank)
  reducesTo_S513x128_S_d0_1 : S513x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x3 : S_.BroadcastsInDim S384x3 (![] : Fin 0 → Fin S384x3.rank)
  reducesTo_S384x3_S_d0_1 : S384x3.ReducesTo [0, 1] S_
  bcast_S_S3 : S_.BroadcastsInDim S3 (![] : Fin 0 → Fin S3.rank)
  reducesTo_S3_S_d0 : S3.ReducesTo [0] S_

variable [Facts]

def fn_part8 {F : FTy → Type} [FloatOps F] (main_arg30 : FVec F S3 .f32) (main_v133 : IVec S_ 1) (main_v136 : IVec S384x3 1) : IVec S_ 1 :=
  let main_c_53 : IVec S_ 1 := constantI S_ 1 1#1
  let main_v137 : IVec S_ 1 := (fun x v => Host.reduce IntOp.andi x v reducesTo_S384x3_S_d0_1 h_S_) main_v136 main_c_53
  let main_v138 : IVec S_ 1 := andi main_v133 main_v137
  let main_v139 : FVec F S3 .f32 := Host.absf main_arg30
  let main_cst_54 : FVec F S_ .f32 := constant S_ .f32 0x7F800000#32
  let main_v140 : FVec F S3 .f32 := broadcastInDim S3 ![] bcast_S_S3 main_cst_54
  let main_v141 : IVec S3 1 := cmpf .olt main_v139 main_v140
  let main_c_55 : IVec S_ 1 := constantI S_ 1 1#1
  let main_v142 : IVec S_ 1 := (fun x v => Host.reduce IntOp.andi x v reducesTo_S3_S_d0 h_S_) main_v141 main_c_55
  let main_v143 : IVec S_ 1 := andi main_v138 main_v142
  main_v143

def fn_part7 {F : FTy → Type} [FloatOps F] (main_arg27 : FVec F S384x384 .f32) (main_arg28 : FVec F S384 .f32) (main_arg29 : FVec F S384x3 .f32) (main_arg30 : FVec F S3 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S384x384 .f32 := Host.absf main_arg27
  let main_cst_48 : FVec F S_ .f32 := constant S_ .f32 0x7F800000#32
  let main_v125 : FVec F S384x384 .f32 := broadcastInDim S384x384 ![] bcast_S_S384x384 main_cst_48
  let main_v126 : IVec S384x384 1 := cmpf .olt main_v124 main_v125
  let main_c_49 : IVec S_ 1 := constantI S_ 1 1#1
  let main_v127 : IVec S_ 1 := (fun x v => Host.reduce IntOp.andi x v reducesTo_S384x384_S_d0_1 h_S_) main_v126 main_c_49
  let main_v128 : IVec S_ 1 := andi main_v123 main_v127
  let main_v129 : FVec F S384 .f32 := Host.absf main_arg28
  let main_cst_50 : FVec F S_ .f32 := constant S_ .f32 0x7F800000#32
  let main_v130 : FVec F S384 .f32 := broadcastInDim S384 ![] bcast_S_S384 main_cst_50
  let main_v131 : IVec S384 1 := cmpf .olt main_v129 main_v130
  let main_c_51 : IVec S_ 1 := constantI S_ 1 1#1
  let main_v132 : IVec S_ 1 := (fun x v => Host.reduce IntOp.andi x v reducesTo_S384_S_d0 h_S_) main_v131 main_c_51
  let main_v133 : IVec S_ 1 := andi main_v128 main_v132
  let main_v134 : FVec F S384x3 .f32 := Host.absf main_arg29
  let main_cst_52 : FVec F S_ .f32 := constant S_ .f32 0x7F800000#32
  let main_v135 : FVec F S384x3 .f32 := broadcastInDim S384x3 ![] bcast_S_S384x3 main_cst_52
  let main_v136 : IVec S384x3 1 := cmpf .olt main_v134 main_v135
  fn_part8 (F := F) main_arg30 main_v133 main_v136

def fn_part6 {F : FTy → Type} [FloatOps F] (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x3 .f32) (main_arg30 : FVec F S3 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg26
  fn_part7 (F := F) main_arg27 main_arg28 main_arg29 main_arg30 main_v118 main_v119

def fn_part5 {F : FTy → Type} [FloatOps F] (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x3 .f32) (main_arg30 : FVec F S3 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_arg29 main_arg30 main_v98 main_v101 main_c_39

def fn_part4 {F : FTy → Type} [FloatOps F] (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x3 .f32) (main_arg30 : FVec F S3 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x3 .f32) (main_arg30 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x3 .f32) (main_arg30 : FVec F S3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x3 .f32) (main_arg30 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x513 .f32) (main_arg1 : IVec S2x400000 32) (main_arg2 : IVec S50000 32) (main_arg3 : FVec F S513x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x3 .f32) (main_arg30 : FVec F S3 .f32) : IVec S_ 1 :=
  let main_v0 : FVec F S50000x513 .f32 := Host.absf main_arg0
  let main_cst : FVec F S_ .f32 := constant S_ .f32 0x7F800000#32
  let main_v1 : FVec F S50000x513 .f32 := broadcastInDim S50000x513 ![] bcast_S_S50000x513 main_cst
  let main_v2 : IVec S50000x513 1 := cmpf .olt main_v0 main_v1
  let main_c : IVec S_ 1 := constantI S_ 1 1#1
  let main_v3 : IVec S_ 1 := (fun x v => Host.reduce IntOp.andi x v reducesTo_S50000x513_S_d0_1 h_S_) main_v2 main_c
  let main_v4 : FVec F S513x128 .f32 := Host.absf main_arg3
  let main_cst_0 : FVec F S_ .f32 := constant S_ .f32 0x7F800000#32
  let main_v5 : FVec F S513x128 .f32 := broadcastInDim S513x128 ![] bcast_S_S513x128 main_cst_0
  let main_v6 : IVec S513x128 1 := cmpf .olt main_v4 main_v5
  let main_c_1 : IVec S_ 1 := constantI S_ 1 1#1
  let main_v7 : IVec S_ 1 := (fun x v => Host.reduce IntOp.andi x v reducesTo_S513x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x513 : Shape := ⟨2, ![50000, 513]⟩
abbrev S2x400000 : Shape := ⟨2, ![2, 400000]⟩
abbrev S50000 : Shape := ⟨1, ![50000]⟩
abbrev S513x128 : Shape := ⟨2, ![513, 128]⟩
abbrev S128 : Shape := ⟨1, ![128]⟩
abbrev S128x128 : Shape := ⟨2, ![128, 128]⟩
abbrev S384x384 : Shape := ⟨2, ![384, 384]⟩
abbrev S384 : Shape := ⟨1, ![384]⟩
abbrev S384x3 : Shape := ⟨2, ![384, 3]⟩
abbrev S3 : Shape := ⟨1, ![3]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x513 : Shape := ⟨2, ![400000, 513]⟩
abbrev S1x128 : Shape := ⟨2, ![1, 128]⟩
abbrev S50000x128 : Shape := ⟨2, ![50000, 128]⟩
abbrev S2000x513 : Shape := ⟨2, ![2000, 513]⟩
abbrev S2000x128 : Shape := ⟨2, ![2000, 128]⟩
abbrev S400000x128 : Shape := ⟨2, ![400000, 128]⟩
abbrev S50000x1 : Shape := ⟨2, ![50000, 1]⟩
abbrev S256x128 : Shape := ⟨2, ![256, 128]⟩
abbrev S2000x1 : Shape := ⟨2, ![2000, 1]⟩
abbrev S2000x256 : Shape := ⟨2, ![2000, 256]⟩
abbrev S256 : Shape := ⟨1, ![256]⟩
abbrev S256x1 : Shape := ⟨2, ![256, 1]⟩
abbrev S1x384 : Shape := ⟨2, ![1, 384]⟩
abbrev S1x3 : Shape := ⟨2, ![1, 3]⟩
abbrev S256x3 : Shape := ⟨2, ![256, 3]⟩
abbrev S128x384 : Shape := ⟨2, ![128, 384]⟩
abbrev S256x384 : Shape := ⟨2, ![256, 384]⟩

abbrev nBuf : Space → Nat
  | .hbm => 121
  | .vmem => 64
  | .smem => 0
  | _ => 0

abbrev bufTy : (tb : Table) → Fin (tcTables nBuf tb) → BufTy
  | .hbm, ⟨0, _⟩ => ⟨S50000x513, .f32⟩
  | .hbm, ⟨1, _⟩ => ⟨S2x400000, .i32⟩
  | .hbm, ⟨2, _⟩ => ⟨S50000, .i32⟩
  | .hbm, ⟨3, _⟩ => ⟨S513x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S384x384, .f32⟩
  | .hbm, ⟨28, _⟩ => ⟨S384, .f32⟩
  | .hbm, ⟨29, _⟩ => ⟨S384x3, .f32⟩
  | .hbm, ⟨30, _⟩ => ⟨S3, .f32⟩
  | .hbm, ⟨31, _⟩ => ⟨S1x400000, .i32⟩
  | .hbm, ⟨32, _⟩ => ⟨S400000, .i32⟩
  | .hbm, ⟨33, _⟩ => ⟨S1x400000, .i32⟩
  | .hbm, ⟨34, _⟩ => ⟨S400000, .i32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S400000x513, .f32⟩
  | .hbm, ⟨44, _⟩ => ⟨S_, .f32⟩
  | .hbm, ⟨45, _⟩ => ⟨S50000x513, .f32⟩
  | .hbm, ⟨46, _⟩ => ⟨S400000x1, .i32⟩
  | .hbm, ⟨47, _⟩ => ⟨S50000x513, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S50000x128, .f32⟩
  | .hbm, ⟨55, _⟩ => ⟨S_, .i32⟩
  | .hbm, ⟨56, _⟩ => ⟨S400000, .i32⟩
  | .hbm, ⟨57, _⟩ => ⟨S400000, .i1⟩
  | .hbm, ⟨58, _⟩ => ⟨S_, .i32⟩
  | .hbm, ⟨59, _⟩ => ⟨S400000, .i32⟩
  | .hbm, ⟨60, _⟩ => ⟨S400000, .i32⟩
  | .hbm, ⟨61, _⟩ => ⟨S400000, .i32⟩
  | .hbm, ⟨62, _⟩ => ⟨S400000x1, .i32⟩
  | .hbm, ⟨63, _⟩ => ⟨S400000x128, .f32⟩
  | .hbm, ⟨64, _⟩ => ⟨S_, .f32⟩
  | .hbm, ⟨65, _⟩ => ⟨S50000x128, .f32⟩
  | .hbm, ⟨66, _⟩ => ⟨S400000x1, .i32⟩
  | .hbm, ⟨67, _⟩ => ⟨S50000x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S400000, .i32⟩
  | .hbm, ⟨77, _⟩ => ⟨S400000, .i1⟩
  | .hbm, ⟨78, _⟩ => ⟨S_, .i32⟩
  | .hbm, ⟨79, _⟩ => ⟨S400000, .i32⟩
  | .hbm, ⟨80, _⟩ => ⟨S400000, .i32⟩
  | .hbm, ⟨81, _⟩ => ⟨S400000, .i32⟩
  | .hbm, ⟨82, _⟩ => ⟨S400000x1, .i32⟩
  | .hbm, ⟨83, _⟩ => ⟨S400000x128, .f32⟩
  | .hbm, ⟨84, _⟩ => ⟨S_, .f32⟩
  | .hbm, ⟨85, _⟩ => ⟨S50000x128, .f32⟩
  | .hbm, ⟨86, _⟩ => ⟨S400000x1, .i32⟩
  | .hbm, ⟨87, _⟩ => ⟨S50000x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S50000x128, .f32⟩
  | .hbm, ⟨95, _⟩ => ⟨S50000x1, .i32⟩
  | .hbm, ⟨96, _⟩ => ⟨S256x128, .f32⟩
  | .hbm, ⟨97, _⟩ => ⟨S256x128, .f32⟩
  | .hbm, ⟨98, _⟩ => ⟨S256x128, .f32⟩
  | .hbm, ⟨99, _⟩ => ⟨S_, .f32⟩
  | .hbm, ⟨100, _⟩ => ⟨S50000, .f32⟩
  | .hbm, ⟨101, _⟩ => ⟨S_, .f32⟩
  | .hbm, ⟨102, _⟩ => ⟨S256, .f32⟩
  | .hbm, ⟨103, _⟩ => ⟨S50000x1, .i32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S_, .f32⟩
  | .hbm, ⟨109, _⟩ => ⟨S256, .f32⟩
  | .hbm, ⟨110, _⟩ => ⟨S256, .f32⟩
  | .hbm, ⟨111, _⟩ => ⟨S256x1, .f32⟩
  | .hbm, ⟨112, _⟩ => ⟨S256x128, .f32⟩
  | .hbm, ⟨113, _⟩ => ⟨S256x128, .f32⟩
  | .hbm, ⟨114, _⟩ => ⟨S256x128, .f32⟩
  | .hbm, ⟨115, _⟩ => ⟨S256x128, .f32⟩
  | .hbm, ⟨116, _⟩ => ⟨S256x128, .f32⟩
  | .hbm, ⟨117, _⟩ => ⟨S256x128, .f32⟩
  | .hbm, ⟨118, _⟩ => ⟨S1x384, .f32⟩
  | .hbm, ⟨119, _⟩ => ⟨S1x3, .f32⟩
  | .hbm, ⟨120, _⟩ => ⟨S256x3, .f32⟩
  | .local _ .vmem, ⟨0, _⟩ => ⟨S2000x513, .f32⟩
  | .local _ .vmem, ⟨1, _⟩ => ⟨S2000x513, .f32⟩
  | .local _ .vmem, ⟨2, _⟩ => ⟨S2000x513, .f32⟩
  | .local _ .vmem, ⟨3, _⟩ => ⟨S2000x513, .f32⟩
  | .local _ .vmem, ⟨4, _⟩ => ⟨S513x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x1, .i32⟩
  | .local _ .vmem, ⟨49, _⟩ => ⟨S2000x1, .i32⟩
  | .local _ .vmem, ⟨50, _⟩ => ⟨S256x128, .f32⟩
  | .local _ .vmem, ⟨51, _⟩ => ⟨S256x128, .f32⟩
  | .local _ .vmem, ⟨52, _⟩ => ⟨S256x128, .f32⟩
  | .local _ .vmem, ⟨53, _⟩ => ⟨S256x128, .f32⟩
  | .local _ .vmem, ⟨54, _⟩ => ⟨S256x128, .f32⟩
  | .local _ .vmem, ⟨55, _⟩ => ⟨S256x128, .f32⟩
  | .local _ .vmem, ⟨56, _⟩ => ⟨S256x128, .f32⟩
  | .local _ .vmem, ⟨57, _⟩ => ⟨S256x128, .f32⟩
  | .local _ .vmem, ⟨58, _⟩ => ⟨S256x128, .f32⟩
  | .local _ .vmem, ⟨59, _⟩ => ⟨S384x384, .f32⟩
  | .local _ .vmem, ⟨60, _⟩ => ⟨S1x384, .f32⟩
  | .local _ .vmem, ⟨61, _⟩ => ⟨S384x3, .f32⟩
  | .local _ .vmem, ⟨62, _⟩ => ⟨S1x3, .f32⟩
  | .local _ .vmem, ⟨63, _⟩ => ⟨S256x3, .f32⟩
  | _, _ => ⟨S50000x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_1 : Ref sig .tc := ⟨.hbm, 55, rfl⟩
abbrev main_v21 : Ref sig .tc := ⟨.hbm, 56, rfl⟩
abbrev main_v22 : Ref sig .tc := ⟨.hbm, 57, rfl⟩
abbrev main_c_2 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_3 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_4 : Ref sig .tc := ⟨.hbm, 75, rfl⟩
abbrev main_v38 : Ref sig .tc := ⟨.hbm, 76, rfl⟩
abbrev main_v39 : Ref sig .tc := ⟨.hbm, 77, rfl⟩
abbrev main_c_5 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_6 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56_0 : Ref sig .tc := ⟨.hbm, 96, rfl⟩
abbrev main_v56_1 : Ref sig .tc := ⟨.hbm, 97, rfl⟩
abbrev main_v56_2 : Ref sig .tc := ⟨.hbm, 98, rfl⟩
abbrev main_cst_7 : Ref sig .tc := ⟨.hbm, 99, rfl⟩
abbrev main_v57 : Ref sig .tc := ⟨.hbm, 100, rfl⟩
abbrev main_cst_8 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_9 : Ref sig .tc := ⟨.hbm, 105, rfl⟩
abbrev main_v61 : Ref sig .tc := ⟨.hbm, 106, rfl⟩
abbrev main_v62 : Ref sig .tc := ⟨.hbm, 107, rfl⟩
abbrev main_cst_10 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_scratch0 : Ref sig .tc := ⟨.vmem, 53, rfl⟩
abbrev cc3_scratch1 : Ref sig .tc := ⟨.vmem, 54, rfl⟩
abbrev cc3_scratch2 : Ref sig .tc := ⟨.vmem, 55, rfl⟩
abbrev cc4_stg0_0 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg7_0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem5_0 : DmaSem sig := 51
abbrev cc3_sem6_0 : DmaSem sig := 52
abbrev cc4_sem0_0 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x513 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x513 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S513x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v34 : BitVec 1 := Scalar.cmpi .eq arg0 c24_i32
  let v35 : BitVec 32 := Scalar.extui v34
  let c0_i32_22 : BitVec 32 := 0#32
  let v36 : BitVec 1 := Scalar.cmpi .ne v35 c0_i32_22
  v36

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S384x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S384x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x3 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x3 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x513 : S_.BroadcastsInDim S50000x513 (![] : Fin 0 → Fin S50000x513.rank)
  shapeCasts_S128_S1x128 : S128.ShapeCasts S1x128
  inb_S2000x513_S2000x513_0_0 : ∀ a, (![0, 0] : Fin 2 → Nat) a + S2000x513.size a ≤ S2000x513.size a
  h_S2000x513 : 0 < S2000x513.numel
  shapeCasts_S2000x513_S2000x513 : S2000x513.ShapeCasts S2000x513
  inb_S513x128_S513x128_0_0 : ∀ a, (![0, 0] : Fin 2 → Nat) a + S513x128.size a ≤ S513x128.size a
  h_S513x128 : 0 < S513x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  shapeCasts_S50000_S50000x1 : S50000.ShapeCasts S50000x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  bcast_S_S50000 : S_.BroadcastsInDim S50000 (![] : Fin 0 → Fin S50000.rank)
  bcast_S_S256 : S_.BroadcastsInDim S256 (![] : Fin 0 → Fin S256.rank)
  bcast_S50000_S50000x1_0 : S50000.BroadcastsInDim S50000x1 (![0] : Fin 1 → Fin S50000x1.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S384_S1x384 : S384.ShapeCasts S1x384
  shapeCasts_S3_S1x3 : S3.ShapeCasts S1x3
  inb_S384x384_S384x384_0_0 : ∀ a, (![0, 0] : Fin 2 → Nat) a + S384x384.size a ≤ S384x384.size a
  h_S384x384 : 0 < S384x384.numel
  slices_S384x384_o0_0_S128x384 : S384x384.Slices ![0, 0] S128x384
  slices_S384x384_o128_0_S128x384 : S384x384.Slices ![128, 0] S128x384
  slices_S384x384_o256_0_S128x384 : S384x384.Slices ![256, 0] S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  inb_S384x3_S384x3_0_0 : ∀ a, (![0, 0] : Fin 2 → Nat) a + S384x3.size a ≤ S384x3.size a
  h_S384x3 : 0 < S384x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S256x3 : S1x3.Broadcasts S256x3
  inb_S256x3_S256x3_0_0 : ∀ a, (![0, 0] : Fin 2 → Nat) a + S256x3.size a ≤ S256x3.size a
  h_S256x3 : 0 < S256x3.numel
  gather_S50000x513_S400000x1_S400000x513_1_0_n_n_0_1_1513_wf : GatherDims.WF S50000x513 S400000x1 S400000x513 [1] [0] [] [0] [] 1 ![1, 513]
  scatter_S50000x513_S400000x1_S400000x513_1_0_0_1_wf : ScatterDims.WF S50000x513 S400000x1 S400000x513 [1] [0] [0] 1
  dot_S2000x513_S513x128_S2000x128_1_0_0_1_n_n_wf : DotDims.WF S2000x513 S513x128 S2000x128 [1] [0] [0] [1] [] []
  dot_S2000x128_S128x128_S2000x128_1_0_0_1_n_n_wf : DotDims.WF S2000x128 S128x128 S2000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S2000x256_S2000x128_S256x128_0_0_1_1_n_n_wf : DotDims.WF S2000x256 S2000x128 S256x128 [0] [0] [1] [1] [] []
  scatter_S256_S50000x1_S50000_n_0_0_1_wf : ScatterDims.WF S256 S50000x1 S50000 [] [0] [0] 1
  dot_S256x128_S128x384_S256x384_1_0_0_1_n_n_wf : DotDims.WF S256x128 S128x384 S256x384 [1] [0] [0] [1] [] []
  dot_S256x384_S384x3_S256x3_1_0_0_1_n_n_wf : DotDims.WF S256x384 S384x3 S256x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x513.size a ≤ S50000x513.size a
  hwx0_0 : ∀ i : grid0.Coords, EltTy.bits .f32 = 32 ∨ (Rect.block (s := S50000x513) S2000x513.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x513.size a ≤ S50000x513.size a
  hwx0_1 : ∀ i : grid0.Coords, EltTy.bits .f32 = 32 ∨ (Rect.block (s := S50000x513) S2000x513.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S513x128.size a ≤ S513x128.size a
  hwx0_2 : ∀ i : grid0.Coords, EltTy.bits .f32 = 32 ∨ (Rect.block (s := S513x128) S513x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S50000x128.size a
  hwx2_10 : ∀ i : grid2.Coords, EltTy.bits .f32 = 32 ∨ (Rect.block (s := S50000x128) S2000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .i32 = 32 ∨ (Rect.block (s := S50000x1) S2000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .f32 = 32 ∨ (Rect.block (s := S256x128) S256x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x128.size a ≤ S256x128.size a
  hwx3_6 : ∀ i : grid3.Coords, EltTy.bits .f32 = 32 ∨ (Rect.block (s := S256x128) S256x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S384x384.size a ≤ S384x384.size a
  hwx4_3 : ∀ i : grid4.Coords, EltTy.bits .f32 = 32 ∨ (Rect.block (s := S384x384) S384x384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x384.size a ≤ S1x384.size a
  hwx4_4 : ∀ i : grid4.Coords, EltTy.bits .f32 = 32 ∨ (Rect.block (s := S1x384) S1x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S384x3.size a ≤ S384x3.size a
  hwx4_5 : ∀ i : grid4.Coords, EltTy.bits .f32 = 32 ∨ (Rect.block (s := S384x3) S384x3.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x3.size a ≤ S1x3.size a
  hwx4_6 : ∀ i : grid4.Coords, EltTy.bits .f32 = 32 ∨ (Rect.block (s := S1x3) S1x3.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x3.size a ≤ S256x3.size a
  hwx4_7 : ∀ i : grid4.Coords, EltTy.bits .f32 = 32 ∨ (Rect.block (s := S256x3) S256x3.size (cc4_transform_7 i) (hinb4_7 i)).WholeWords (EltTy.packing .f32)

variable [Facts₀]

def gather_S50000x513_S400000x1_S400000x513_1_0_n_n_0_1_1513 : GatherDims S50000x513 S400000x1 S400000x513 where
  offsetDims := [1]
  collapsedSliceDims := [0]
  operandBatchingDims := []
  startIndicesBatchingDims := []
  startIndexMap := [0]
  indexVectorDim := 1
  sliceSizes := ![1, 513]
  wf := gather_S50000x513_S400000x1_S400000x513_1_0_n_n_0_1_1513_wf
def scatter_S50000x513_S400000x1_S400000x513_1_0_0_1 : ScatterDims S50000x513 S400000x1 S400000x513 where
  updateWindowDims := [1]
  insertedWindowDims := [0]
  scatterDimsToOperandDims := [0]
  indexVectorDim := 1
  wf := scatter_S50000x513_S400000x1_S400000x513_1_0_0_1_wf
def dot_S2000x513_S513x128_S2000x128_1_0_0_1_n_n : DotDims S2000x513 S513x128 S2000x128 where
  lhsContracting := [1]
  rhsContracting := [0]
  lhsNonContracting := [0]
  rhsNonContracting := [1]
  lhsBatch := []
  rhsBatch := []
  wf := dot_S2000x513_S513x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x384_S256x384_1_0_0_1_n_n : DotDims S256x128 S128x384 S256x384 where
  lhsContracting := [1]
  rhsContracting := [0]
  lhsNonContracting := [0]
  rhsNonContracting := [1]
  lhsBatch := []
  rhsBatch := []
  wf := dot_S256x128_S128x384_S256x384_1_0_0_1_n_n_wf
def dot_S256x384_S384x3_S256x3_1_0_0_1_n_n : DotDims S256x384 S384x3 S256x3 where
  lhsContracting := [1]
  rhsContracting := [0]
  lhsNonContracting := [0]
  rhsNonContracting := [1]
  lhsBatch := []
  rhsBatch := []
  wf := dot_S256x384_S384x3_S256x3_1_0_0_1_n_n_wf

abbrev win0_0 : Pipeline.Window sig grid0 :=
  Pipeline.Window.ofSpec (Memref.whole main_arg0) S2000x513.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x513.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S513x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg25) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v53) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v54) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v20) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v56_0) S256x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56_1) S256x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56_2) S256x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun i => !(k3_cond2 i == 1#1) | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v67) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v69) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg27) S384x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg29) S384x3.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v73) S1x3.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v74) S256x3.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x513 : Shape := ⟨2, ![50000, 513]⟩
abbrev S2x400000 : Shape := ⟨2, ![2, 400000]⟩
abbrev S50000 : Shape := ⟨1, ![50000]⟩
abbrev S513x128 : Shape := ⟨2, ![513, 128]⟩
abbrev S128 : Shape := ⟨1, ![128]⟩
abbrev S128x128 : Shape := ⟨2, ![128, 128]⟩
abbrev S384x384 : Shape := ⟨2, ![384, 384]⟩
abbrev S384 : Shape := ⟨1, ![384]⟩
abbrev S384x3 : Shape := ⟨2, ![384, 3]⟩
abbrev S3 : Shape := ⟨1, ![3]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x513 : Shape := ⟨2, ![400000, 513]⟩
abbrev S50000x128 : Shape := ⟨2, ![50000, 128]⟩
abbrev S1x128 : Shape := ⟨2, ![1, 128]⟩
abbrev S400000x128 : Shape := ⟨2, ![400000, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x384 : Shape := ⟨2, ![256, 384]⟩
abbrev S1x384 : Shape := ⟨2, ![1, 384]⟩
abbrev S256x3 : Shape := ⟨2, ![256, 3]⟩
abbrev S1x3 : Shape := ⟨2, ![1, 3]⟩

abbrev nBuf : Space → Nat
  | .hbm => 227
  | .vmem => 0
  | .smem => 0
  | _ => 0

abbrev hbmTy0_0 (i : Nat) : BufTy := match i % 128 with
  | 0 => ⟨S50000x513, .f32⟩
  | 1 => ⟨S2x400000, .i32⟩
  | 2 => ⟨S50000, .i32⟩
  | 3 => ⟨S513x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128, .f32⟩
  | 22 => ⟨S128, .f32⟩
  | 23 => ⟨S128, .f32⟩
  | 24 => ⟨S128, .f32⟩
  | 25 => ⟨S128x128, .f32⟩
  | 26 => ⟨S128, .f32⟩
  | 27 => ⟨S384x384, .f32⟩
  | 28 => ⟨S384, .f32⟩
  | 29 => ⟨S384x3, .f32⟩
  | 30 => ⟨S3, .f32⟩
  | 31 => ⟨S1x400000, .i32⟩
  | 32 => ⟨S400000, .i32⟩
  | 33 => ⟨S1x400000, .i32⟩
  | 34 => ⟨S400000, .i32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x513, .f32⟩
  | 44 => ⟨S_, .f32⟩
  | 45 => ⟨S50000x513, .f32⟩
  | 46 => ⟨S400000x1, .i32⟩
  | 47 => ⟨S50000x513, .f32⟩
  | 48 => ⟨S50000x513, .f32⟩
  | 49 => ⟨S50000x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x128, .f32⟩
  | 88 => ⟨S_, .f32⟩
  | 89 => ⟨S50000x128, .f32⟩
  | 90 => ⟨S400000x1, .i32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .i32⟩
  | 124 => ⟨S400000, .i32⟩
  | 125 => ⟨S400000, .i1⟩
  | 126 => ⟨S_, .i32⟩
  | 127 => ⟨S400000, .i32⟩
  | _ => ⟨S50000x513, .f32⟩

abbrev hbmTy0_1 (i : Nat) : BufTy := match i % 128 with
  | 0 => ⟨S400000, .i32⟩
  | 1 => ⟨S400000, .i32⟩
  | 2 => ⟨S400000x1, .i32⟩
  | 3 => ⟨S400000x128, .f32⟩
  | 4 => ⟨S_, .f32⟩
  | 5 => ⟨S50000x128, .f32⟩
  | 6 => ⟨S400000x1, .i32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S128, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .f32⟩
  | 40 => ⟨S256x128, .f32⟩
  | 41 => ⟨S50000x1, .i32⟩
  | 42 => ⟨S256x128, .f32⟩
  | 43 => ⟨S_, .f32⟩
  | 44 => ⟨S50000, .f32⟩
  | 45 => ⟨S_, .f32⟩
  | 46 => ⟨S256, .f32⟩
  | 47 => ⟨S50000x1, .i32⟩
  | 48 => ⟨S256, .f32⟩
  | 49 => ⟨S_, .f32⟩
  | 50 => ⟨S256, .f32⟩
  | 51 => ⟨S256, .f32⟩
  | 52 => ⟨S256x1, .f32⟩
  | 53 => ⟨S256x128, .f32⟩
  | 54 => ⟨S256x128, .f32⟩
  | 55 => ⟨S_, .f32⟩
  | 56 => ⟨S256x128, .f32⟩
  | 57 => ⟨S50000x1, .i32⟩
  | 58 => ⟨S256x128, .f32⟩
  | 59 => ⟨S_, .f32⟩
  | 60 => ⟨S50000, .f32⟩
  | 61 => ⟨S_, .f32⟩
  | 62 => ⟨S256, .f32⟩
  | 63 => ⟨S50000x1, .i32⟩
  | 64 => ⟨S256, .f32⟩
  | 65 => ⟨S_, .f32⟩
  | 66 => ⟨S256, .f32⟩
  | 67 => ⟨S256, .f32⟩
  | 68 => ⟨S256x1, .f32⟩
  | 69 => ⟨S256x128, .f32⟩
  | 70 => ⟨S256x128, .f32⟩
  | 71 => ⟨S_, .f32⟩
  | 72 => ⟨S256x128, .f32⟩
  | 73 => ⟨S50000x1, .i32⟩
  | 74 => ⟨S256x128, .f32⟩
  | 75 => ⟨S_, .f32⟩
  | 76 => ⟨S50000, .f32⟩
  | 77 => ⟨S_, .f32⟩
  | 78 => ⟨S256, .f32⟩
  | 79 => ⟨S50000x1, .i32⟩
  | 80 => ⟨S256, .f32⟩
  | 81 => ⟨S_, .f32⟩
  | 82 => ⟨S256, .f32⟩
  | 83 => ⟨S256, .f32⟩
  | 84 => ⟨S256x1, .f32⟩
  | 85 => ⟨S256x128, .f32⟩
  | 86 => ⟨S256x128, .f32⟩
  | 87 => ⟨S256x384, .f32⟩
  | 88 => ⟨S256x384, .f32⟩
  | 89 => ⟨S1x384, .f32⟩
  | 90 => ⟨S256x384, .f32⟩
  | 91 => ⟨S256x384, .f32⟩
  | 92 => ⟨S_, .f32⟩
  | 93 => ⟨S256x384, .f32⟩
  | 94 => ⟨S256x384, .f32⟩
  | 95 => ⟨S256x3, .f32⟩
  | 96 => ⟨S1x3, .f32⟩
  | 97 => ⟨S256x3, .f32⟩
  | 98 => ⟨S256x3, .f32⟩
  | _ => ⟨S50000x513, .f32⟩

abbrev hbmTy (i : Nat) : BufTy := match i / 128 with
  | 0 => hbmTy0_0 i
  | 1 => hbmTy0_1 i
  | _ => ⟨S50000x513, .f32⟩

abbrev bufTy : (tb : Table) → Fin (tcTables nBuf tb) → BufTy
  | .hbm, ⟨i, _⟩ => hbmTy i
  | _, _ => ⟨S50000x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call0_cst : Ref sig .tc := ⟨.hbm, 69, rfl⟩
abbrev main_call0_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call1_cst : Ref sig .tc := ⟨.hbm, 76, rfl⟩
abbrev main_call1_v0 : Ref sig .tc := ⟨.hbm, 77, rfl⟩
abbrev main_v39 : Ref sig .tc := ⟨.hbm, 78, rfl⟩
abbrev main_c_2 : Ref sig .tc := ⟨.hbm, 79, rfl⟩
abbrev main_v40 : Ref sig .tc := ⟨.hbm, 80, rfl⟩
abbrev main_v41 : Ref sig .tc := ⟨.hbm, 81, rfl⟩
abbrev main_c_3 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_4 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_5 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call2_cst : Ref sig .tc := ⟨.hbm, 113, rfl⟩
abbrev main_call2_v0 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_call3_cst : Ref sig .tc := ⟨.hbm, 120, rfl⟩
abbrev main_call3_v0 : Ref sig .tc := ⟨.hbm, 121, rfl⟩
abbrev main_v75 : Ref sig .tc := ⟨.hbm, 122, rfl⟩
abbrev main_c_6 : Ref sig .tc := ⟨.hbm, 123, rfl⟩
abbrev main_v76 : Ref sig .tc := ⟨.hbm, 124, rfl⟩
abbrev main_v77 : Ref sig .tc := ⟨.hbm, 125, rfl⟩
abbrev main_c_7 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_8 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_9 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_call4_cst : Ref sig .tc := ⟨.hbm, 157, rfl⟩
abbrev main_call4_v0 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_call5_cst : Ref sig .tc := ⟨.hbm, 164, rfl⟩
abbrev main_call5_v0 : Ref sig .tc := ⟨.hbm, 165, rfl⟩
abbrev main_v111 : Ref sig .tc := ⟨.hbm, 166, rfl⟩
abbrev main_cst_10 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_11 : Ref sig .tc := ⟨.hbm, 171, rfl⟩
abbrev main_v115 : Ref sig .tc := ⟨.hbm, 172, rfl⟩
abbrev main_cst_12 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_13 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_14 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_15 : Ref sig .tc := ⟨.hbm, 187, rfl⟩
abbrev main_v127 : Ref sig .tc := ⟨.hbm, 188, rfl⟩
abbrev main_cst_16 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_cst_17 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_cst_18 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_cst_19 : Ref sig .tc := ⟨.hbm, 203, rfl⟩
abbrev main_v139 : Ref sig .tc := ⟨.hbm, 204, rfl⟩
abbrev main_cst_20 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_cst_21 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_call6_cst : Ref sig .tc := ⟨.hbm, 220, rfl⟩
abbrev main_call6_v0 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x513 : S_.BroadcastsInDim S50000x513 (![] : Fin 0 → Fin S50000x513.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S50000x128 : S_.BroadcastsInDim S50000x128 (![] : Fin 0 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S256x128_S256x128_S256x128_S256x384_d1 : Shape.Concatenates [S256x128, S256x128, S256x128] S256x384 1
  bcast_S384_S1x384_1 : S384.BroadcastsInDim S1x384 (![1] : Fin 1 → Fin S1x384.rank)
  bcast_S1x384_S256x384_0_1 : S1x384.BroadcastsInDim S256x384 (![0, 1] : Fin 2 → Fin S256x384.rank)
  bcast_S_S256x384 : S_.BroadcastsInDim S256x384 (![] : Fin 0 → Fin S256x384.rank)
  bcast_S3_S1x3_1 : S3.BroadcastsInDim S1x3 (![1] : Fin 1 → Fin S1x3.rank)
  bcast_S1x3_S256x3_0_1 : S1x3.BroadcastsInDim S256x3 (![0, 1] : Fin 2 → Fin S256x3.rank)
  gather_S50000x513_S400000x1_S400000x513_1_0_n_n_0_1_1513_wf : GatherDims.WF S50000x513 S400000x1 S400000x513 [1] [0] [] [0] [] 1 ![1, 513]
  scatter_S50000x513_S400000x1_S400000x513_1_0_0_1_wf : ScatterDims.WF S50000x513 S400000x1 S400000x513 [1] [0] [0] 1
  dot_S50000x513_S513x128_S50000x128_1_0_0_1_n_n_wf : DotDims.WF S50000x513 S513x128 S50000x128 [1] [0] [0] [1] [] []
  dot_S50000x128_S128x128_S50000x128_1_0_0_1_n_n_wf : DotDims.WF S50000x128 S128x128 S50000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x384_S384x384_S256x384_1_0_0_1_n_n_wf : DotDims.WF S256x384 S384x384 S256x384 [1] [0] [0] [1] [] []
  dot_S256x384_S384x3_S256x3_1_0_0_1_n_n_wf : DotDims.WF S256x384 S384x3 S256x3 [1] [0] [0] [1] [] []

variable [Facts₀]

def gather_S50000x513_S400000x1_S400000x513_1_0_n_n_0_1_1513 : GatherDims S50000x513 S400000x1 S400000x513 where
  offsetDims := [1]
  collapsedSliceDims := [0]
  operandBatchingDims := []
  startIndicesBatchingDims := []
  startIndexMap := [0]
  indexVectorDim := 1
  sliceSizes := ![1, 513]
  wf := gather_S50000x513_S400000x1_S400000x513_1_0_n_n_0_1_1513_wf
def scatter_S50000x513_S400000x1_S400000x513_1_0_0_1 : ScatterDims S50000x513 S400000x1 S400000x513 where
  updateWindowDims := [1]
  insertedWindowDims := [0]
  scatterDimsToOperandDims := [0]
  indexVectorDim := 1
  wf := scatter_S50000x513_S400000x1_S400000x513_1_0_0_1_wf
def dot_S50000x513_S513x128_S50000x128_1_0_0_1_n_n : DotDims S50000x513 S513x128 S50000x128 where
  lhsContracting := [1]
  rhsContracting := [0]
  lhsNonContracting := [0]
  rhsNonContracting := [1]
  lhsBatch := []
  rhsBatch := []
  wf := dot_S50000x513_S513x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x384_S384x384_S256x384_1_0_0_1_n_n : DotDims S256x384 S384x384 S256x384 where
  lhsContracting := [1]
  rhsContracting := [0]
  lhsNonContracting := [0]
  rhsNonContracting := [1]
  lhsBatch := []
  rhsBatch := []
  wf := dot_S256x384_S384x384_S256x384_1_0_0_1_n_n_wf
def dot_S256x384_S384x3_S256x3_1_0_0_1_n_n : DotDims S256x384 S384x3 S256x3 where
  lhsContracting := [1]
  rhsContracting := [0]
  lhsNonContracting := [0]
  rhsNonContracting := [1]
  lhsBatch := []
  rhsBatch := []
  wf := dot_S256x384_S384x3_S256x3_1_0_0_1_n_n_wf

class Facts : Prop extends Facts₀ where

variable [Facts]
-- ==== Proof.K.Reg2.lean ====
/- REGION 2 of @main (custom_call 2, pipeline 2, `cc2__ginconv_kernel`), its class-A half at a PARAMETER `V` — the
   TensorCore's buffer contents when the region is entered —, at any `F`: each window's block at a point (`iblk2`),
   the output window's buffer after the body from the input windows' blocks (`out2_10`), the body's triple
   (`sound_kernel2`), the pipeline's proof data (`dat2`) and its body obligation (`body_obligation2`).
   Ten input windows 0..9 (x, agg, W1, b1, bn_gamma, bn_beta, bn_mean, bn_var, W2, b2) and one output window 10.
   Windows 0, 1 and 10 move with the grid point (rows 2000·i … 2000·i+1999); windows 2..9 have a constant index map
   and are fetched at the first point only: unfetched, their block index has not moved, and the staging buffer still
   holds the block. -/
import proofs.«418047_j44229573214958_1_alg».proof.Proof.Gen.Kernel.Launch
import proofs.«418047_j44229573214958_1_alg».proof.Proof.Gen.Kernel.Skeleton
import proofs.«418047_j44229573214958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.Kernel.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! # REGION 2 of @main: custom_call 2, `cc2__ginconv_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not, for ANY proof
    data whose array is `V`'s (`hA`) and whose body leaves the block in place (`hafter`): unfetched, the index has
    not moved (the windows with a constant index map are fetched at the first point only); every window is uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- Window 10's staging buffer after the body, from the input windows' blocks in window order (x, agg, W1, b1,
    bn_gamma, bn_beta, bn_mean, bn_var, W2, b2): its one store as a piece. The hidden layer's payload reads b1, then
    bn_var, bn_mean, bn_gamma, bn_beta in that order (the order the body loads them), then W2; the store's payload
    adds b2 and clamps at zero. -/
def out2_10 (x0 : Vec F S2000x128 .f32) (x1 : Vec F S2000x128 .f32) (x2 : Vec F S128x128 .f32) (x3 : Vec F S1x128 .f32) (x4 : Vec F S1x128 .f32)
    (x5 : Vec F S1x128 .f32) (x6 : Vec F S1x128 .f32) (x7 : Vec F S1x128 .f32) (x8 : Vec F S128x128 .f32) (x9 : Vec F S1x128 .f32) : Vec F S2000x128 .f32 :=
  View.canon [⟨r2_0, k2_pay1 (k2_pay2 (View.ld x0 r2_0) (View.ld x1 r2_0) (View.ld x2 r2_1) (View.ld x3 r2_2) (View.ld x7 r2_2) (View.ld x6 r2_2)
    (View.ld x4 r2_2) (View.ld x5 r2_2) (View.ld x8 r2_1)) (View.ld x9 r2_2)⟩]

/-- The one store tiles the buffer (checked by evaluation), so it covers it. -/
theorem cover2_10 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The kernel body on whole staging memrefs, the inputs' at read contents `xW` and the output's at anything, runs to
    the continuation holding the inputs' as they were and the output's at `out2_10` of the inputs'. The body reads the
    output's buffer once before storing over all of it: what it held does not matter. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole)
    (x0 : Vec F S2000x128 .f32) (x1 : Vec F S2000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__ginconv_kernel i arg1 harg1 arg2 harg2 arg3 harg3 arg4 harg4 arg5 harg5 arg6 harg6 arg7 harg7 arg8 harg8 arg9 harg9 arg10 harg10 arg11 harg11) K := by
  simp only [cc2__ginconv_kernel_eq_skeleton]; unfold cc2__ginconv_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-! ## The pipeline's proof data -/

/-- The proof data of pipeline 2 on core `c`: the arrays as the region finds them (`V`); after the body at point `t`
    each input's buffer at its block and the output's at `out2_10` of the input blocks; the invariant the class's (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-! Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand
-- ==== Proof.KI.Reg0.lean ====
/- REGION 0 of @main, its class-A half: the first fused layer's kernel on its 25-point grid, ten input windows
   (x, agg, W1, b1, bn_gamma, bn_beta, bn_mean, bn_var, W2, b2) and one output window, stated at a PARAMETER `V` —
   the TensorCore's buffer contents when the region is entered — and at any float type `F`.
   Each window's block at a point is read off its array (`iblk0`); the output buffer after the body is the body's one
   store, whole-buffer, of the payload computed from the ten loaded blocks (`out0_10`); the body's triple
   (`sound_kernel0`), the pipeline's proof data (`dat0`) and the body obligation (`body_obligation0`) follow. -/
import proofs.«418047_j44229573214958_1_alg».proof.Proof.Gen.KernelIdeal.Launch
import proofs.«418047_j44229573214958_1_alg».proof.Proof.Gen.KernelIdeal.Skeleton
import proofs.«418047_j44229573214958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has 2000 coordinates recurses once per coordinate
set_option maxRecDepth 16384

noncomputable section

namespace Cert.KernelIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (x): its current staging buffer holds its block at every point, fetched there or not — where
    it is not fetched its block index has not moved since the previous point —, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (agg): its current staging buffer holds its block at every point, fetched there or not — where
    it is not fetched its block index has not moved since the previous point —, for any proof data whose array is
    `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (W1): its current staging buffer holds its block at every point, fetched there or not — where
    it is not fetched its block index has not moved since the previous point —, for any proof data whose array is
    `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (b1): its current staging buffer holds its block at every point, fetched there or not — where
    it is not fetched its block index has not moved since the previous point —, for any proof data whose array is
    `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (bn_gamma): its current staging buffer holds its block at every point, fetched there or not — where
    it is not fetched its block index has not moved since the previous point —, for any proof data whose array is
    `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (bn_beta): its current staging buffer holds its block at every point, fetched there or not — where
    it is not fetched its block index has not moved since the previous point —, for any proof data whose array is
    `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (bn_mean): its current staging buffer holds its block at every point, fetched there or not — where
    it is not fetched its block index has not moved since the previous point —, for any proof data whose array is
    `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7 (bn_var): its current staging buffer holds its block at every point, fetched there or not — where
    it is not fetched its block index has not moved since the previous point —, for any proof data whose array is
    `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8 (W2): its current staging buffer holds its block at every point, fetched there or not — where
    it is not fetched its block index has not moved since the previous point —, for any proof data whose array is
    `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9 (b2): its current staging buffer holds its block at every point, fetched there or not — where
    it is not fetched its block index has not moved since the previous point —, for any proof data whose array is
    `V`'s and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_0 : Rect S2000x513 := Rect.unit (s := S2000x513) ![0, 0] S2000x513.size inb_S2000x513_S2000x513_0_0
abbrev r0_1 : Rect S513x128 := Rect.unit (s := S513x128) ![0, 0] S513x128.size inb_S513x128_S513x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S2000x128 := Rect.unit (s := S2000x128) ![0, 0] S2000x128.size inb_S2000x128_S2000x128_0_0

/-! ## What the body leaves in the output window's buffer -/

/-- Window 10's staging buffer after the body, from the input windows' blocks: its one store as a piece. The stored
    value is relu (h · W2 + b2) with h = relu (batch-norm ((x + agg) · W1 + b1)): the second product's payload takes
    x, agg, W1, b1, then bn_var, bn_mean, bn_gamma, bn_beta in the order the body loads them, then W2. -/
def out0_10 (x0 : Vec F S2000x513 .f32) (x1 : Vec F S2000x513 .f32) (x2 : Vec F S513x128 .f32) (x3 : Vec F S1x128 .f32) (x4 : Vec F S1x128 .f32)
    (x5 : Vec F S1x128 .f32) (x6 : Vec F S1x128 .f32) (x7 : Vec F S1x128 .f32) (x8 : Vec F S128x128 .f32) (x9 : Vec F S1x128 .f32) : Vec F S2000x128 .f32 :=
  View.canon [⟨r0_4, k0_pay1 (k0_pay2 (View.ld x0 r0_0) (View.ld x1 r0_0) (View.ld x2 r0_1) (View.ld x3 r0_2) (View.ld x7 r0_2) (View.ld x6 r0_2)
    (View.ld x4 r0_2) (View.ld x5 r0_2) (View.ld x8 r0_3)) (k0_pay3 (View.ld x9 r0_2))⟩]

/-- The one store tiles the buffer, so it covers it. -/
theorem cover0_10 (p0 : Vec F S2000x128 .f32) (y : S2000x128.Idx) :
    ∃ pc ∈ ([⟨r0_4, p0⟩] : List (View.Piece (Elt F) S2000x128 .f32)), y ∈ pc.1.set :=
  View.cover_of_tiled [⟨r0_4, p0⟩] S2000x128.size (by rfl) y

/-! ## The body's triple -/

set_option maxHeartbeats 1000000 in
/-- The kernel body on whole staging memrefs, the inputs' at read contents `xW` and the output's at anything (the body
    reads it once and drops the value), runs to the continuation holding the inputs' as they were and the output's at
    `out0_10` of the inputs'. -/
theorem sound_kernel0 (c : Dev nD) (E : Set ℕ) (i : grid0.Coords) (arg0 : Memref sig .tc .vmem S2000x513 .f32) (harg0 : arg0.IsWhole) (arg1 : Memref sig .tc .vmem S2000x513 .f32) (harg1 : arg1.IsWhole) (arg2 : Memref sig .tc .vmem S513x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x513 .f32) (x1 : Vec F S2000x513 .f32) (x2 : Vec F S513x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out0_10 x0 x1 x2 x3 x4 x5 x6 x7 x8 x9)) -∗ K ⟨⟩))
      ⊢ wp frame (wpE (defs₀ (F := F)) Variants.none c none) E (cc0__ginconv_kernel i arg0 harg0 arg1 harg1 arg2 harg2 arg3 harg3 arg4 harg4 arg5 harg5 arg6 harg6 arg7 harg7 arg8 harg8 arg9 harg9 arg10 harg10) K := by
  simp only [cc0__ginconv_kernel_eq_skeleton]; unfold cc0__ginconv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## The pipeline's proof data -/

/-- The proof data of pipeline 0 on core `c`: the arrays as the region finds them (`V`); after the body at point `t`
    each input's buffer at its block and the output's at `out0_10` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
/- REGION 1 of @main (custom_call 1, pipeline 1, `cc1__ginconv_kernel`), its class-A half at a PARAMETER `V` — the
   TensorCore's buffer contents when the region is entered —, at any `F`: each window's block at a point (`iblk1`),
   the output window's buffer after the body from the input windows' blocks (`out1_10`), the body's triple
   (`sound_kernel1`), the pipeline's proof data (`dat1`) and its body obligation (`body_obligation1`).
   Ten input windows 0..9 (x, agg, W1, b1, bn_gamma, bn_beta, bn_mean, bn_var, W2, b2) and one output window 10.
   Windows 0, 1 and 10 move with the grid point (rows 2000·i … 2000·i+1999); windows 2..9 have a constant index map
   and are fetched at the first point only: unfetched, their block index has not moved, and the staging buffer still
   holds the block. -/
import proofs.«418047_j44229573214958_1_alg».proof.Proof.Gen.KernelIdeal.Launch
import proofs.«418047_j44229573214958_1_alg».proof.Proof.Gen.KernelIdeal.Skeleton
import proofs.«418047_j44229573214958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.KernelIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! # REGION 1 of @main: custom_call 1, `cc1__ginconv_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for ANY proof
    data whose array is `V`'s (`hA`) and whose body leaves the block in place (`hafter`): unfetched, the index has
    not moved (the windows with a constant index map are fetched at the first point only); every window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 10's staging buffer after the body, from the input windows' blocks in window order (x, agg, W1, b1,
    bn_gamma, bn_beta, bn_mean, bn_var, W2, b2): its one store as a piece. The hidden layer's payload reads b1, then
    bn_var, bn_mean, bn_gamma, bn_beta in that order (the order the body loads them), then W2; the store's payload
    adds b2 and clamps at zero. -/
def out1_10 (x0 : Vec F S2000x128 .f32) (x1 : Vec F S2000x128 .f32) (x2 : Vec F S128x128 .f32) (x3 : Vec F S1x128 .f32) (x4 : Vec F S1x128 .f32)
    (x5 : Vec F S1x128 .f32) (x6 : Vec F S1x128 .f32) (x7 : Vec F S1x128 .f32) (x8 : Vec F S128x128 .f32) (x9 : Vec F S1x128 .f32) : Vec F S2000x128 .f32 :=
  View.canon [⟨r1_0, k1_pay1 (k1_pay2 (View.ld x0 r1_0) (View.ld x1 r1_0) (View.ld x2 r1_1) (View.ld x3 r1_2) (View.ld x7 r1_2) (View.ld x6 r1_2)
    (View.ld x4 r1_2) (View.ld x5 r1_2) (View.ld x8 r1_1)) (View.ld x9 r1_2)⟩]

/-- The one store tiles the buffer (checked by evaluation), so it covers it. -/
theorem cover1_10 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `xW` and the output's at anything, runs to
    the continuation holding the inputs' as they were and the output's at `out1_10` of the inputs'. The body reads the
    output's buffer once before storing over all of it: what it held does not matter. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole)
    (x0 : Vec F S2000x128 .f32) (x1 : Vec F S2000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__ginconv_kernel i arg1 harg1 arg2 harg2 arg3 harg3 arg4 harg4 arg5 harg5 arg6 harg6 arg7 harg7 arg8 harg8 arg9 harg9 arg10 harg10 arg11 harg11) K := by
  simp only [cc1__ginconv_kernel_eq_skeleton]; unfold cc1__ginconv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of pipeline 1 on core `c`: the arrays as the region finds them (`V`); after the body at point `t`
    each input's buffer at its block and the output's at `out1_10` of the input blocks; the invariant the class's (the
    scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KI.Reg2.lean ====
/- REGION 2 of @main (custom_call 2, pipeline 2, `cc2__ginconv_kernel`), its class-A half at a PARAMETER `V` — the
   TensorCore's buffer contents when the region is entered —, at any `F`: each window's block at a point (`iblk2`),
   the output window's buffer after the body from the input windows' blocks (`out2_10`), the body's triple
   (`sound_kernel2`), the pipeline's proof data (`dat2`) and its body obligation (`body_obligation2`).
   Ten input windows 0..9 (x, agg, W1, b1, bn_gamma, bn_beta, bn_mean, bn_var, W2, b2) and one output window 10.
   Windows 0, 1 and 10 move with the grid point (rows 2000·i … 2000·i+1999); windows 2..9 have a constant index map
   and are fetched at the first point only: unfetched, their block index has not moved, and the staging buffer still
   holds the block. -/
import proofs.«418047_j44229573214958_1_alg».proof.Proof.Gen.KernelIdeal.Launch
import proofs.«418047_j44229573214958_1_alg».proof.Proof.Gen.KernelIdeal.Skeleton
import proofs.«418047_j44229573214958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.KernelIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! # REGION 2 of @main: custom_call 2, `cc2__ginconv_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not, for ANY proof
    data whose array is `V`'s (`hA`) and whose body leaves the block in place (`hafter`): unfetched, the index has
    not moved (the windows with a constant index map are fetched at the first point only); every window is uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- Window 10's staging buffer after the body, from the input windows' blocks in window order (x, agg, W1, b1,
    bn_gamma, bn_beta, bn_mean, bn_var, W2, b2): its one store as a piece. The hidden layer's payload reads b1, then
    bn_var, bn_mean, bn_gamma, bn_beta in that order (the order the body loads them), then W2; the store's payload
    adds b2 and clamps at zero. -/
def out2_10 (x0 : Vec F S2000x128 .f32) (x1 : Vec F S2000x128 .f32) (x2 : Vec F S128x128 .f32) (x3 : Vec F S1x128 .f32) (x4 : Vec F S1x128 .f32)
    (x5 : Vec F S1x128 .f32) (x6 : Vec F S1x128 .f32) (x7 : Vec F S1x128 .f32) (x8 : Vec F S128x128 .f32) (x9 : Vec F S1x128 .f32) : Vec F S2000x128 .f32 :=
  View.canon [⟨r2_0, k2_pay1 (k2_pay2 (View.ld x0 r2_0) (View.ld x1 r2_0) (View.ld x2 r2_1) (View.ld x3 r2_2) (View.ld x7 r2_2) (View.ld x6 r2_2)
    (View.ld x4 r2_2) (View.ld x5 r2_2) (View.ld x8 r2_1)) (View.ld x9 r2_2)⟩]

/-- The one store tiles the buffer (checked by evaluation), so it covers it. -/
theorem cover2_10 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The kernel body on whole staging memrefs, the inputs' at read contents `xW` and the output's at anything, runs to
    the continuation holding the inputs' as they were and the output's at `out2_10` of the inputs'. The body reads the
    output's buffer once before storing over all of it: what it held does not matter. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole)
    (x0 : Vec F S2000x128 .f32) (x1 : Vec F S2000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__ginconv_kernel i arg1 harg1 arg2 harg2 arg3 harg3 arg4 harg4 arg5 harg5 arg6 harg6 arg7 harg7 arg8 harg8 arg9 harg9 arg10 harg10 arg11 harg11) K := by
  simp only [cc2__ginconv_kernel_eq_skeleton]; unfold cc2__ginconv_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-! ## The pipeline's proof data -/

/-- The proof data of pipeline 2 on core `c`: the arrays as the region finds them (`V`); after the body at point `t`
    each input's buffer at its block and the output's at `out2_10` of the input blocks; the invariant the class's (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-! Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand
-- ==== Proof.KI.Reg3.lean ====
/- The half of REGION 3 of @main (custom_call 3, pipeline 3: the pooling kernel `cc3__pool_kernel`) at a PARAMETER `V`, the
   TensorCore's buffer contents when the region is entered, generic in the float interpretation. The body is not uniform
   over the grid: at the first point it resets three accumulators held in scratch buffers, at every point it adds the
   point's contribution to each, and at the last point it copies them to the three output windows. So the proof data carry
   the accumulators in the invariant: each window's block at a point (`iblk3`), the accumulators' contents after each point
   (`acc3_0`, `acc3_1`, `acc3_2`, by recursion on the point), the body's triple in each of its three cases
   (`sound_kernel3_first`, `sound_kernel3_mid`, `sound_kernel3_last`), the proof data (`dat3`), its body obligation
   (`body_obligation3`) and the invariant at the region's two ends (`hin3`, `hout3`). -/
import proofs.«418047_j44229573214958_1_alg».proof.Proof.Gen.KernelIdeal.Launch
import proofs.«418047_j44229573214958_1_alg».proof.Proof.Gen.KernelIdeal.Skeleton
import proofs.«418047_j44229573214958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand
open Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3 of @main: custom_call 3, `cc3__pool_kernel` (pipeline 3), at the entry contents `V` -/

/-! ## The body's branch conditions -/

/-- The condition of the body's first conditional (the reset of the three accumulators), from the grid coordinates. -/
abbrev cond3_1 (i : grid3.Coords) : Prop := (Scalar.cmpi .ne (Scalar.extui (Scalar.cmpi .eq (BitVec.ofNat 32 (i 0).val) 0#32)) 0#32) = 1#1

/-- It holds at the first point only — decided over the grid. -/
theorem hcond3_1 : ∀ t : Fin cfg3.N, cond3_1 (grid3.coords t) ↔ t.val = 0 :=
  (by decide +kernel : ∀ t : Fin grid3.N, cond3_1 (grid3.coords t) ↔ t.val = 0)
/-- The second conditional (the copy of the accumulators to the output windows) is taken at the last point only. -/
theorem hcond3_2 : ∀ t : Fin cfg3.N, k3_cond2 (grid3.coords t) = 1#1 ↔ t.val = 24 :=
  (by decide +kernel : ∀ t : Fin grid3.N, k3_cond2 (grid3.coords t) = 1#1 ↔ t.val = 24)

/-! ## Whole-buffer loads and stores -/

theorem off3 : (![0, 0] : Fin 2 → ℕ) = fun _ => 0 := funext fun a => by fin_cases a <;> rfl

/-- A store through the whole-buffer rectangle, LAST, leaves its payload in the buffer, whatever was stored before. -/
theorem read_writes_unit3 {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, List.mem_cons.mpr (Or.inl rfl), View.mem_set_unit_zero h inb y⟩).trans
    (View.canon_cons_unit_zero h inb w L)

/-- A load through the whole-buffer rectangle reads the buffer. -/
theorem readAt_unit3 {sp : Space} {S : Shape} {e : EltTy} (v : View sig .tc sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb _

/-! ## The body's triple, case by case -/

set_option maxHeartbeats 2000000 in
/-- The body at the FIRST point (the reset taken, the copy not): on whole staging memrefs of the input windows at contents `x0 … x3` and
    whole accumulators at anything, it runs to the continuation holding the inputs as they were and each accumulator at
    its update of the reset value; the output windows' memrefs are not touched. -/
theorem sound_kernel3_first (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .i32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
    (hc1 : cond3_1 i) (hc2 : ¬ k3_cond2 i = 1#1)
    (x0 : Vec F S2000x128 .f32) (x1 : Vec F S2000x128 .f32) (x2 : Vec F S2000x128 .f32) (x3 : Vec F S2000x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg8 fullShare (k3_pay6 x3 k3_pay2 x0)
            ∗ owns (c : Thread nD τ) arg9 fullShare (k3_pay7 x3 k3_pay3 x1)
            ∗ owns (c : Thread nD τ) arg10 fullShare (k3_pay1 (k3_pay8 x3 k3_pay4 x2))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9 arg10 harg10) K := by
  simp only [cc3__pool_kernel_eq_skeleton]; unfold cc3__pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%d8, %f8, -, H8⟩, ⟨%d9, %f9, -, H9⟩, ⟨%d10, %f10, -, H10⟩, Hk⟩
  subst hf0 hf1 hf2 hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H8]
  · iexists _; isplitr
    swap; · iexact H8
    ipureintro
    refine (read_writes_unit3 _ _ off3 _ _ _).trans ?_
    sl_unfold_run_names
    rw [View.readCov_unit_zero _ off3, readAt_unit3 _ _ off3, readAt_unit3 _ _ off3]
  isplitl [H9]
  · iexists _; isplitr
    swap; · iexact H9
    ipureintro
    refine (read_writes_unit3 _ _ off3 _ _ _).trans ?_
    sl_unfold_run_names
    rw [View.readCov_unit_zero _ off3, readAt_unit3 _ _ off3, readAt_unit3 _ _ off3]
  iexists _; isplitr
  swap; · iexact H10
  ipureintro
  refine (read_writes_unit3 _ _ off3 _ _ _).trans ?_
  sl_unfold_run_names
  rw [View.readCov_unit_zero _ off3, readAt_unit3 _ _ off3, readAt_unit3 _ _ off3]

set_option maxHeartbeats 2000000 in
/-- The body at a point that is neither the first nor the last (no branch taken): each accumulator, whole at contents `sj`, is left
    at its update by the point's blocks; the output windows' memrefs are not touched. -/
theorem sound_kernel3_mid (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .i32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
    (hc1 : ¬ cond3_1 i) (hc2 : ¬ k3_cond2 i = 1#1)
    (x0 : Vec F S2000x128 .f32) (x1 : Vec F S2000x128 .f32) (x2 : Vec F S2000x128 .f32) (x3 : Vec F S2000x1 .i32) (s0 : Vec F S256x128 .f32) (s1 : Vec F S256x128 .f32) (s2 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ owns (c : Thread nD τ) arg8 fullShare s0 ∗ owns (c : Thread nD τ) arg9 fullShare s1 ∗ owns (c : Thread nD τ) arg10 fullShare s2
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg8 fullShare (k3_pay6 x3 s0 x0)
            ∗ owns (c : Thread nD τ) arg9 fullShare (k3_pay7 x3 s1 x1)
            ∗ owns (c : Thread nD τ) arg10 fullShare (k3_pay1 (k3_pay8 x3 s2 x2))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9 arg10 harg10) K := by
  simp only [cc3__pool_kernel_eq_skeleton]; unfold cc3__pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, ⟨%f10, %hf10, H10⟩, Hk⟩
  subst hf0 hf1 hf2 hf3 hf8 hf9 hf10
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H8]
  · iexists _; isplitr
    swap; · iexact H8
    ipureintro
    refine (read_writes_unit3 _ _ off3 _ _ _).trans ?_
    rw [readAt_unit3 _ _ off3, readAt_unit3 _ _ off3, readAt_unit3 _ _ off3]
  isplitl [H9]
  · iexists _; isplitr
    swap; · iexact H9
    ipureintro
    refine (read_writes_unit3 _ _ off3 _ _ _).trans ?_
    rw [readAt_unit3 _ _ off3, readAt_unit3 _ _ off3, readAt_unit3 _ _ off3]
  iexists _; isplitr
  swap; · iexact H10
  ipureintro
  refine (read_writes_unit3 _ _ off3 _ _ _).trans ?_
  rw [readAt_unit3 _ _ off3, readAt_unit3 _ _ off3, readAt_unit3 _ _ off3]

set_option maxHeartbeats 2000000 in
/-- The body at the LAST point (the copy taken): each accumulator is updated by the point's blocks and then copied to its
    output window's memref. -/
theorem sound_kernel3_last (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .i32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
    (hc1 : ¬ cond3_1 i) (hc2 : k3_cond2 i = 1#1)
    (x0 : Vec F S2000x128 .f32) (x1 : Vec F S2000x128 .f32) (x2 : Vec F S2000x128 .f32) (x3 : Vec F S2000x1 .i32) (s0 : Vec F S256x128 .f32) (s1 : Vec F S256x128 .f32) (s2 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1 ∗ owns (c : Thread nD τ) arg10 fullShare s2
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k3_pay6 x3 s0 x0) ∗ owns (c : Thread nD τ) arg6 fullShare (k3_pay7 x3 s1 x1)
            ∗ owns (c : Thread nD τ) arg7 fullShare (k3_pay1 (k3_pay8 x3 s2 x2))
            ∗ owns (c : Thread nD τ) arg8 fullShare (k3_pay6 x3 s0 x0)
            ∗ owns (c : Thread nD τ) arg9 fullShare (k3_pay7 x3 s1 x1)
            ∗ owns (c : Thread nD τ) arg10 fullShare (k3_pay1 (k3_pay8 x3 s2 x2))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9 arg10 harg10) K := by
  simp only [cc3__pool_kernel_eq_skeleton]; unfold cc3__pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
  subst hf0 hf1 hf2 hf3 hf8 hf9 hf10
  sl_exec (disch := first | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    refine (read_writes_unit3 _ _ off3 _ _ _).trans ((View.readCov_unit_zero _ off3 _ _).trans ?_)
    rw [readAt_unit3 _ _ off3, readAt_unit3 _ _ off3, readAt_unit3 _ _ off3]
  isplitl [H6]
  · iexists _; isplitr
    swap; · iexact H6
    ipureintro
    refine (read_writes_unit3 _ _ off3 _ _ _).trans ((View.readCov_unit_zero _ off3 _ _).trans ?_)
    rw [readAt_unit3 _ _ off3, readAt_unit3 _ _ off3, readAt_unit3 _ _ off3]
  isplitl [H7]
  · iexists _; isplitr
    swap; · iexact H7
    ipureintro
    refine (read_writes_unit3 _ _ off3 _ _ _).trans ((View.readCov_unit_zero _ off3 _ _).trans ?_)
    rw [readAt_unit3 _ _ off3, readAt_unit3 _ _ off3, readAt_unit3 _ _ off3]
  isplitl [H8]
  · iexists _; isplitr
    swap; · iexact H8
    ipureintro
    refine (read_writes_unit3 _ _ off3 _ _ _).trans ?_
    rw [readAt_unit3 _ _ off3, readAt_unit3 _ _ off3, readAt_unit3 _ _ off3]
  isplitl [H9]
  · iexists _; isplitr
    swap; · iexact H9
    ipureintro
    refine (read_writes_unit3 _ _ off3 _ _ _).trans ?_
    rw [readAt_unit3 _ _ off3, readAt_unit3 _ _ off3, readAt_unit3 _ _ off3]
  iexists _; isplitr
  swap; · iexact H10
  ipureintro
  refine (read_writes_unit3 _ _ off3 _ _ _).trans ?_
  rw [readAt_unit3 _ _ off3, readAt_unit3 _ _ off3, readAt_unit3 _ _ off3]

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for ANY proof data
    whose array is `V`'s (`hA`) and whose body leaves the block in place (`hafter`): the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The accumulators -/

/-- The first point of the grid. -/
def t3_0 : Fin cfg3.N := ⟨0, lt_of_lt_of_eq (by decide : 0 < 25) N_3.symm⟩

/-- Accumulator 0 after the body at point `n`: at the first point the update of the reset value by the point's blocks of windows 3
    and 0, at a later point of the grid the update of what the point before left (past the grid, unchanged). -/
def acc3_0 (c : Dev nD) : ℕ → Vec F S256x128 .f32
  | 0 => k3_pay6 (iblk3 V c 3 t3_0) k3_pay2 (iblk3 V c 0 t3_0)
  | n + 1 =>
    if h : n + 1 < cfg3.N then k3_pay6 (iblk3 V c 3 ⟨n + 1, h⟩) (acc3_0 c n) (iblk3 V c 0 ⟨n + 1, h⟩)
    else acc3_0 c n

/-- At the first point. -/
theorem acc3_0_first (c : Dev nD) (t : Fin cfg3.N) (h : t.val = 0) :
    acc3_0 V c t.val = k3_pay6 (iblk3 V c 3 t) k3_pay2 (iblk3 V c 0 t) := by
  obtain ⟨n, hn⟩ := t
  dsimp only at h
  subst h
  rfl

/-- At a later point: the update of what the point before left. -/
theorem acc3_0_step (c : Dev nD) (t : Fin cfg3.N) (h : t.val ≠ 0) :
    acc3_0 V c t.val = k3_pay6 (iblk3 V c 3 t) (acc3_0 V c (t.val - 1)) (iblk3 V c 0 t) := by
  obtain ⟨n, hn⟩ := t
  cases n with
  | zero => exact absurd rfl h
  | succ n => exact (dif_pos hn).trans rfl

/-- Accumulator 1 after the body at point `n`: at the first point the update of the reset value by the point's blocks of windows 3
    and 1, at a later point of the grid the update of what the point before left (past the grid, unchanged). -/
def acc3_1 (c : Dev nD) : ℕ → Vec F S256x128 .f32
  | 0 => k3_pay7 (iblk3 V c 3 t3_0) k3_pay3 (iblk3 V c 1 t3_0)
  | n + 1 =>
    if h : n + 1 < cfg3.N then k3_pay7 (iblk3 V c 3 ⟨n + 1, h⟩) (acc3_1 c n) (iblk3 V c 1 ⟨n + 1, h⟩)
    else acc3_1 c n

/-- At the first point. -/
theorem acc3_1_first (c : Dev nD) (t : Fin cfg3.N) (h : t.val = 0) :
    acc3_1 V c t.val = k3_pay7 (iblk3 V c 3 t) k3_pay3 (iblk3 V c 1 t) := by
  obtain ⟨n, hn⟩ := t
  dsimp only at h
  subst h
  rfl

/-- At a later point: the update of what the point before left. -/
theorem acc3_1_step (c : Dev nD) (t : Fin cfg3.N) (h : t.val ≠ 0) :
    acc3_1 V c t.val = k3_pay7 (iblk3 V c 3 t) (acc3_1 V c (t.val - 1)) (iblk3 V c 1 t) := by
  obtain ⟨n, hn⟩ := t
  cases n with
  | zero => exact absurd rfl h
  | succ n => exact (dif_pos hn).trans rfl

/-- Accumulator 2 after the body at point `n`: at the first point the update of the reset value by the point's blocks of windows 3
    and 2, at a later point of the grid the update of what the point before left (past the grid, unchanged). -/
def acc3_2 (c : Dev nD) : ℕ → Vec F S256x128 .f32
  | 0 => k3_pay1 (k3_pay8 (iblk3 V c 3 t3_0) k3_pay4 (iblk3 V c 2 t3_0))
  | n + 1 =>
    if h : n + 1 < cfg3.N then k3_pay1 (k3_pay8 (iblk3 V c 3 ⟨n + 1, h⟩) (acc3_2 c n) (iblk3 V c 2 ⟨n + 1, h⟩))
    else acc3_2 c n

/-- At the first point. -/
theorem acc3_2_first (c : Dev nD) (t : Fin cfg3.N) (h : t.val = 0) :
    acc3_2 V c t.val = k3_pay1 (k3_pay8 (iblk3 V c 3 t) k3_pay4 (iblk3 V c 2 t)) := by
  obtain ⟨n, hn⟩ := t
  dsimp only at h
  subst h
  rfl

/-- At a later point: the update of what the point before left. -/
theorem acc3_2_step (c : Dev nD) (t : Fin cfg3.N) (h : t.val ≠ 0) :
    acc3_2 V c t.val = k3_pay1 (k3_pay8 (iblk3 V c 3 t) (acc3_2 V c (t.val - 1)) (iblk3 V c 2 t)) := by
  obtain ⟨n, hn⟩ := t
  cases n with
  | zero => exact absurd rfl h
  | succ n => exact (dif_pos hn).trans rfl

/-! ## The pipeline's proof data -/

/-- The invariant before position `n`: at the region's entry the scoped rest (the accumulators at unknown contents among it) and
    the generator register; after point `n` the three accumulators whole at what the body left there, the rest of the
    scoped buffers unopened, and the generator register. -/
def Φ3 (c : Dev nD) : ℕ → sProp 𝕄
  | 0 => Pipeline.ΦA spec3 c
  | n + 1 =>
    iprop(owns (c : Thread nD τ) (Memref.whole cc3_scratch0) fullShare (acc3_0 V c n)
      ∗ owns (c : Thread nD τ) (Memref.whole cc3_scratch1) fullShare (acc3_1 V c n)
      ∗ owns (c : Thread nD τ) (Memref.whole cc3_scratch2) fullShare (acc3_2 V c n)
      ∗ Pipeline.scopedRestBut (Ix := Unit) (Name := ℕ) (U := UR sig nD τ) (Lvl := ℕ) (Val := Elt F) spec3 c [cc3_scratch0, cc3_scratch1, cc3_scratch2]
      ∗ ∃ r, prngReg c r)

theorem Φ3_zero (c : Dev nD) : Φ3 V c 0 = Pipeline.ΦA spec3 c := rfl

theorem Φ3_succ (c : Dev nD) (n : ℕ) : Φ3 V c (n + 1) =
    iprop(owns (c : Thread nD τ) (Memref.whole cc3_scratch0) fullShare (acc3_0 V c n)
      ∗ owns (c : Thread nD τ) (Memref.whole cc3_scratch1) fullShare (acc3_1 V c n)
      ∗ owns (c : Thread nD τ) (Memref.whole cc3_scratch2) fullShare (acc3_2 V c n)
      ∗ Pipeline.scopedRestBut (Ix := Unit) (Name := ℕ) (U := UR sig nD τ) (Lvl := ℕ) (Val := Elt F) spec3 c [cc3_scratch0, cc3_scratch1, cc3_scratch2]
      ∗ ∃ r, prngReg c r) := rfl

theorem Φ3_pos (c : Dev nD) (n : ℕ) (h : n ≠ 0) : Φ3 V c n =
    iprop(owns (c : Thread nD τ) (Memref.whole cc3_scratch0) fullShare (acc3_0 V c (n - 1))
      ∗ owns (c : Thread nD τ) (Memref.whole cc3_scratch1) fullShare (acc3_1 V c (n - 1))
      ∗ owns (c : Thread nD τ) (Memref.whole cc3_scratch2) fullShare (acc3_2 V c (n - 1))
      ∗ Pipeline.scopedRestBut (Ix := Unit) (Name := ℕ) (U := UR sig nD τ) (Lvl := ℕ) (Val := Elt F) spec3 c [cc3_scratch0, cc3_scratch1, cc3_scratch2]
      ∗ ∃ r, prngReg c r) := by
  obtain ⟨k, rfl⟩ := Nat.exists_eq_succ_of_ne_zero h
  rfl

/-- The proof data of pipeline 3 on core `c`: the arrays as the region finds them (`V`); after the body at point `t` each
    input's buffer at its block and each output's at its accumulator's contents after the point (read at the last point
    only, where the body copies the accumulators out); the invariant `Φ3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => acc3_0 V c t.val
    | ⟨5, _⟩ => acc3_1 V c t.val
    | ⟨6, _⟩ => acc3_2 V c t.val
  Φ n := Φ3 V c n.val
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = acc3_0 V c t.val := by dsimp only [dat3]
theorem after3_5 (c : Dev nD) (t : Fin cfg3.N) : (dat3 V c).after 5 t = acc3_1 V c t.val := by dsimp only [dat3]
theorem after3_6 (c : Dev nD) (t : Fin cfg3.N) : (dat3 V c).after 6 t = acc3_2 V c t.val := by dsimp only [dat3]

/-- At the last point, the one that writes the output windows back. -/
theorem after3_4_last (c : Dev nD) : (dat3 V c).after 4 ⟨24, by decide⟩ = acc3_0 V c 24 := after3_4 V c _
theorem after3_5_last (c : Dev nD) : (dat3 V c).after 5 ⟨24, by decide⟩ = acc3_1 V c 24 := after3_5 V c _
theorem after3_6_last (c : Dev nD) : (dat3 V c).after 6 ⟨24, by decide⟩ = acc3_2 V c 24 := after3_6 V c _

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- The invariant at a point's two positions. -/
theorem Φ_castSucc3 (c : Dev nD) (t : Fin cfg3.N) : (dat3 V c).Φ t.castSucc = Φ3 V c t.val := rfl
theorem Φ_succ3 (c : Dev nD) (t : Fin cfg3.N) : (dat3 V c).Φ t.succ = Φ3 V c (t.val + 1) := rfl

/-! ## The output windows' idle points -/

/-- Before the last point the body stores nothing into an output window's buffer (the window is idle there) -/
theorem idle3_out (t : Fin cfg3.N) (h : t.val ≠ 24) : (!(k3_cond2 (grid3.coords t) == 1#1)) = true := by
  have hc : ¬ k3_cond2 (grid3.coords t) = 1#1 := fun hc => h ((hcond3_2 t).mp hc)
  simp [hc]
/-- and at the last point it stores into each. -/
theorem live3_out (t : Fin cfg3.N) (h : t.val = 24) : (!(k3_cond2 (grid3.coords t) == 1#1)) = false := by
  have hc : k3_cond2 (grid3.coords t) = 1#1 := (hcond3_2 t).mpr h
  simp [hc]
/-- Before the last point no output window is written back. -/
theorem flush3_4_not (t : Fin cfg3.N) (h : t.val ≠ 24) : (cfg3.win 4).flush t = false :=
  Bool.eq_false_iff.mpr fun hf => by
    have := (flush3_4 t).mp hf; have hN : t.val < 25 := lt_of_lt_of_eq t.isLt N_3; omega
theorem flush3_5_not (t : Fin cfg3.N) (h : t.val ≠ 24) : (cfg3.win 5).flush t = false :=
  Bool.eq_false_iff.mpr fun hf => by
    have := (flush3_5 t).mp hf; have hN : t.val < 25 := lt_of_lt_of_eq t.isLt N_3; omega
theorem flush3_6_not (t : Fin cfg3.N) (h : t.val ≠ 24) : (cfg3.win 6).flush t = false :=
  Bool.eq_false_iff.mpr fun hf => by
    have := (flush3_6 t).mp hf; have hN : t.val < 25 := lt_of_lt_of_eq t.isLt N_3; omega

/-! ## The body obligation, at a generic point -/

/-- What the body returns of window `w`'s current buffer (the body obligation's cases): at a point idle for the window that
    does not write it back, what it was handed; else what the proof data say the body leaves. -/
def outPost3 (c : Dev nD) (t : Fin cfg3.N) (w : Fin cfg3.W) : sProp 𝕄 :=
  match cfg3.idle w (cfg3.grid.coords t) with
  | true =>
    match (cfg3.win w).flush t with
    | false => iprop(∃ d, owns (c : Thread nD τ) ((cfg3.win w).stage (cfg3.slots t w)) fullShare ((dat3 V c).before w t d))
    | true => owns (c : Thread nD τ) ((cfg3.win w).stage (cfg3.slots t w)) fullShare ((dat3 V c).after w t)
  | false => owns (c : Thread nD τ) ((cfg3.win w).stage (cfg3.slots t w)) fullShare ((dat3 V c).after w t)

theorem outPost3_idle (c : Dev nD) (t : Fin cfg3.N) (w : Fin cfg3.W) (hi : cfg3.idle w (cfg3.grid.coords t) = true)
    (hf : (cfg3.win w).flush t = false) :
    outPost3 V c t w = iprop(∃ d, owns (c : Thread nD τ) ((cfg3.win w).stage (cfg3.slots t w)) fullShare ((dat3 V c).before w t d)) := by
  unfold outPost3; rw [hi, hf]

theorem outPost3_live (c : Dev nD) (t : Fin cfg3.N) (w : Fin cfg3.W) (hi : cfg3.idle w (cfg3.grid.coords t) = false) :
    outPost3 V c t w = owns (c : Thread nD τ) ((cfg3.win w).stage (cfg3.slots t w)) fullShare ((dat3 V c).after w t) := by
  unfold outPost3; rw [hi]

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ outPost3 V c t 4 ∗ outPost3 V c t 5 ∗ outPost3 V c t 6)

/-- A whole scoped buffer at some contents, as the memref of the whole buffer owned at some contents. -/
theorem scratch_eq3 (c : Dev nD) (b : Ref sig .tc) :
    (iprop(∃ f : Buf (Elt F) ((c : Thread nD τ).loc b), ((c : Thread nD τ).loc b) ↦{fullShare} f) : sProp 𝕄)
      = iprop(∃ d : b.ty.Contents (Elt F), owns (c : Thread nD τ) (Memref.whole b) fullShare d) := by
  simp only [owns_whole]

set_option maxHeartbeats 1000000 in
/-- The body at the first point: the invariant is the scoped rest, of which the three accumulators are split off at unknown
    contents; the reset and the update leave each at its contents after point 0; the output windows are idle. -/
theorem sound_body3_first (c : Dev nD) (t : Fin cfg3.N) (h0 : t.val = 0) :
    bodyPre3 V c t ⊢ wp frame (wpE (defs₀ (F := F)) Variants.none c none) Set.univ (bodyAt3 t) (fun _ => bodyPost3 V c t) := by
  have h24 : t.val ≠ 24 := by omega
  unfold bodyPre3 bodyPost3 bodyAt3
  simp only [before3_0, before3_1, before3_2, before3_3]
  rw [outPost3_idle V c t 4 (idle3_out t h24) (flush3_4_not t h24), outPost3_idle V c t 5 (idle3_out t h24) (flush3_5_not t h24),
    outPost3_idle V c t 6 (idle3_out t h24) (flush3_6_not t h24),
    show (dat3 V c).owesAt () t.succ = (dat3 V c).owesAt () t.castSucc from rfl,
    after3_0, after3_1, after3_2, after3_3, Φ_castSucc3, Φ_succ3, Φ3_succ,
    acc3_0_first V c t h0, acc3_1_first V c t h0, acc3_2_first V c t h0,
    show Φ3 V c t.val = Pipeline.ΦA spec3 c from by rw [h0]; rfl]
  unfold Pipeline.ΦA
  rw [scopedRest3_split, scratch_eq3 c cc3_scratch0, scratch_eq3 c cc3_scratch1, scratch_eq3 c cc3_scratch2]
  iintro ⟨⟨⟨⟨S0, S1, S2⟩, HR⟩, Hr⟩, Ho, ⟨%d0, H0⟩, ⟨%d1, H1⟩, ⟨%d2, H2⟩, ⟨%d3, H3⟩, H4, H5, H6⟩
  iapply (sound_kernel3_first c Set.univ _ _ _ _ _ _ _ _ _ _ _ _ _ _ _ _ _ _ _ _ _ ((hcond3_1 t).mpr h0) (fun h => h24 ((hcond3_2 t).mp h))
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [S0]; · iexact S0
  isplitl [S1]; · iexact S1
  isplitl [S2]; · iexact S2
  iintro ⟨H0, H1, H2, H3, S0, S1, S2⟩
  isplitl [S0 S1 S2 HR Hr]
  · isplitl [S0]; · iexact S0
    isplitl [S1]; · iexact S1
    isplitl [S2]; · iexact S2
    isplitl [HR]; · iexact HR
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- The body at a point that is neither the first nor the last: the invariant holds the accumulators at what the point before
    left; the update leaves each at its contents after this point; the output windows are idle. -/
theorem sound_body3_mid (c : Dev nD) (t : Fin cfg3.N) (h0 : t.val ≠ 0) (h24 : t.val ≠ 24) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [outPost3_idle V c t 4 (idle3_out t h24) (flush3_4_not t h24), outPost3_idle V c t 5 (idle3_out t h24) (flush3_5_not t h24),
    outPost3_idle V c t 6 (idle3_out t h24) (flush3_6_not t h24),
    show (dat3 V c).owesAt () t.succ = (dat3 V c).owesAt () t.castSucc from rfl,
    after3_0, after3_1, after3_2, after3_3, Φ_castSucc3, Φ_succ3, Φ3_succ,
    acc3_0_step V c t h0, acc3_1_step V c t h0, acc3_2_step V c t h0, Φ3_pos V c t.val h0]
  iintro ⟨⟨S0, S1, S2, HR, Hr⟩, Ho, ⟨%d0, H0⟩, ⟨%d1, H1⟩, ⟨%d2, H2⟩, ⟨%d3, H3⟩, H4, H5, H6⟩
  iapply (sound_kernel3_mid c Set.univ _ _ _ _ _ _ _ _ _ _ _ _ _ _ _ _ _ _ _ _ _ (fun h => h0 ((hcond3_1 t).mp h)) (fun h => h24 ((hcond3_2 t).mp h))
    (iblk3 V c 0 t) (iblk3 V c 1 t) (iblk3 V c 2 t) (iblk3 V c 3 t) (acc3_0 V c (t.val - 1)) (acc3_1 V c (t.val - 1)) (acc3_2 V c (t.val - 1)) _)
  isplitl [H0]; · iexact H0
  isplitl [H1]; · iexact H1
  isplitl [H2]; · iexact H2
  isplitl [H3]; · iexact H3
  isplitl [S0]; · iexact S0
  isplitl [S1]; · iexact S1
  isplitl [S2]; · iexact S2
  iintro ⟨H0, H1, H2, H3, S0, S1, S2⟩
  isplitl [S0 S1 S2 HR Hr]
  · isplitl [S0]; · iexact S0
    isplitl [S1]; · iexact S1
    isplitl [S2]; · iexact S2
    isplitl [HR]; · iexact HR
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- The body at the last point: as at a middle point, and the copy leaves each output window's buffer at its accumulator's
    contents after the point, which the proof data name. -/
theorem sound_body3_last (c : Dev nD) (t : Fin cfg3.N) (h24 : t.val = 24) :
    bodyPre3 V c t ⊢ wp frame (wpE (defs₀ (F := F)) Variants.none c none) Set.univ (bodyAt3 t) (fun _ => bodyPost3 V c t) := by
  have h0 : t.val ≠ 0 := by omega
  unfold bodyPre3 bodyPost3 bodyAt3
  simp only [before3_0, before3_1, before3_2, before3_3]
  rw [outPost3_live V c t 4 (live3_out t h24), outPost3_live V c t 5 (live3_out t h24), outPost3_live V c t 6 (live3_out t h24),
    show (dat3 V c).owesAt () t.succ = (dat3 V c).owesAt () t.castSucc from rfl,
    after3_0, after3_1, after3_2, after3_3, after3_4, after3_5, after3_6, Φ_castSucc3, Φ_succ3, Φ3_succ,
    acc3_0_step V c t h0, acc3_1_step V c t h0, acc3_2_step V c t h0, Φ3_pos V c t.val h0]
  iintro ⟨⟨S0, S1, S2, HR, Hr⟩, Ho, ⟨%d0, H0⟩, ⟨%d1, H1⟩, ⟨%d2, H2⟩, ⟨%d3, H3⟩, ⟨%d4, H4⟩, ⟨%d5, H5⟩, ⟨%d6, H6⟩⟩
  iapply (sound_kernel3_last c Set.univ _ _ _ _ _ _ _ _ _ _ _ _ _ _ _ _ _ _ _ _ _ (fun h => h0 ((hcond3_1 t).mp h)) ((hcond3_2 t).mpr h24)
    (iblk3 V c 0 t) (iblk3 V c 1 t) (iblk3 V c 2 t) (iblk3 V c 3 t) (acc3_0 V c (t.val - 1)) (acc3_1 V c (t.val - 1)) (acc3_2 V c (t.val - 1)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 HR Hr]
  · isplitl [S0]; · iexact S0
    isplitl [S1]; · iexact S1
    isplitl [S2]; · iexact S2
    isplitl [HR]; · iexact HR
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: the first, the last, or one between. -/
theorem body_obligation3 (c : Dev nD) : BodyObligation (dat3 (F := F) V c) (defs₀ (F := F)) Variants.none () Set.univ := fun t => by
  rw [bigSep_W3, bigSep_W3]
  by_cases h0 : t.val = 0
  · exact sound_body3_first V c t h0
  by_cases h24 : t.val = 24
  · exact sound_body3_last V c t h24
  · exact sound_body3_mid V c t h0 h24

/-! ## The invariant at the region's ends -/

/-- At entry the invariant is the class's: the scoped rest and the generator register. -/
theorem hin3 (c : Dev nD) :
    iprop((∃ r, prngReg c r) ∗ Pipeline.scopedRest (Ix := Unit) (Name := ℕ) (U := UR sig nD τ) (Lvl := ℕ) spec3 c) ⊢ (dat3 V c).Φ 0 := by
  rw [show (dat3 V c).Φ 0 = Pipeline.ΦA spec3 c from rfl]
  unfold Pipeline.ΦA
  iintro ⟨Hr, HS⟩
  isplitl [HS]; · iexact HS
  iexact Hr

/-- After the last point the accumulators, at the contents the run left, rejoin the scoped rest. -/
theorem hout3 (c : Dev nD) :
    (dat3 V c).Φ (Fin.last cfg3.N) ⊢ iprop((∃ r, prngReg c r) ∗ Pipeline.scopedRest (Ix := Unit) (Name := ℕ) (U := UR sig nD τ) (Lvl := ℕ) spec3 c) := by
  rw [show (dat3 V c).Φ (Fin.last cfg3.N) = Φ3 V c (24 + 1) from rfl, Φ3_succ,
    scopedRest3_split, scratch_eq3 c cc3_scratch0, scratch_eq3 c cc3_scratch1, scratch_eq3 c cc3_scratch2]
  iintro ⟨S0, S1, S2, HR, Hr⟩
  isplitl [Hr]; · iexact Hr
  isplitr [HR]
  · isplitl [S0]; · iexists _; iexact S0
    isplitl [S1]; · iexists _; iexact S1
    iexists _; iexact S2
  iexact HR

end Cert.KernelIdeal.Hand

end
-- ==== Proof.KI.Reg4.lean ====
/- The class-A half of REGION 4 of @main (custom_call 4, pipeline 4: the head `cc4__final_mlp_kernel`) at a PARAMETER `V`,
   the TensorCore's buffer contents when the region is entered, generic in the float interpretation: each window's
   block at the grid's one point (`iblk4`), what the body leaves in the output window's buffer (`out4_7`), the body's
   triple (`sound_kernel4`), the pipeline's proof data (`dat4`) and its body obligation (`body_obligation4`). -/
import proofs.«418047_j44229573214958_1_alg».proof.Proof.Gen.KernelIdeal.Launch
import proofs.«418047_j44229573214958_1_alg».proof.Proof.Gen.KernelIdeal.Skeleton
import proofs.«418047_j44229573214958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 4 of @main: custom_call 4, `cc4__final_mlp_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the index has
    not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the index has
    not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the index has
    not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the index has
    not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): unfetched, the index has
    not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`): unfetched, the index has
    not moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`): unfetched, the index has
    not moved; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every window's whole block -/

abbrev r4_0 : Rect S256x128 := Rect.unit (s := S256x128) ![0, 0] S256x128.size inb_S256x128_S256x128_0_0
abbrev r4_3 : Rect S384x384 := Rect.unit (s := S384x384) ![0, 0] S384x384.size inb_S384x384_S384x384_0_0
abbrev r4_4 : Rect S1x384 := Rect.unit (s := S1x384) ![0, 0] S1x384.size inb_S1x384_S1x384_0_0
abbrev r4_5 : Rect S384x3 := Rect.unit (s := S384x3) ![0, 0] S384x3.size inb_S384x3_S384x3_0_0
abbrev r4_6 : Rect S1x3 := Rect.unit (s := S1x3) ![0, 0] S1x3.size inb_S1x3_S1x3_0_0
abbrev r4_7 : Rect S256x3 := Rect.unit (s := S256x3) ![0, 0] S256x3.size inb_S256x3_S256x3_0_0

/-! ## What the body leaves in the output window's buffer -/

/-- Window 7's staging buffer after the body, from the input windows' blocks (in window order: the three pooled
    feature blocks, the first layer's weight and bias, the second layer's weight and bias): its one store as a
    piece over the whole block, the payload the skeleton's. -/
def out4_7 (x0 : Vec F S256x128 .f32) (x1 : Vec F S256x128 .f32) (x2 : Vec F S256x128 .f32) (x3 : Vec F S384x384 .f32) (x4 : Vec F S1x384 .f32) (x5 : Vec F S384x3 .f32) (x6 : Vec F S1x3 .f32) : Vec F S256x3 .f32 :=
  View.canon [⟨r4_7, k4_pay1 (View.ld x3 r4_3) (View.ld x0 r4_0) (View.ld x1 r4_0) (View.ld x2 r4_0) (View.ld x4 r4_4) (View.ld x5 r4_5) (View.ld x6 r4_6)⟩]

/-- The one store tiles the buffer, so it covers it. -/
theorem cover4_7 (p0 : Vec F S256x3 .f32) (y : S256x3.Idx) :
    ∃ pc ∈ ([⟨r4_7, p0⟩] : List (View.Piece (Elt F) S256x3 .f32)), y ∈ pc.1.set :=
  View.cover_of_tiled [⟨r4_7, p0⟩] S256x3.size (by rfl) y

/-! ## The body's triple -/

set_option maxHeartbeats 1000000 in
/-- The kernel body on whole staging memrefs, the inputs' at read contents `xW` and the output's at anything, runs to
    the continuation holding the inputs' as they were and the output's at `out4_7` of the inputs'. The body reads the
    output's buffer once before storing it; nothing depends on what it reads there. -/
theorem sound_kernel4 (c : Dev nD) (E : Set ℕ) (i : grid4.Coords) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S384x384 .f32) (harg4 : arg4.IsWhole) (arg5 : Memref sig .tc .vmem S1x384 .f32) (harg5 : arg5.IsWhole) (arg6 : Memref sig .tc .vmem S384x3 .f32) (harg6 : arg6.IsWhole) (arg7 : Memref sig .tc .vmem S1x3 .f32) (harg7 : arg7.IsWhole) (arg8 : Memref sig .tc .vmem S256x3 .f32) (harg8 : arg8.IsWhole)
    (x0 : Vec F S256x128 .f32) (x1 : Vec F S256x128 .f32) (x2 : Vec F S256x128 .f32) (x3 : Vec F S384x384 .f32) (x4 : Vec F S1x384 .f32) (x5 : Vec F S384x3 .f32) (x6 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__final_mlp_kernel i arg1 harg1 arg2 harg2 arg3 harg3 arg4 harg4 arg5 harg5 arg6 harg6 arg7 harg7 arg8 harg8) K := by
  simp only [cc4__final_mlp_kernel_eq_skeleton]; unfold cc4__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point `t`
    each input's buffer at its block and the output's at `out4_7` of the input blocks; the invariant the class's (the
    scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of the whole program: the contents of every unscoped buffer at each boundary between a host stretch and a
  kernel region, folded from the launch memory (a host stretch applies its operations; a region leaves its windowed
  arrays at what its write-backs make of them and every other buffer as it found it); every pipeline's proof data at its
  region's entry contents; each region as a segment entered from one boundary's contents and left at the next; and the
  launch over the segments, whose final state holds every unscoped buffer at the last boundary's contents.
-/
import proofs.«418047_j44229573214958_1_alg».proof.Proof.Gen.KernelIdeal.Launch
import proofs.«418047_j44229573214958_1_alg».proof.Proof.Gen.KernelIdeal.Skeleton
import proofs.«418047_j44229573214958_1_alg».proof.Proof.Gen.KernelIdeal.Points
import proofs.«418047_j44229573214958_1_alg».proof.Proof.KI.Reg0
import proofs.«418047_j44229573214958_1_alg».proof.Proof.KI.Reg1
import proofs.«418047_j44229573214958_1_alg».proof.Proof.KI.Reg2
import proofs.«418047_j44229573214958_1_alg».proof.Proof.KI.Reg3
import proofs.«418047_j44229573214958_1_alg».proof.Proof.KI.Reg4
import proofs.«418047_j44229573214958_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After host stretch 0 (region 0's entry). -/
abbrev W1 : Dev nD → Valuation τ sig (Elt F) := fun c => StableHlo.after hostOps0 (W0 m c)
/-- The same read at the TensorCore's references. -/
abbrev Vr1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)
/-- A region changes only its output arrays: an input window's array is never written. -/
theorem W2_keep (c : Dev nD) (b : Ref sig .tc) (hb : b ∉ ([main_v20] : List (Ref sig .tc))) :
    W2 m c (Proc.devRef .tc b) = W1 m c (Proc.devRef .tc b) := by
  by_cases hw : ∃ w, Pipeline.arrRef spec0 w = b
  · obtain ⟨w, rfl⟩ := hw
    have hin : (cfg0.win w).isOut = false := by
      revert hb; revert w; decide
    rw [W2_arr, (dat0 (Vr1 m) c).arrAt_in w hin, A_eq0]
  · exact W2_of_ne m c b fun w e => hw ⟨w, e⟩
/-- After host stretch 1 (region 1's entry). -/
abbrev W3 : Dev nD → Valuation τ sig (Elt F) := fun c => StableHlo.after hostOps1 (W2 m c)
/-- The same read at the TensorCore's references. -/
abbrev Vr3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (Vr3 m) c).arrAt w cfg1.N
theorem W4_arr (c : Dev nD) (w : Fin cfg1.W) :
    W4 m c (Proc.devRef .tc (Pipeline.arrRef spec1 w)) = (dat1 (Vr3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vr4 : (c : Dev nD) → (b : Ref sig .tc) → Buf (Elt F) ((c : Thread nD τ).loc b) := fun c b => W4 m c b
theorem hF1 (c : Dev nD) (w : Fin cfg1.W) : (dat1 (Vr3 m) c).arrAt w cfg1.N = Vr4 m c (Pipeline.arrRef spec1 w) :=
  (W4_arr m c w).symm
theorem hrest1 (c : Dev nD) : ∀ b, b ∉ Finset.univ.image (Pipeline.arrRef spec1) → Vr4 m c b = Vr3 m c b :=
  fun b hb => W4_of_ne m c b fun w e => hb (Finset.mem_image.mpr ⟨w, Finset.mem_univ _, e⟩)
/-- A region changes only its output arrays: an input window's array is never written. -/
theorem W4_keep (c : Dev nD) (b : Ref sig .tc) (hb : b ∉ ([main_v37] : List (Ref sig .tc))) :
    W4 m c (Proc.devRef .tc b) = W3 m c (Proc.devRef .tc b) := by
  by_cases hw : ∃ w, Pipeline.arrRef spec1 w = b
  · obtain ⟨w, rfl⟩ := hw
    have hin : (cfg1.win w).isOut = false := by
      revert hb; revert w; decide
    rw [W4_arr, (dat1 (Vr3 m) c).arrAt_in w hin, A_eq1]
  · exact W4_of_ne m c b fun w e => hw ⟨w, e⟩
/-- After host stretch 2 (region 2's entry). -/
abbrev W5 : Dev nD → Valuation τ sig (Elt F) := fun c => StableHlo.after hostOps2 (W4 m c)
/-- The same read at the TensorCore's references. -/
abbrev Vr5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (Vr5 m) c).arrAt w cfg2.N
theorem W6_arr (c : Dev nD) (w : Fin cfg2.W) :
    W6 m c (Proc.devRef .tc (Pipeline.arrRef spec2 w)) = (dat2 (Vr5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev Vr6 : (c : Dev nD) → (b : Ref sig .tc) → Buf (Elt F) ((c : Thread nD τ).loc b) := fun c b => W6 m c b
theorem hF2 (c : Dev nD) (w : Fin cfg2.W) : (dat2 (Vr5 m) c).arrAt w cfg2.N = Vr6 m c (Pipeline.arrRef spec2 w) :=
  (W6_arr m c w).symm
theorem hrest2 (c : Dev nD) : ∀ b, b ∉ Finset.univ.image (Pipeline.arrRef spec2) → Vr6 m c b = Vr5 m c b :=
  fun b hb => W6_of_ne m c b fun w e => hb (Finset.mem_image.mpr ⟨w, Finset.mem_univ _, e⟩)
/-- A region changes only its output arrays: an input window's array is never written. -/
theorem W6_keep (c : Dev nD) (b : Ref sig .tc) (hb : b ∉ ([main_v54] : List (Ref sig .tc))) :
    W6 m c (Proc.devRef .tc b) = W5 m c (Proc.devRef .tc b) := by
  by_cases hw : ∃ w, Pipeline.arrRef spec2 w = b
  · obtain ⟨w, rfl⟩ := hw
    have hin : (cfg2.win w).isOut = false := by
      revert hb; revert w; decide
    rw [W6_arr, (dat2 (Vr5 m) c).arrAt_in w hin, A_eq2]
  · exact W6_of_ne m c b fun w e => hw ⟨w, e⟩
/-- After host stretch 3 (region 3's entry). -/
abbrev W7 : Dev nD → Valuation τ sig (Elt F) := fun c => StableHlo.after hostOps3 (W6 m c)
/-- The same read at the TensorCore's references. -/
abbrev Vr7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (Vr7 m) c).arrAt w cfg3.N
theorem W8_arr (c : Dev nD) (w : Fin cfg3.W) :
    W8 m c (Proc.devRef .tc (Pipeline.arrRef spec3 w)) = (dat3 (Vr7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev Vr8 : (c : Dev nD) → (b : Ref sig .tc) → Buf (Elt F) ((c : Thread nD τ).loc b) := fun c b => W8 m c b
theorem hF3 (c : Dev nD) (w : Fin cfg3.W) : (dat3 (Vr7 m) c).arrAt w cfg3.N = Vr8 m c (Pipeline.arrRef spec3 w) :=
  (W8_arr m c w).symm
theorem hrest3 (c : Dev nD) : ∀ b, b ∉ Finset.univ.image (Pipeline.arrRef spec3) → Vr8 m c b = Vr7 m c b :=
  fun b hb => W8_of_ne m c b fun w e => hb (Finset.mem_image.mpr ⟨w, Finset.mem_univ _, e⟩)
/-- A region changes only its output arrays: an input window's array is never written. -/
theorem W8_keep (c : Dev nD) (b : Ref sig .tc) (hb : b ∉ ([main_v56_0, main_v56_1, main_v56_2] : List (Ref sig .tc))) :
    W8 m c (Proc.devRef .tc b) = W7 m c (Proc.devRef .tc b) := by
  by_cases hw : ∃ w, Pipeline.arrRef spec3 w = b
  · obtain ⟨w, rfl⟩ := hw
    have hin : (cfg3.win w).isOut = false := by
      revert hb; revert w; decide
    rw [W8_arr, (dat3 (Vr7 m) c).arrAt_in w hin, A_eq3]
  · exact W8_of_ne m c b fun w e => hw ⟨w, e⟩
/-- After host stretch 4 (region 4's entry). -/
abbrev W9 : Dev nD → Valuation τ sig (Elt F) := fun c => StableHlo.after hostOps4 (W8 m c)
/-- The same read at the TensorCore's references. -/
abbrev Vr9 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (Vr9 m) c).arrAt w cfg4.N
theorem W10_arr (c : Dev nD) (w : Fin cfg4.W) :
    W10 m c (Proc.devRef .tc (Pipeline.arrRef spec4 w)) = (dat4 (Vr9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev Vr10 : (c : Dev nD) → (b : Ref sig .tc) → Buf (Elt F) ((c : Thread nD τ).loc b) := fun c b => W10 m c b
theorem hF4 (c : Dev nD) (w : Fin cfg4.W) : (dat4 (Vr9 m) c).arrAt w cfg4.N = Vr10 m c (Pipeline.arrRef spec4 w) :=
  (W10_arr m c w).symm
theorem hrest4 (c : Dev nD) : ∀ b, b ∉ Finset.univ.image (Pipeline.arrRef spec4) → Vr10 m c b = Vr9 m c b :=
  fun b hb => W10_of_ne m c b fun w e => hb (Finset.mem_image.mpr ⟨w, Finset.mem_univ _, e⟩)
/-- A region changes only its output arrays: an input window's array is never written. -/
theorem W10_keep (c : Dev nD) (b : Ref sig .tc) (hb : b ∉ ([main_v74] : List (Ref sig .tc))) :
    W10 m c (Proc.devRef .tc b) = W9 m c (Proc.devRef .tc b) := by
  by_cases hw : ∃ w, Pipeline.arrRef spec4 w = b
  · obtain ⟨w, rfl⟩ := hw
    have hin : (cfg4.win w).isOut = false := by
      revert hb; revert w; decide
    rw [W10_arr, (dat4 (Vr9 m) c).arrAt_in w hin, A_eq4]
  · exact W10_of_ne m c b fun w e => hw ⟨w, e⟩

/-- A reference no host stretch writes and no region may change holds its launch contents at the end. -/
theorem W10_launch (c : Dev nD) (b : Ref sig .tc)
    (h0 : b ∉ hostOps0_W) (h1 : b ∉ hostOps1_W) (h2 : b ∉ hostOps2_W) (h3 : b ∉ hostOps3_W) (h4 : b ∉ hostOps4_W)
    (hr : b ∉ ([main_v20, main_v37, main_v54, main_v56_0, main_v56_1, main_v56_2, main_v74] : List (Ref sig .tc))) :
    W10 m c (Proc.devRef .tc b) = m ((c : Thread nD τ).loc b) := by
  rw [W10_keep m c b (fun h => hr (by revert h; simp only [List.mem_cons, List.mem_singleton, List.not_mem_nil, or_false]; intro h; simp only [List.mem_cons, h, true_or, or_true])),
    show W9 m c (Proc.devRef .tc b) = W8 m c (Proc.devRef .tc b) from StableHlo.after_of_writes_sub hostOps4 _ hostOps4_writes h4,
    W8_keep m c b (fun h => hr (by revert h; simp only [List.mem_cons, List.mem_singleton, List.not_mem_nil, or_false]; intro h; rcases h with h | h | h <;> simp only [List.mem_cons, h, true_or, or_true])),
    show W7 m c (Proc.devRef .tc b) = W6 m c (Proc.devRef .tc b) from StableHlo.after_of_writes_sub hostOps3 _ hostOps3_writes h3,
    W6_keep m c b (fun h => hr (by revert h; simp only [List.mem_cons, List.mem_singleton, List.not_mem_nil, or_false]; intro h; simp only [List.mem_cons, h, true_or, or_true])),
    show W5 m c (Proc.devRef .tc b) = W4 m c (Proc.devRef .tc b) from StableHlo.after_of_writes_sub hostOps2 _ hostOps2_writes h2,
    W4_keep m c b (fun h => hr (by revert h; simp only [List.mem_cons, List.mem_singleton, List.not_mem_nil, or_false]; intro h; simp only [List.mem_cons, h, true_or, or_true])),
    show W3 m c (Proc.devRef .tc b) = W2 m c (Proc.devRef .tc b) from StableHlo.after_of_writes_sub hostOps1 _ hostOps1_writes h1,
    W2_keep m c b (fun h => hr (by revert h; simp only [List.mem_cons, List.mem_singleton, List.not_mem_nil, or_false]; intro h; simp only [List.mem_cons, h, true_or, or_true])),
    show W1 m c (Proc.devRef .tc b) = W0 m c (Proc.devRef .tc b) from StableHlo.after_of_writes_sub hostOps0 _ hostOps0_writes h0]

/-! ## The proof data family and the thread state -/

/-- The prefetched tables' admissible contents: no pipeline has a table. -/
abbrev admH : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) admH p) c
  | ⟨0, _⟩ => fun c => dat0 (Vr1 m) c
  | ⟨1, _⟩ => fun c => dat1 (Vr3 m) c
  | ⟨2, _⟩ => fun c => dat2 (Vr5 m) c
  | ⟨3, _⟩ => fun c => dat3 (Vr7 m) c
  | ⟨4, _⟩ => fun c => dat4 (Vr9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes back; nothing is owed; the kernel has no semaphore of its own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (Vr3 m c) (Vr4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    comes back; nothing is owed; the kernel has no semaphore of its own. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Vr5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (Vr5 m c) (Vr6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the invariant and
    comes back; nothing is owed; the kernel has no semaphore of its own. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (Vr7 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (Vr7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Vr7 m) c).Φ 0 from rfl]
    iintro ⟨Hp, -, Hr⟩
    iapply (hin3 (Vr7 m) c)
    isplitl [Hp]; · iexact Hp
    iexact Hr
  hout c := by
    rw [Pipeline.ownSems0_none, show (pdats m 3 c).Φ (Fin.last _) = (dat3 (Vr7 m) c).Φ (Fin.last cfg3.N) from rfl]
    iintro H
    ihave H' := (hout3 (Vr7 m) c) $$ H
    icases H' with ⟨Hp, Hr⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (Vr7 m c) (Vr8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the invariant and
    comes back; nothing is owed; the kernel has no semaphore of its own. -/
def reg4 : Pipeline.RegionSeg (pcfgs (F := F)) admH (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vr9 m c)
  hentry c := by
    rw [Pipeline.ownSems0_none]
    have hsplit := Pipeline.arrays_of_unscopedBufs (p := 4) (pcfgs (F := F)) admH (pdats m) launch4.win launch4.arr_whole c
      ((pdats m 4 c).share_full fun _ => rfl) (Vr9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (Vr9 m c) (Vr10 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order: a host segment per stretch from its boundary's contents, a region per pallas_call. -/
abbrev segs : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]
/-- @main is the run of the segments. -/
theorem main_run (c : Dev nD) : main (F := F) c = Pipeline.Seg.run (segs m) := (main_chain c).trans (by chain_rfl)

variable (ρ : Dev nD → PrngReg)

set_option backward.isDefEq.respectTransparency.types false in
/-- From any memory with zero counters, every weakly fair execution of @main terminates, nothing faulting, and every final
    state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- The frame: every argument array ends holding its launch contents (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c =>
    ⟨(h c _ (mem_uc main_arg0 (by decide))).trans (W10_launch m c main_arg0 (by decide) (by decide) (by decide) (by decide) (by decide) (by decide)),
      (h c _ (mem_uc main_arg1 (by decide))).trans (W10_launch m c main_arg1 (by decide) (by decide) (by decide) (by decide) (by decide) (by decide)),
      (h c _ (mem_uc main_arg2 (by decide))).trans (W10_launch m c main_arg2 (by decide) (by decide) (by decide) (by decide) (by decide) (by decide)),
      (h c _ (mem_uc main_arg3 (by decide))).trans (W10_launch m c main_arg3 (by decide) (by decide) (by decide) (by decide) (by decide) (by decide)),
      (h c _ (mem_uc main_arg4 (by decide))).trans (W10_launch m c main_arg4 (by decide) (by decide) (by decide) (by decide) (by decide) (by decide)),
      (h c _ (mem_uc main_arg5 (by decide))).trans (W10_launch m c main_arg5 (by decide) (by decide) (by decide) (by decide) (by decide) (by decide)),
      (h c _ (mem_uc main_arg6 (by decide))).trans (W10_launch m c main_arg6 (by decide) (by decide) (by decide) (by decide) (by decide) (by decide)),
      (h c _ (mem_uc main_arg7 (by decide))).trans (W10_launch m c main_arg7 (by decide) (by decide) (by decide) (by decide) (by decide) (by decide)),
      (h c _ (mem_uc main_arg8 (by decide))).trans (W10_launch m c main_arg8 (by decide) (by decide) (by decide) (by decide) (by decide) (by decide)),
      (h c _ (mem_uc main_arg9 (by decide))).trans (W10_launch m c main_arg9 (by decide) (by decide) (by decide) (by decide) (by decide) (by decide)),
      (h c _ (mem_uc main_arg10 (by decide))).trans (W10_launch m c main_arg10 (by decide) (by decide) (by decide) (by decide) (by decide) (by decide)),
      (h c _ (mem_uc main_arg11 (by decide))).trans (W10_launch m c main_arg11 (by decide) (by decide) (by decide) (by decide) (by decide) (by decide)),
      (h c _ (mem_uc main_arg12 (by decide))).trans (W10_launch m c main_arg12 (by decide) (by decide) (by decide) (by decide) (by decide) (by decide)),
      (h c _ (mem_uc main_arg13 (by decide))).trans (W10_launch m c main_arg13 (by decide) (by decide) (by decide) (by decide) (by decide) (by decide)),
      (h c _ (mem_uc main_arg14 (by decide))).trans (W10_launch m c main_arg14 (by decide) (by decide) (by decide) (by decide) (by decide) (by decide)),
      (h c _ (mem_uc main_arg15 (by decide))).trans (W10_launch m c main_arg15 (by decide) (by decide) (by decide) (by decide) (by decide) (by decide)),
      (h c _ (mem_uc main_arg16 (by decide))).trans (W10_launch m c main_arg16 (by decide) (by decide) (by decide) (by decide) (by decide) (by decide)),
      (h c _ (mem_uc main_arg17 (by decide))).trans (W10_launch m c main_arg17 (by decide) (by decide) (by decide) (by decide) (by decide) (by decide)),
      (h c _ (mem_uc main_arg18 (by decide))).trans (W10_launch m c main_arg18 (by decide) (by decide) (by decide) (by decide) (by decide) (by decide)),
      (h c _ (mem_uc main_arg19 (by decide))).trans (W10_launch m c main_arg19 (by decide) (by decide) (by decide) (by decide) (by decide) (by decide)),
      (h c _ (mem_uc main_arg20 (by decide))).trans (W10_launch m c main_arg20 (by decide) (by decide) (by decide) (by decide) (by decide) (by decide)),
      (h c _ (mem_uc main_arg21 (by decide))).trans (W10_launch m c main_arg21 (by decide) (by decide) (by decide) (by decide) (by decide) (by decide)),
      (h c _ (mem_uc main_arg22 (by decide))).trans (W10_launch m c main_arg22 (by decide) (by decide) (by decide) (by decide) (by decide) (by decide)),
      (h c _ (mem_uc main_arg23 (by decide))).trans (W10_launch m c main_arg23 (by decide) (by decide) (by decide) (by decide) (by decide) (by decide)),
      (h c _ (mem_uc main_arg24 (by decide))).trans (W10_launch m c main_arg24 (by decide) (by decide) (by decide) (by decide) (by decide) (by decide)),
      (h c _ (mem_uc main_arg25 (by decide))).trans (W10_launch m c main_arg25 (by decide) (by decide) (by decide) (by decide) (by decide) (by decide)),
      (h c _ (mem_uc main_arg26 (by decide))).trans (W10_launch m c main_arg26 (by decide) (by decide) (by decide) (by decide) (by decide) (by decide)),
      (h c _ (mem_uc main_arg27 (by decide))).trans (W10_launch m c main_arg27 (by decide) (by decide) (by decide) (by decide) (by decide) (by decide)),
      (h c _ (mem_uc main_arg28 (by decide))).trans (W10_launch m c main_arg28 (by decide) (by decide) (by decide) (by decide) (by decide) (by decide)),
      (h c _ (mem_uc main_arg29 (by decide))).trans (W10_launch m c main_arg29 (by decide) (by decide) (by decide) (by decide) (by decide) (by decide)),
      (h c _ (mem_uc main_arg30 (by decide))).trans (W10_launch m c main_arg30 (by decide) (by decide) (by decide) (by decide) (by decide) (by decide))⟩) (run_all m ρ)

/-- The run with the result named: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v74) = W10 m c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c =>
    ⟨h c _ (mem_uc main_v74 (by decide)),
      (h c _ (mem_uc main_arg0 (by decide))).trans (W10_launch m c main_arg0 (by decide) (by decide) (by decide) (by decide) (by decide) (by decide)),
      (h c _ (mem_uc main_arg1 (by decide))).trans (W10_launch m c main_arg1 (by decide) (by decide) (by decide) (by decide) (by decide) (by decide)),
      (h c _ (mem_uc main_arg2 (by decide))).trans (W10_launch m c main_arg2 (by decide) (by decide) (by decide) (by decide) (by decide) (by decide)),
      (h c _ (mem_uc main_arg3 (by decide))).trans (W10_launch m c main_arg3 (by decide) (by decide) (by decide) (by decide) (by decide) (by decide)),
      (h c _ (mem_uc main_arg4 (by decide))).trans (W10_launch m c main_arg4 (by decide) (by decide) (by decide) (by decide) (by decide) (by decide)),
      (h c _ (mem_uc main_arg5 (by decide))).trans (W10_launch m c main_arg5 (by decide) (by decide) (by decide) (by decide) (by decide) (by decide)),
      (h c _ (mem_uc main_arg6 (by decide))).trans (W10_launch m c main_arg6 (by decide) (by decide) (by decide) (by decide) (by decide) (by decide)),
      (h c _ (mem_uc main_arg7 (by decide))).trans (W10_launch m c main_arg7 (by decide) (by decide) (by decide) (by decide) (by decide) (by decide)),
      (h c _ (mem_uc main_arg8 (by decide))).trans (W10_launch m c main_arg8 (by decide) (by decide) (by decide) (by decide) (by decide) (by decide)),
      (h c _ (mem_uc main_arg9 (by decide))).trans (W10_launch m c main_arg9 (by decide) (by decide) (by decide) (by decide) (by decide) (by decide)),
      (h c _ (mem_uc main_arg10 (by decide))).trans (W10_launch m c main_arg10 (by decide) (by decide) (by decide) (by decide) (by decide) (by decide)),
      (h c _ (mem_uc main_arg11 (by decide))).trans (W10_launch m c main_arg11 (by decide) (by decide) (by decide) (by decide) (by decide) (by decide)),
      (h c _ (mem_uc main_arg12 (by decide))).trans (W10_launch m c main_arg12 (by decide) (by decide) (by decide) (by decide) (by decide) (by decide)),
      (h c _ (mem_uc main_arg13 (by decide))).trans (W10_launch m c main_arg13 (by decide) (by decide) (by decide) (by decide) (by decide) (by decide)),
      (h c _ (mem_uc main_arg14 (by decide))).trans (W10_launch m c main_arg14 (by decide) (by decide) (by decide) (by decide) (by decide) (by decide)),
      (h c _ (mem_uc main_arg15 (by decide))).trans (W10_launch m c main_arg15 (by decide) (by decide) (by decide) (by decide) (by decide) (by decide)),
      (h c _ (mem_uc main_arg16 (by decide))).trans (W10_launch m c main_arg16 (by decide) (by decide) (by decide) (by decide) (by decide) (by decide)),
      (h c _ (mem_uc main_arg17 (by decide))).trans (W10_launch m c main_arg17 (by decide) (by decide) (by decide) (by decide) (by decide) (by decide)),
      (h c _ (mem_uc main_arg18 (by decide))).trans (W10_launch m c main_arg18 (by decide) (by decide) (by decide) (by decide) (by decide) (by decide)),
      (h c _ (mem_uc main_arg19 (by decide))).trans (W10_launch m c main_arg19 (by decide) (by decide) (by decide) (by decide) (by decide) (by decide)),
      (h c _ (mem_uc main_arg20 (by decide))).trans (W10_launch m c main_arg20 (by decide) (by decide) (by decide) (by decide) (by decide) (by decide)),
      (h c _ (mem_uc main_arg21 (by decide))).trans (W10_launch m c main_arg21 (by decide) (by decide) (by decide) (by decide) (by decide) (by decide)),
      (h c _ (mem_uc main_arg22 (by decide))).trans (W10_launch m c main_arg22 (by decide) (by decide) (by decide) (by decide) (by decide) (by decide)),
      (h c _ (mem_uc main_arg23 (by decide))).trans (W10_launch m c main_arg23 (by decide) (by decide) (by decide) (by decide) (by decide) (by decide)),
      (h c _ (mem_uc main_arg24 (by decide))).trans (W10_launch m c main_arg24 (by decide) (by decide) (by decide) (by decide) (by decide) (by decide)),
      (h c _ (mem_uc main_arg25 (by decide))).trans (W10_launch m c main_arg25 (by decide) (by decide) (by decide) (by decide) (by decide) (by decide)),
      (h c _ (mem_uc main_arg26 (by decide))).trans (W10_launch m c main_arg26 (by decide) (by decide) (by decide) (by decide) (by decide) (by decide)),
      (h c _ (mem_uc main_arg27 (by decide))).trans (W10_launch m c main_arg27 (by decide) (by decide) (by decide) (by decide) (by decide) (by decide)),
      (h c _ (mem_uc main_arg28 (by decide))).trans (W10_launch m c main_arg28 (by decide) (by decide) (by decide) (by decide) (by decide) (by decide)),
      (h c _ (mem_uc main_arg29 (by decide))).trans (W10_launch m c main_arg29 (by decide) (by decide) (by decide) (by decide) (by decide) (by decide)),
      (h c _ (mem_uc main_arg30 (by decide))).trans (W10_launch m c main_arg30 (by decide) (by decide) (by decide) (by decide) (by decide) (by decide))⟩) (run_all m ρ)

end Cert.KernelIdeal.Hand

end
-- ==== Proof.Spec.lean ====
/-
  The mathematics both programs compute, written once over the extended reals, index by index, over literal shapes.

  A graph-isomorphism layer maps node features `x` and their neighbour sums `agg` to
  `relu (relu (((x + agg) · W₁ + b₁ − μ) · rsqrt (σ² + ε) · γ + β) · W₂ + b₂)`; the pooled readout of a layer is, per graph
  `g`, the sum of the rows of the nodes whose graph id is `g`, times the reciprocal of a per-graph denominator; the head
  is `relu ([q₁ | q₂ | q₃] · L₁ + c₁) · L₂ + c₂` on the three readouts side by side.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The batch-norm epsilon: the one float word both programs carry. -/
def eps : EReal := Ideal.ofBits .f32 0x3727C5AC#32

/-- The hidden unit `k` of node `n` in a layer over 513 input features:
    `relu (((x + agg)[n, ·] · W₁[·, k] + b₁[k] − μ[k]) · rsqrt (σ²[k] + ε) · γ[k] + β[k])`. -/
def hid513 (x agg : (⟨2, ![50000, 513]⟩ : Shape).Idx → EReal) (w1 : (⟨2, ![513, 128]⟩ : Shape).Idx → EReal)
    (b1 g bb mu var : (⟨1, ![128]⟩ : Shape).Idx → EReal) (n : Fin 50000) (k : Fin 128) : EReal :=
  max ((((∑ j : Fin 513, (x (ix2 n j) + agg (ix2 n j)) * w1 (ix2 j k)) + b1 (ix1 k)) - mu (ix1 k))
      * Ideal.rsqrt (var (ix1 k) + eps) * g (ix1 k) + bb (ix1 k)) 0

/-- The first layer's output: `relu (hidden[n, ·] · W₂[·, q] + b₂[q])`. -/
def gin513 (x agg : (⟨2, ![50000, 513]⟩ : Shape).Idx → EReal) (w1 : (⟨2, ![513, 128]⟩ : Shape).Idx → EReal)
    (b1 g bb mu var : (⟨1, ![128]⟩ : Shape).Idx → EReal) (w2 : (⟨2, ![128, 128]⟩ : Shape).Idx → EReal)
    (b2 : (⟨1, ![128]⟩ : Shape).Idx → EReal) : (⟨2, ![50000, 128]⟩ : Shape).Idx → EReal :=
  fun i => max ((∑ k : Fin 128, hid513 x agg w1 b1 g bb mu var (i 0) k * w2 (ix2 k (i 1))) + b2 (ix1 (i 1))) 0

/-- The hidden unit `k` of node `n` in a layer over 128 input features. -/
def hid128 (x agg : (⟨2, ![50000, 128]⟩ : Shape).Idx → EReal) (w1 : (⟨2, ![128, 128]⟩ : Shape).Idx → EReal)
    (b1 g bb mu var : (⟨1, ![128]⟩ : Shape).Idx → EReal) (n : Fin 50000) (k : Fin 128) : EReal :=
  max ((((∑ j : Fin 128, (x (ix2 n j) + agg (ix2 n j)) * w1 (ix2 j k)) + b1 (ix1 k)) - mu (ix1 k))
      * Ideal.rsqrt (var (ix1 k) + eps) * g (ix1 k) + bb (ix1 k)) 0

/-- A later layer's output. -/
def gin128 (x agg : (⟨2, ![50000, 128]⟩ : Shape).Idx → EReal) (w1 : (⟨2, ![128, 128]⟩ : Shape).Idx → EReal)
    (b1 g bb mu var : (⟨1, ![128]⟩ : Shape).Idx → EReal) (w2 : (⟨2, ![128, 128]⟩ : Shape).Idx → EReal)
    (b2 : (⟨1, ![128]⟩ : Shape).Idx → EReal) : (⟨2, ![50000, 128]⟩ : Shape).Idx → EReal :=
  fun i => max ((∑ k : Fin 128, hid128 x agg w1 b1 g bb mu var (i 0) k * w2 (ix2 k (i 1))) + b2 (ix1 (i 1))) 0

/-- The per-graph sum of node rows: entry `(g, d)` adds `h[n, d]` over the nodes `n` whose graph id (read signed) is `g`. -/
def pool (h : (⟨2, ![50000, 128]⟩ : Shape).Idx → EReal) (b : IVec (⟨1, ![50000]⟩ : Shape) 32) :
    (⟨2, ![256, 128]⟩ : Shape).Idx → EReal :=
  fun i => ∑ n : Fin 50000, if (b (ix1 n)).toInt = ((i 0).val : Int) then h (ix2 n (i 1)) else 0

/-- The readout: the per-graph sum times the reciprocal of the graph's denominator. -/
def readout (h : (⟨2, ![50000, 128]⟩ : Shape).Idx → EReal) (b : IVec (⟨1, ![50000]⟩ : Shape) 32)
    (den : (⟨1, ![256]⟩ : Shape).Idx → EReal) : (⟨2, ![256, 128]⟩ : Shape).Idx → EReal :=
  fun i => pool h b i * (den (ix1 (i 0)))⁻¹

/-- Column `j` of the three readouts side by side. -/
def cat3 (q1 q2 q3 : (⟨2, ![256, 128]⟩ : Shape).Idx → EReal) (r : Fin 256) (j : Fin 384) : EReal :=
  if h1 : j.val < 128 then q1 (ix2 r ⟨j.val, h1⟩)
  else if h2 : j.val < 256 then q2 (ix2 r ⟨j.val - 128, by omega⟩)
  else q3 (ix2 r ⟨j.val - 256, by omega⟩)

/-- The head: `relu ([q₁ | q₂ | q₃] · L₁ + c₁) · L₂ + c₂`. -/
def head (q1 q2 q3 : (⟨2, ![256, 128]⟩ : Shape).Idx → EReal) (l1 : (⟨2, ![384, 384]⟩ : Shape).Idx → EReal)
    (c1 : (⟨1, ![384]⟩ : Shape).Idx → EReal) (l2 : (⟨2, ![384, 3]⟩ : Shape).Idx → EReal)
    (c2 : (⟨1, ![3]⟩ : Shape).Idx → EReal) : (⟨2, ![256, 3]⟩ : Shape).Idx → EReal :=
  fun i => (∑ k : Fin 384, max ((∑ j : Fin 384, cat3 q1 q2 q3 (i 0) j * l1 (ix2 j k)) + c1 (ix1 k)) 0 * l2 (ix2 k (i 1)))
    + c2 (ix1 (i 1))

/-! ## Rows and columns of degenerate shapes -/

/-- A `[1, 128]` array read as its one row. -/
def row128 (f : (⟨2, ![1, 128]⟩ : Shape).Idx → EReal) : (⟨1, ![128]⟩ : Shape).Idx → EReal := fun i => f (ix2 0 (i 0))
/-- A `[1, 384]` array read as its one row. -/
def row384 (f : (⟨2, ![1, 384]⟩ : Shape).Idx → EReal) : (⟨1, ![384]⟩ : Shape).Idx → EReal := fun i => f (ix2 0 (i 0))
/-- A `[1, 3]` array read as its one row. -/
def row3 (f : (⟨2, ![1, 3]⟩ : Shape).Idx → EReal) : (⟨1, ![3]⟩ : Shape).Idx → EReal := fun i => f (ix2 0 (i 0))
/-- A `[50000, 1]` integer array read as its one column. -/
def col50000 (b : IVec (⟨2, ![50000, 1]⟩ : Shape) 32) : IVec (⟨1, ![50000]⟩ : Shape) 32 := fun i => b (ix2 (i 0) 0)

/-! ## The whole network -/

/-- The parameters of the first layer. -/
structure Layer513 where
  w1 : (⟨2, ![513, 128]⟩ : Shape).Idx → EReal
  b1 : (⟨1, ![128]⟩ : Shape).Idx → EReal
  g : (⟨1, ![128]⟩ : Shape).Idx → EReal
  bb : (⟨1, ![128]⟩ : Shape).Idx → EReal
  mu : (⟨1, ![128]⟩ : Shape).Idx → EReal
  var : (⟨1, ![128]⟩ : Shape).Idx → EReal
  w2 : (⟨2, ![128, 128]⟩ : Shape).Idx → EReal
  b2 : (⟨1, ![128]⟩ : Shape).Idx → EReal

/-- The parameters of a later layer. -/
structure Layer128 where
  w1 : (⟨2, ![128, 128]⟩ : Shape).Idx → EReal
  b1 : (⟨1, ![128]⟩ : Shape).Idx → EReal
  g : (⟨1, ![128]⟩ : Shape).Idx → EReal
  bb : (⟨1, ![128]⟩ : Shape).Idx → EReal
  mu : (⟨1, ![128]⟩ : Shape).Idx → EReal
  var : (⟨1, ![128]⟩ : Shape).Idx → EReal
  w2 : (⟨2, ![128, 128]⟩ : Shape).Idx → EReal
  b2 : (⟨1, ![128]⟩ : Shape).Idx → EReal

/-- The parameters of the head. -/
structure HeadP where
  l1 : (⟨2, ![384, 384]⟩ : Shape).Idx → EReal
  c1 : (⟨1, ![384]⟩ : Shape).Idx → EReal
  l2 : (⟨2, ![384, 3]⟩ : Shape).Idx → EReal
  c2 : (⟨1, ![3]⟩ : Shape).Idx → EReal

/-- The first layer at its parameters. -/
def layer513 (L : Layer513) (x agg : (⟨2, ![50000, 513]⟩ : Shape).Idx → EReal) : (⟨2, ![50000, 128]⟩ : Shape).Idx → EReal :=
  gin513 x agg L.w1 L.b1 L.g L.bb L.mu L.var L.w2 L.b2

/-- A later layer at its parameters. -/
def layer128 (L : Layer128) (x agg : (⟨2, ![50000, 128]⟩ : Shape).Idx → EReal) : (⟨2, ![50000, 128]⟩ : Shape).Idx → EReal :=
  gin128 x agg L.w1 L.b1 L.g L.bb L.mu L.var L.w2 L.b2

/-- The network: three layers, each fed its input and that input's neighbour sums (`agg₁` over 513 features, `agg₂` over
    128: whatever function of the features the neighbour sum is), the three readouts over one denominator, the head. -/
def net (agg1 : ((⟨2, ![50000, 513]⟩ : Shape).Idx → EReal) → (⟨2, ![50000, 513]⟩ : Shape).Idx → EReal)
    (agg2 : ((⟨2, ![50000, 128]⟩ : Shape).Idx → EReal) → (⟨2, ![50000, 128]⟩ : Shape).Idx → EReal)
    (den : (⟨1, ![256]⟩ : Shape).Idx → EReal) (x : (⟨2, ![50000, 513]⟩ : Shape).Idx → EReal)
    (b : IVec (⟨1, ![50000]⟩ : Shape) 32) (L1 : Layer513) (L2 L3 : Layer128) (H : HeadP) :
    (⟨2, ![256, 3]⟩ : Shape).Idx → EReal :=
  let h1 := layer513 L1 x (agg1 x)
  let h2 := layer128 L2 h1 (agg2 h1)
  let h3 := layer128 L3 h2 (agg2 h2)
  head (readout h1 b den) (readout h2 b den) (readout h3 b den) H.l1 H.c1 H.l2 H.c2

end Cert.Spec

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KI.Val0.lean ====
/- REGION 0 of @main, its value: over the extended reals the output array of the first fused layer, after the region's
   25 points, is the layer's mathematics of the region-entry contents of its ten operand arrays, index by index:
   `relu (relu (((x + agg) · W1 + b1 − mean) · rsqrt (var + ε) · gamma + beta) · W2 + b2)`.
   The stored block at an index (`pay_at`); each window's block read where the output's block sits (`rd0_W`); what a
   point writes back is that point's block of the layer's output (`flushed0_eq`); the output's blocks cover the array
   (row `r` is in block `r / 2000`); hence the whole array (`final0`). -/
import proofs.«418047_j44229573214958_1_alg».proof.Proof.KI.Reg0
import proofs.«418047_j44229573214958_1_alg».proof.Proof.Spec
import proofs.«418047_j44229573214958_1_alg».proof.Proof.LibMatmulAt
import Idealize.ShloMosaic.Lib.Pipeline.Value
import Idealize.ShloMosaic.Lib.ValueIdx
import Idealize.ShloMosaic.PureOps.Ideal.Laws

set_option maxRecDepth 16384

noncomputable section

namespace Cert.KernelIdeal.HandValue

open Gen Hand
open Idealize.ShloMosaic Idealize.ShloMosaic.TcCoe Idealize.SL.Sem Idealize.ShloMosaic.ValueIdx
open Idealize.ShloMosaic.Pipeline (Dat)

/-! ## The stored block at an index -/
/-- The hidden unit `k` of row `p` of a block, from the blocks of x, agg, W1, b1, bn_gamma, bn_beta, bn_mean, bn_var:
    `relu (((x + agg)[p, ·] · W1[·, k] + b1[k] − mean[k]) · rsqrt (var[k] + ε) · gamma[k] + beta[k])`. -/
def hidB (x0 x1 : Vec Ideal S2000x513 .f32) (x2 : Vec Ideal S513x128 .f32) (x3 x4 x5 x6 x7 : Vec Ideal S1x128 .f32)
    (p : Fin 2000) (k : Fin 128) : EReal :=
  max ((((∑ j : Fin 513, (x0 (ix2 p j) + x1 (ix2 p j)) * x2 (ix2 j k)) + x3 (ix2 0 k)) - x6 (ix2 0 k))
      * Ideal.rsqrt (x7 (ix2 0 k) + Cert.Spec.eps) * x4 (ix2 0 k) + x5 (ix2 0 k)) 0

/-- A one-row vector broadcast down 2000 rows, read at `(p, k)`, is its entry `k`. -/
theorem bc_row (v : Vec Ideal S1x128 .f32) (p : Fin 2000) (k : Fin 128) :
    broadcastTo S2000x128 v broadcasts_S1x128_S2000x128 (ix2 p k) = v (ix2 0 k) :=
  broadcastTo_apply v broadcasts_S1x128_S2000x128 (ix2 p k) (ix2 0 k) (fun a => by
    match a with
    | ⟨0, _⟩ => rfl
    | ⟨1, _⟩ => rfl)

/-! ## Pointwise operations at an index, over the extended reals -/

theorem maximumf_at {s : Shape} (x y : FVec Ideal s .f32) (i : s.Idx) : maximumf x y i = max (x i) (y i) := rfl
theorem addf_at {s : Shape} (x y : FVec Ideal s .f32) (i : s.Idx) : addf x y i = x i + y i := rfl
theorem subf_at {s : Shape} (x y : FVec Ideal s .f32) (i : s.Idx) : subf x y i = x i - y i := rfl
theorem mulf_at {s : Shape} (x y : FVec Ideal s .f32) (i : s.Idx) : mulf x y i = x i * y i := rfl
theorem rsqrt_at {s : Shape} (x : FVec Ideal s .f32) (i : s.Idx) : rsqrt x i = Ideal.rsqrt (x i) := rfl
theorem broadcast_at {s : Shape} (a : Ideal .f32) (i : s.Idx) : broadcast s a i = a := rfl

set_option maxHeartbeats 400000 in
/-- The second product's payload at `(p, q)`: the hidden row `p` against column `q` of W2. -/
theorem pay2_at (x0 x1 : Vec Ideal S2000x513 .f32) (x2 : Vec Ideal S513x128 .f32) (x3 x4 x5 x6 x7 : Vec Ideal S1x128 .f32)
    (x8 : Vec Ideal S128x128 .f32) (p : Fin 2000) (q : Fin 128) :
    k0_pay2 x0 x1 x2 x3 x7 x6 x4 x5 x8 (ix2 p q) = ∑ k : Fin 128, hidB x0 x1 x2 x3 x4 x5 x6 x7 p k * x8 (ix2 k q) := by
  unfold k0_pay2
  simp only [shapeCast_self]
  refine (Idealize.ShloMosaic.MatmulAt.matmul_zero_at dot_S2000x128_S128x128_S2000x128_1_0_0_1_n_n rfl rfl (fun _ _ => rfl) (fun _ _ => rfl) (fun _ _ => rfl) (fun _ _ => rfl) none _ x8 p q).trans ?_
  refine Finset.sum_congr rfl fun k _ => ?_
  congr 1
  have hm := Idealize.ShloMosaic.MatmulAt.matmul_zero_at (φ₁ := .f32) (φ₂ := .f32) dot_S2000x513_S513x128_S2000x128_1_0_0_1_n_n rfl rfl (fun _ _ => rfl) (fun _ _ => rfl) (fun _ _ => rfl) (fun _ _ => rfl) none (addf (φ := .f32) x0 x1) x2 p k
  simp only [maximumf_at, addf_at, subf_at, mulf_at, hm]
  rw [bc_row, bc_row, bc_row, bc_row, bc_row]
  simp only [rsqrt_at, addf_at, broadcast_at, Ideal.ofBits_def, Ideal.ofBits_zero_f32]
  unfold hidB Cert.Spec.eps
  rfl

/-- The stored value at `(p, q)`: relu of the second product plus the bias. -/
theorem pay1_at (v32 : FVec Ideal S2000x128 .f32) (x9 : Vec Ideal S1x128 .f32) (p : Fin 2000) (q : Fin 128) :
    k0_pay1 v32 (k0_pay3 x9) (ix2 p q) = max (v32 (ix2 p q) + x9 (ix2 0 q)) 0 := by
  unfold k0_pay1 k0_pay3
  simp only [shapeCast_self]
  have hz : (FloatOps.ofBits .f32 0x00000000#32 : Ideal .f32) = (0 : EReal) := Ideal.ofBits_zero_f32
  show max (v32 (ix2 p q) + broadcastTo S2000x128 x9 broadcasts_S1x128_S2000x128 (ix2 p q)) (Scalar.ofBits .f32 0x00000000#32 : Ideal .f32) = _
  rw [bc_row]
  rw [hz]

/-- The block the body stores, at `(p, q)`, from the ten input blocks. -/
theorem pay_at (x0 x1 : Vec Ideal S2000x513 .f32) (x2 : Vec Ideal S513x128 .f32) (x3 x4 x5 x6 x7 : Vec Ideal S1x128 .f32)
    (x8 : Vec Ideal S128x128 .f32) (x9 : Vec Ideal S1x128 .f32) (p : Fin 2000) (q : Fin 128) :
    k0_pay1 (k0_pay2 x0 x1 x2 x3 x7 x6 x4 x5 x8) (k0_pay3 x9) (ix2 p q)
      = max ((∑ k : Fin 128, hidB x0 x1 x2 x3 x4 x5 x6 x7 p k * x8 (ix2 k q)) + x9 (ix2 0 q)) 0 := by
  rw [pay1_at, pay2_at]

/-! ## The printed index maps, decided over the grid -/

theorem hz0 : (![0, 0] : Fin 2 → Nat) = fun _ => 0 := funext fun a => by fin_cases a <;> rfl

/-- The row-blocked windows (x, agg) move with the output window; the parameter windows stay at block 0; the output
    window's block at point `t` is row-block `t`. -/
theorem idx_facts0 : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-! ## Each window's block, read where the output's block sits -/

variable (V : (c : Dev nD) → (b : Ref sig .tc) → Buf (Elt Ideal) ((c : Thread nD τ).loc b))

/-- The output block's index `(p, q)` at point `t` is the array's `(n, q)`, `n` = the block's first row plus `p`. -/
theorem emb0_10 (t : Fin cfg0.N) (p : Fin 2000) (q : Fin 128) :
    ∃ n : Fin 50000, n.val = win0_10.index t (0 : Fin 2) * 2000 + p.val ∧ ((cfg0.win 10).blk t).view.emb (ix2 p q) = ix2 n q := by
  obtain ⟨a00, a01, a10, a11, a20, a21, a30, a31, a40, a41, a50, a51, a60, a61, a70, a71, a80, a81, a90, a91, ao0, ao1⟩ := idx_facts0 t
  refine ⟨((cfg0.win 10).blk t).view.emb (ix2 p q) 0, ?_, funext fun a => Fin.ext ?_⟩
  · show win0_10.index t (0 : Fin 2) * 2000 + 1 * p.val = _; omega
  · match a with
    | ⟨0, _⟩ => rfl
    | ⟨1, _⟩ => show win0_10.index t (1 : Fin 2) * 128 + 1 * q.val = q.val; omega

/-- Window 0 (x): row `p` of its block is row `n` of the array. -/
theorem rd0_0 (c : Dev nD) (t : Fin cfg0.N) (p : Fin 2000) (n : Fin 50000) (hn : n.val = win0_10.index t (0 : Fin 2) * 2000 + p.val) (k : Fin 513) :
    iblk0 V c 0 t (ix2 p k) = V c main_arg0 (ix2 n k) := by
  obtain ⟨a00, a01, a10, a11, a20, a21, a30, a31, a40, a41, a50, a51, a60, a61, a70, a71, a80, a81, a90, a91, ao0, ao1⟩ := idx_facts0 t
  show V c main_arg0 (((cfg0.win 0).blk t).view.emb (ix2 p k)) = V c main_arg0 (ix2 n k)
  refine congrArg _ (funext fun a => Fin.ext ?_)
  match a with
  | ⟨0, _⟩ => show win0_0.index t (0 : Fin 2) * 2000 + 1 * p.val = n.val; omega
  | ⟨1, _⟩ => show win0_0.index t (1 : Fin 2) * 513 + 1 * k.val = k.val; omega

/-- Window 1 (agg): row `p` of its block is row `n` of the array. -/
theorem rd0_1 (c : Dev nD) (t : Fin cfg0.N) (p : Fin 2000) (n : Fin 50000) (hn : n.val = win0_10.index t (0 : Fin 2) * 2000 + p.val) (k : Fin 513) :
    iblk0 V c 1 t (ix2 p k) = V c main_v13 (ix2 n k) := by
  obtain ⟨a00, a01, a10, a11, a20, a21, a30, a31, a40, a41, a50, a51, a60, a61, a70, a71, a80, a81, a90, a91, ao0, ao1⟩ := idx_facts0 t
  show V c main_v13 (((cfg0.win 1).blk t).view.emb (ix2 p k)) = V c main_v13 (ix2 n k)
  refine congrArg _ (funext fun a => Fin.ext ?_)
  match a with
  | ⟨0, _⟩ => show win0_1.index t (0 : Fin 2) * 2000 + 1 * p.val = n.val; omega
  | ⟨1, _⟩ => show win0_1.index t (1 : Fin 2) * 513 + 1 * k.val = k.val; omega

/-- Window 2 (W1): the whole array at every point. -/
theorem rd0_2 (c : Dev nD) (t : Fin cfg0.N) (j : Fin 513) (k : Fin 128) :
    iblk0 V c 2 t (ix2 j k) = V c main_arg3 (ix2 j k) := by
  obtain ⟨a00, a01, a10, a11, a20, a21, a30, a31, a40, a41, a50, a51, a60, a61, a70, a71, a80, a81, a90, a91, ao0, ao1⟩ := idx_facts0 t
  show V c main_arg3 (((cfg0.win 2).blk t).view.emb (ix2 j k)) = V c main_arg3 (ix2 j k)
  refine congrArg _ (funext fun a => Fin.ext ?_)
  match a with
  | ⟨0, _⟩ => show win0_2.index t (0 : Fin 2) * 513 + 1 * j.val = j.val; omega
  | ⟨1, _⟩ => show win0_2.index t (1 : Fin 2) * 128 + 1 * k.val = k.val; omega

/-- Window 3 (b1): its one row at every point. -/
theorem rd0_3 (c : Dev nD) (t : Fin cfg0.N) (k : Fin 128) :
    iblk0 V c 3 t (ix2 0 k) = Cert.Spec.row128 (V c main_v14) (ix1 k) := by
  obtain ⟨a00, a01, a10, a11, a20, a21, a30, a31, a40, a41, a50, a51, a60, a61, a70, a71, a80, a81, a90, a91, ao0, ao1⟩ := idx_facts0 t
  show V c main_v14 (((cfg0.win 3).blk t).view.emb (ix2 0 k)) = V c main_v14 (ix2 0 k)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

/-- Window 4 (bn_gamma): its one row at every point. -/
theorem rd0_4 (c : Dev nD) (t : Fin cfg0.N) (k : Fin 128) :
    iblk0 V c 4 t (ix2 0 k) = Cert.Spec.row128 (V c main_v15) (ix1 k) := by
  obtain ⟨a00, a01, a10, a11, a20, a21, a30, a31, a40, a41, a50, a51, a60, a61, a70, a71, a80, a81, a90, a91, ao0, ao1⟩ := idx_facts0 t
  show V c main_v15 (((cfg0.win 4).blk t).view.emb (ix2 0 k)) = V c main_v15 (ix2 0 k)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * k.val = k.val; omega

/-- Window 5 (bn_beta): its one row at every point. -/
theorem rd0_5 (c : Dev nD) (t : Fin cfg0.N) (k : Fin 128) :
    iblk0 V c 5 t (ix2 0 k) = Cert.Spec.row128 (V c main_v16) (ix1 k) := by
  obtain ⟨a00, a01, a10, a11, a20, a21, a30, a31, a40, a41, a50, a51, a60, a61, a70, a71, a80, a81, a90, a91, ao0, ao1⟩ := idx_facts0 t
  show V c main_v16 (((cfg0.win 5).blk t).view.emb (ix2 0 k)) = V c main_v16 (ix2 0 k)
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * k.val = k.val; omega

/-- Window 6 (bn_mean): its one row at every point. -/
theorem rd0_6 (c : Dev nD) (t : Fin cfg0.N) (k : Fin 128) :
    iblk0 V c 6 t (ix2 0 k) = Cert.Spec.row128 (V c main_v17) (ix1 k) := by
  obtain ⟨a00, a01, a10, a11, a20, a21, a30, a31, a40, a41, a50, a51, a60, a61, a70, a71, a80, a81, a90, a91, ao0, ao1⟩ := idx_facts0 t
  show V c main_v17 (((cfg0.win 6).blk t).view.emb (ix2 0 k)) = V c main_v17 (ix2 0 k)
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * k.val = k.val; omega

/-- Window 7 (bn_var): its one row at every point. -/
theorem rd0_7 (c : Dev nD) (t : Fin cfg0.N) (k : Fin 128) :
    iblk0 V c 7 t (ix2 0 k) = Cert.Spec.row128 (V c main_v18) (ix1 k) := by
  obtain ⟨a00, a01, a10, a11, a20, a21, a30, a31, a40, a41, a50, a51, a60, a61, a70, a71, a80, a81, a90, a91, ao0, ao1⟩ := idx_facts0 t
  show V c main_v18 (((cfg0.win 7).blk t).view.emb (ix2 0 k)) = V c main_v18 (ix2 0 k)
  refine congrArg _ (funext fun a => Fin.ext ?_)
  match a with
  | ⟨0, _⟩ => show win0_7.index t (0 : Fin 2) * 1 + 1 * 0 = 0; omega
  | ⟨1, _⟩ => show win0_7.index t (1 : Fin 2) * 128 + 1 * k.val = k.val; omega

/-- Window 8 (W2): the whole array at every point. -/
theorem rd0_8 (c : Dev nD) (t : Fin cfg0.N) (k : Fin 128) (q : Fin 128) :
    iblk0 V c 8 t (ix2 k q) = V c main_arg9 (ix2 k q) := by
  obtain ⟨a00, a01, a10, a11, a20, a21, a30, a31, a40, a41, a50, a51, a60, a61, a70, a71, a80, a81, a90, a91, ao0, ao1⟩ := idx_facts0 t
  show V c main_arg9 (((cfg0.win 8).blk t).view.emb (ix2 k q)) = V c main_arg9 (ix2 k q)
  refine congrArg _ (funext fun a => Fin.ext ?_)
  match a with
  | ⟨0, _⟩ => show win0_8.index t (0 : Fin 2) * 128 + 1 * k.val = k.val; omega
  | ⟨1, _⟩ => show win0_8.index t (1 : Fin 2) * 128 + 1 * q.val = q.val; omega

/-- Window 9 (b2): its one row at every point. -/
theorem rd0_9 (c : Dev nD) (t : Fin cfg0.N) (k : Fin 128) :
    iblk0 V c 9 t (ix2 0 k) = Cert.Spec.row128 (V c main_v19) (ix1 k) := by
  obtain ⟨a00, a01, a10, a11, a20, a21, a30, a31, a40, a41, a50, a51, a60, a61, a70, a71, a80, a81, a90, a91, ao0, ao1⟩ := idx_facts0 t
  show V c main_v19 (((cfg0.win 9).blk t).view.emb (ix2 0 k)) = V c main_v19 (ix2 0 k)
  refine congrArg _ (funext fun a => Fin.ext ?_)
  match a with
  | ⟨0, _⟩ => show win0_9.index t (0 : Fin 2) * 1 + 1 * 0 = 0; omega
  | ⟨1, _⟩ => show win0_9.index t (1 : Fin 2) * 128 + 1 * k.val = k.val; omega

/-! ## What a point writes back -/

/-- The hidden unit of a block's row is the layer's hidden unit of the array's row. -/
theorem hid0_eq (c : Dev nD) (t : Fin cfg0.N) (p : Fin 2000) (n : Fin 50000) (hn : n.val = win0_10.index t (0 : Fin 2) * 2000 + p.val) (k : Fin 128) :
    hidB (iblk0 V c 0 t) (iblk0 V c 1 t) (iblk0 V c 2 t) (iblk0 V c 3 t) (iblk0 V c 4 t) (iblk0 V c 5 t) (iblk0 V c 6 t) (iblk0 V c 7 t) p k
      = Cert.Spec.hid513 (V c main_arg0) (V c main_v13) (V c main_arg3) (Cert.Spec.row128 (V c main_v14)) (Cert.Spec.row128 (V c main_v15)) (Cert.Spec.row128 (V c main_v16)) (Cert.Spec.row128 (V c main_v17)) (Cert.Spec.row128 (V c main_v18)) n k := by
  unfold hidB Cert.Spec.hid513
  rw [rd0_3 V c t k, rd0_4 V c t k, rd0_5 V c t k, rd0_6 V c t k, rd0_7 V c t k]
  simp only [rd0_0 V c t p n hn, rd0_1 V c t p n hn, rd0_2 V c t]

/-- WHAT POINT `t` WRITES BACK is block `t` of the layer's output of the region-entry arrays. -/
theorem flushed0_eq (c : Dev nD) (t : Fin cfg0.N) :
    (dat0 (F := Ideal) V c).flushed 10 t = ((cfg0.win 10).blk t).view.read (Elt Ideal) (Cert.Spec.gin513 (V c main_arg0) (V c main_v13) (V c main_arg3) (Cert.Spec.row128 (V c main_v14)) (Cert.Spec.row128 (V c main_v15)) (Cert.Spec.row128 (V c main_v16)) (Cert.Spec.row128 (V c main_v17)) (Cert.Spec.row128 (V c main_v18)) (V c main_arg9) (Cert.Spec.row128 (V c main_v19))) := by
  show (cfg0.win 10).cut (grid0.coords t) ((dat0 (F := Ideal) V c).after 10 t) = _
  rw [after0_10]
  unfold out0_10
  rw [View.canon_unit_zero hz0]
  simp only [View.ld_unit_zero (S := S2000x513) hz0, View.ld_unit_zero (S := S513x128) hz0, View.ld_unit_zero (S := S1x128) hz0,
    View.ld_unit_zero (S := S128x128) hz0]
  funext j
  obtain ⟨p, q, rfl⟩ : ∃ (p : Fin 2000) (q : Fin 128), j = ix2 p q := ⟨j 0, j 1, eq_ix2 j⟩
  obtain ⟨n, hn, hemb⟩ := emb0_10 t p q
  show k0_pay1 (k0_pay2 (iblk0 V c 0 t) (iblk0 V c 1 t) (iblk0 V c 2 t) (iblk0 V c 3 t) (iblk0 V c 7 t) (iblk0 V c 6 t) (iblk0 V c 4 t) (iblk0 V c 5 t) (iblk0 V c 8 t)) (k0_pay3 (iblk0 V c 9 t)) (ix2 p q)
    = Cert.Spec.gin513 (V c main_arg0) (V c main_v13) (V c main_arg3) (Cert.Spec.row128 (V c main_v14)) (Cert.Spec.row128 (V c main_v15)) (Cert.Spec.row128 (V c main_v16)) (Cert.Spec.row128 (V c main_v17)) (Cert.Spec.row128 (V c main_v18)) (V c main_arg9) (Cert.Spec.row128 (V c main_v19)) (((cfg0.win 10).blk t).view.emb (ix2 p q))
  rw [hemb]
  refine (pay_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans ?_
  show _ = max ((∑ k : Fin 128, Cert.Spec.hid513 (V c main_arg0) (V c main_v13) (V c main_arg3) (Cert.Spec.row128 (V c main_v14)) (Cert.Spec.row128 (V c main_v15)) (Cert.Spec.row128 (V c main_v16)) (Cert.Spec.row128 (V c main_v17)) (Cert.Spec.row128 (V c main_v18)) n k * V c main_arg9 (ix2 k q)) + Cert.Spec.row128 (V c main_v19) (ix1 q)) 0
  rw [rd0_9 V c t q]
  simp only [hid0_eq V c t p n hn, rd0_8 V c t]

/-! ## The output's blocks cover the array -/

/-- An index of the array is in point `t`'s block iff each coordinate is in the block's range on its axis. -/
theorem mem_blk0_10 (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v20).slice (win0_10.rect t)).set ↔ _
  rw [View.set_slice_whole, Rect.mem_set_unit]
  exact Iff.rfl

/-- Row `r` of the array is in the block of point `r / 2000`, which is written back. -/
theorem cover0_arr (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  have hN : (i 0).val / 2000 < cfg0.N := by show _ < grid0.N; rw [N_0]; omega
  let t : Fin cfg0.N := ⟨(i 0).val / 2000, hN⟩
  obtain ⟨a00, a01, a10, a11, a20, a21, a30, a31, a40, a41, a50, a51, a60, a61, a70, a71, a80, a81, a90, a91, ao0, ao1⟩ := idx_facts0 t
  have ao0' : win0_10.index t (0 : Fin 2) = (i 0).val / 2000 := ao0
  refine ⟨t, flush0_10 t, ?_⟩
  rw [mem_blk0_10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 128 ≤ (i 1).val ∧ (i 1).val < win0_10.index t (1 : Fin 2) * 128 + 128; omega

/-! ## The array after the region -/

/-- THE OUTPUT ARRAY after the region's last point is the layer's output of the region-entry contents of its operands. -/
theorem final0 (V : (c : Dev nD) → (b : Ref sig .tc) → Buf (Elt Ideal) ((c : Thread nD τ).loc b)) (c : Dev nD) :
    ((dat0 (F := Ideal) V c).arrAt 10 cfg0.N : S50000x128.Idx → EReal)
      = Cert.Spec.gin513 (V c main_arg0) (V c main_v13) (V c main_arg3) (Cert.Spec.row128 (V c main_v14)) (Cert.Spec.row128 (V c main_v15)) (Cert.Spec.row128 (V c main_v16)) (Cert.Spec.row128 (V c main_v17)) (Cert.Spec.row128 (V c main_v18)) (V c main_arg9) (Cert.Spec.row128 (V c main_v19)) :=
  (dat0 (F := Ideal) V c).arrAt_eq_of_cover 10 (Cert.Spec.gin513 (V c main_arg0) (V c main_v13) (V c main_arg3) (Cert.Spec.row128 (V c main_v14)) (Cert.Spec.row128 (V c main_v15)) (Cert.Spec.row128 (V c main_v16)) (Cert.Spec.row128 (V c main_v17)) (Cert.Spec.row128 (V c main_v18)) (V c main_arg9) (Cert.Spec.row128 (V c main_v19))) (fun t _ => flushed0_eq V c t) cover0_arr

end Cert.KernelIdeal.HandValue
-- ==== Proof.KI.Val1.lean ====
/- REGION 1 of @main, the VALUE of its output array at the ideal values: after the region's run the output array
   holds, index by index, the layer  relu (hidden[n, ·] · W₂[·, q] + b₂[q])  with
   hidden[n, k] = relu (((x + agg)[n, ·] · W₁[·, k] + b₁[k] − μ[k]) · rsqrt (σ²[k] + ε) · γ[k] + β[k])
   of the arrays the region finds at entry. The body's payload is read at one index of a block (the two matrix
   products as sums over the contracted axis, the row vectors broadcast down the rows); each window's block is read
   back to its array (row 2000·t + p of the moving windows at point t, the whole array of the constant ones); every
   row of the array is in the block of point  row / 2000. -/
import proofs.«418047_j44229573214958_1_alg».proof.Proof.KI.Reg1
import proofs.«418047_j44229573214958_1_alg».proof.Proof.Spec
import proofs.«418047_j44229573214958_1_alg».proof.Proof.LibMatmulAt
import Idealize.ShloMosaic.Lib.Pipeline.Value
import Idealize.ShloMosaic.Lib.ValueIdx
import Idealize.ShloMosaic.PureOps.Ideal.Laws

set_option maxRecDepth 16384

noncomputable section

namespace Cert.KernelIdeal.HandValue

open Gen Hand
open Idealize.ShloMosaic Idealize.ShloMosaic.TcCoe Idealize.ShloMosaic.ValueIdx Idealize.SL.Sem
open Idealize.ShloMosaic.Pipeline (Dat)

/-! ## The matrix product of the body, read at an entry -/

/-- The printed dimension numbers contract the left operand's second axis with the right operand's first: the left
    operand is read at (row, k), -/
theorem dot1_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot1_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and the right at (k, column). -/
theorem dot1_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot1_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of a [2000 × 128] by [128 × 128] product into the zero accumulator: the sum over the contracted axis. -/
theorem mm1_at (l : FVec Ideal S2000x128 .f32) (r : FVec Ideal S128x128 .f32) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) :=
  Idealize.ShloMosaic.MatmulAt.matmul_zero_at dot_S2000x128_S128x128_S2000x128_1_0_0_1_n_n rfl rfl dot1_l0 dot1_l1 dot1_r0 dot1_r1 none l r p q

/-- A row vector broadcast down the rows, read at (p, q), is the row at q. -/
theorem row1_at {α : Type} (v : S1x128.Idx → α) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => by
    match a with
    | ⟨0, _⟩ => rfl
    | ⟨1, _⟩ => rfl)

/-! ## The body's payload, read at an index of the block -/

/-- The hidden unit k of row p of a block, from the blocks of x, agg, W₁, b₁, γ, β, μ, σ² (window order). -/
def hid1 (x0 x1 : S2000x128.Idx → EReal) (x2 : S128x128.Idx → EReal) (x3 x4 x5 x6 x7 : S1x128.Idx → EReal)
    (p : Fin 2000) (k : Fin 128) : EReal :=
  max ((((∑ j : Fin 128, (x0 (ix2 p j) + x1 (ix2 p j)) * x2 (ix2 j k)) + x3 (ix2 0 k)) - x6 (ix2 0 k))
      * Ideal.rsqrt (x7 (ix2 0 k) + Cert.Spec.eps) * x4 (ix2 0 k) + x5 (ix2 0 k)) 0

/-- The hidden layer's payload at (p, k): the hidden units of row p against column k of W₂. The payload's arguments
    come in the order the body loads them: b₁, then σ², μ, γ, β. -/
theorem k1_pay2_at (x0 x1 : Vec Ideal S2000x128 .f32) (x2 : Vec Ideal S128x128 .f32) (x3 x4 x5 x6 x7 : Vec Ideal S1x128 .f32)
    (x8 : Vec Ideal S128x128 .f32) (p : Fin 2000) (q : Fin 128) :
    k1_pay2 x0 x1 x2 x3 x7 x6 x4 x5 x8 (ix2 p q) = ∑ k : Fin 128, hid1 x0 x1 x2 x3 x4 x5 x6 x7 p k * x8 (ix2 k q) := by
  unfold k1_pay2
  rw [mm1_at]
  refine Finset.sum_congr rfl fun k _ => ?_
  congr 1
  unfold hid1
  rw [maximumf_apply, addf_apply, mulf_apply, mulf_apply, subf_apply, addf_apply, mm1_at, row1_at, row1_at, row1_at, row1_at, row1_at]
  simp only [shapeCast_self, Ideal.ofBits_def, Ideal.ofBits_zero_f32]
  rfl

/-- The stored payload at (p, q): the layer's output entry. -/
theorem k1_pay1_at (x0 x1 : Vec Ideal S2000x128 .f32) (x2 : Vec Ideal S128x128 .f32) (x3 x4 x5 x6 x7 : Vec Ideal S1x128 .f32)
    (x8 : Vec Ideal S128x128 .f32) (x9 : Vec Ideal S1x128 .f32) (p : Fin 2000) (q : Fin 128) :
    k1_pay1 (k1_pay2 x0 x1 x2 x3 x7 x6 x4 x5 x8) x9 (ix2 p q)
      = max ((∑ k : Fin 128, hid1 x0 x1 x2 x3 x4 x5 x6 x7 p k * x8 (ix2 k q)) + x9 (ix2 0 q)) 0 := by
  unfold k1_pay1
  rw [maximumf_apply, addf_apply, row1_at, k1_pay2_at, shapeCast_self, broadcast_apply]
  simp only [Ideal.ofBits_def, Ideal.ofBits_zero_f32]

/-! ## The blocks, read back to the arrays -/

section Value1
variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the windows of x, agg and the output are at block (t, 0) at
    point t; every other window is at block (0, 0) throughout. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = t.val
    ∧ win1_10.index t (1 : Fin 2) = 0 :=
  (by decide +kernel : ∀ t : Fin grid1.N, _)

/-- Row p of window 0's block at point t is row 2000·t + p of its array. -/
theorem blk1_0 (c : Dev nD) (t : Fin cfg1.N) (p : Fin 2000) (j : Fin 128) (n : Fin 50000) (hn : n.val = t.val * 2000 + p.val) :
    (iblk1 V c 0 t : S2000x128.Idx → EReal) (ix2 p j) = (V c main_v20 : S50000x128.Idx → EReal) (ix2 n j) := by
  obtain ⟨e0a, e0b, e1a, e1b, e2a, e2b, e3a, e3b, e4a, e4b, e5a, e5b, e6a, e6b, e7a, e7b, e8a, e8b, e9a, e9b, e10a, e10b⟩ := idx1 t
  show V c main_v20 (((cfg1.win 0).blk t).view.emb (ix2 p j)) = V c main_v20 (ix2 n j)
  refine congrArg (V c main_v20) (funext fun a => Fin.ext ?_)
  match a with
  | ⟨0, _⟩ => show win1_0.index t (0 : Fin 2) * 2000 + 1 * p.val = n.val; omega
  | ⟨1, _⟩ => show win1_0.index t (1 : Fin 2) * 128 + 1 * j.val = j.val; omega

/-- Row p of window 1's block at point t is row 2000·t + p of its array. -/
theorem blk1_1 (c : Dev nD) (t : Fin cfg1.N) (p : Fin 2000) (j : Fin 128) (n : Fin 50000) (hn : n.val = t.val * 2000 + p.val) :
    (iblk1 V c 1 t : S2000x128.Idx → EReal) (ix2 p j) = (V c main_v30 : S50000x128.Idx → EReal) (ix2 n j) := by
  obtain ⟨e0a, e0b, e1a, e1b, e2a, e2b, e3a, e3b, e4a, e4b, e5a, e5b, e6a, e6b, e7a, e7b, e8a, e8b, e9a, e9b, e10a, e10b⟩ := idx1 t
  show V c main_v30 (((cfg1.win 1).blk t).view.emb (ix2 p j)) = V c main_v30 (ix2 n j)
  refine congrArg (V c main_v30) (funext fun a => Fin.ext ?_)
  match a with
  | ⟨0, _⟩ => show win1_1.index t (0 : Fin 2) * 2000 + 1 * p.val = n.val; omega
  | ⟨1, _⟩ => show win1_1.index t (1 : Fin 2) * 128 + 1 * j.val = j.val; omega

/-- Window 2's block at any point is its whole array. -/
theorem blk1_2 (c : Dev nD) (t : Fin cfg1.N) : (iblk1 V c 2 t : S128x128.Idx → EReal) = (V c main_arg11 : S128x128.Idx → EReal) := by
  obtain ⟨e0a, e0b, e1a, e1b, e2a, e2b, e3a, e3b, e4a, e4b, e5a, e5b, e6a, e6b, e7a, e7b, e8a, e8b, e9a, e9b, e10a, e10b⟩ := idx1 t
  funext z
  show V c main_arg11 (((cfg1.win 2).blk t).view.emb z) = V c main_arg11 z
  refine congrArg (V c main_arg11) (funext fun a => Fin.ext ?_)
  match a with
  | ⟨0, _⟩ => show win1_2.index t (0 : Fin 2) * 128 + 1 * (z 0).val = (z 0).val; omega
  | ⟨1, _⟩ => show win1_2.index t (1 : Fin 2) * 128 + 1 * (z 1).val = (z 1).val; omega

/-- Window 3's block at any point is its whole array. -/
theorem blk1_3 (c : Dev nD) (t : Fin cfg1.N) : (iblk1 V c 3 t : S1x128.Idx → EReal) = (V c main_v31 : S1x128.Idx → EReal) := by
  obtain ⟨e0a, e0b, e1a, e1b, e2a, e2b, e3a, e3b, e4a, e4b, e5a, e5b, e6a, e6b, e7a, e7b, e8a, e8b, e9a, e9b, e10a, e10b⟩ := idx1 t
  funext z
  show V c main_v31 (((cfg1.win 3).blk t).view.emb z) = V c main_v31 z
  refine congrArg (V c main_v31) (funext fun a => Fin.ext ?_)
  match a with
  | ⟨0, _⟩ => show win1_3.index t (0 : Fin 2) * 1 + 1 * (z 0).val = (z 0).val; omega
  | ⟨1, _⟩ => show win1_3.index t (1 : Fin 2) * 128 + 1 * (z 1).val = (z 1).val; omega

/-- Window 4's block at any point is its whole array. -/
theorem blk1_4 (c : Dev nD) (t : Fin cfg1.N) : (iblk1 V c 4 t : S1x128.Idx → EReal) = (V c main_v32 : S1x128.Idx → EReal) := by
  obtain ⟨e0a, e0b, e1a, e1b, e2a, e2b, e3a, e3b, e4a, e4b, e5a, e5b, e6a, e6b, e7a, e7b, e8a, e8b, e9a, e9b, e10a, e10b⟩ := idx1 t
  funext z
  show V c main_v32 (((cfg1.win 4).blk t).view.emb z) = V c main_v32 z
  refine congrArg (V c main_v32) (funext fun a => Fin.ext ?_)
  match a with
  | ⟨0, _⟩ => show win1_4.index t (0 : Fin 2) * 1 + 1 * (z 0).val = (z 0).val; omega
  | ⟨1, _⟩ => show win1_4.index t (1 : Fin 2) * 128 + 1 * (z 1).val = (z 1).val; omega

/-- Window 5's block at any point is its whole array. -/
theorem blk1_5 (c : Dev nD) (t : Fin cfg1.N) : (iblk1 V c 5 t : S1x128.Idx → EReal) = (V c main_v33 : S1x128.Idx → EReal) := by
  obtain ⟨e0a, e0b, e1a, e1b, e2a, e2b, e3a, e3b, e4a, e4b, e5a, e5b, e6a, e6b, e7a, e7b, e8a, e8b, e9a, e9b, e10a, e10b⟩ := idx1 t
  funext z
  show V c main_v33 (((cfg1.win 5).blk t).view.emb z) = V c main_v33 z
  refine congrArg (V c main_v33) (funext fun a => Fin.ext ?_)
  match a with
  | ⟨0, _⟩ => show win1_5.index t (0 : Fin 2) * 1 + 1 * (z 0).val = (z 0).val; omega
  | ⟨1, _⟩ => show win1_5.index t (1 : Fin 2) * 128 + 1 * (z 1).val = (z 1).val; omega

/-- Window 6's block at any point is its whole array. -/
theorem blk1_6 (c : Dev nD) (t : Fin cfg1.N) : (iblk1 V c 6 t : S1x128.Idx → EReal) = (V c main_v34 : S1x128.Idx → EReal) := by
  obtain ⟨e0a, e0b, e1a, e1b, e2a, e2b, e3a, e3b, e4a, e4b, e5a, e5b, e6a, e6b, e7a, e7b, e8a, e8b, e9a, e9b, e10a, e10b⟩ := idx1 t
  funext z
  show V c main_v34 (((cfg1.win 6).blk t).view.emb z) = V c main_v34 z
  refine congrArg (V c main_v34) (funext fun a => Fin.ext ?_)
  match a with
  | ⟨0, _⟩ => show win1_6.index t (0 : Fin 2) * 1 + 1 * (z 0).val = (z 0).val; omega
  | ⟨1, _⟩ => show win1_6.index t (1 : Fin 2) * 128 + 1 * (z 1).val = (z 1).val; omega

/-- Window 7's block at any point is its whole array. -/
theorem blk1_7 (c : Dev nD) (t : Fin cfg1.N) : (iblk1 V c 7 t : S1x128.Idx → EReal) = (V c main_v35 : S1x128.Idx → EReal) := by
  obtain ⟨e0a, e0b, e1a, e1b, e2a, e2b, e3a, e3b, e4a, e4b, e5a, e5b, e6a, e6b, e7a, e7b, e8a, e8b, e9a, e9b, e10a, e10b⟩ := idx1 t
  funext z
  show V c main_v35 (((cfg1.win 7).blk t).view.emb z) = V c main_v35 z
  refine congrArg (V c main_v35) (funext fun a => Fin.ext ?_)
  match a with
  | ⟨0, _⟩ => show win1_7.index t (0 : Fin 2) * 1 + 1 * (z 0).val = (z 0).val; omega
  | ⟨1, _⟩ => show win1_7.index t (1 : Fin 2) * 128 + 1 * (z 1).val = (z 1).val; omega

/-- Window 8's block at any point is its whole array. -/
theorem blk1_8 (c : Dev nD) (t : Fin cfg1.N) : (iblk1 V c 8 t : S128x128.Idx → EReal) = (V c main_arg17 : S128x128.Idx → EReal) := by
  obtain ⟨e0a, e0b, e1a, e1b, e2a, e2b, e3a, e3b, e4a, e4b, e5a, e5b, e6a, e6b, e7a, e7b, e8a, e8b, e9a, e9b, e10a, e10b⟩ := idx1 t
  funext z
  show V c main_arg17 (((cfg1.win 8).blk t).view.emb z) = V c main_arg17 z
  refine congrArg (V c main_arg17) (funext fun a => Fin.ext ?_)
  match a with
  | ⟨0, _⟩ => show win1_8.index t (0 : Fin 2) * 128 + 1 * (z 0).val = (z 0).val; omega
  | ⟨1, _⟩ => show win1_8.index t (1 : Fin 2) * 128 + 1 * (z 1).val = (z 1).val; omega

/-- Window 9's block at any point is its whole array. -/
theorem blk1_9 (c : Dev nD) (t : Fin cfg1.N) : (iblk1 V c 9 t : S1x128.Idx → EReal) = (V c main_v36 : S1x128.Idx → EReal) := by
  obtain ⟨e0a, e0b, e1a, e1b, e2a, e2b, e3a, e3b, e4a, e4b, e5a, e5b, e6a, e6b, e7a, e7b, e8a, e8b, e9a, e9b, e10a, e10b⟩ := idx1 t
  funext z
  show V c main_v36 (((cfg1.win 9).blk t).view.emb z) = V c main_v36 z
  refine congrArg (V c main_v36) (funext fun a => Fin.ext ?_)
  match a with
  | ⟨0, _⟩ => show win1_9.index t (0 : Fin 2) * 1 + 1 * (z 0).val = (z 0).val; omega
  | ⟨1, _⟩ => show win1_9.index t (1 : Fin 2) * 128 + 1 * (z 1).val = (z 1).val; omega

/-! ## From the blocks to the layer -/

/-- The layer's output of the arrays the region finds. -/
abbrev G1 (c : Dev nD) : S50000x128.Idx → EReal :=
  Cert.Spec.gin128 (V c main_v20) (V c main_v30) (V c main_arg11) (Cert.Spec.row128 (V c main_v31)) (Cert.Spec.row128 (V c main_v32))
    (Cert.Spec.row128 (V c main_v33)) (Cert.Spec.row128 (V c main_v34)) (Cert.Spec.row128 (V c main_v35)) (V c main_arg17) (Cert.Spec.row128 (V c main_v36))

/-- Blocks that are row p ↦ row n of x and agg, and the whole of the other arrays, give at (p, q) the layer's entry (n, q). -/
theorem layer1_of_blocks (X AGG : S50000x128.Idx → EReal) (W1 : S128x128.Idx → EReal) (B1 G BB MU VAR : S1x128.Idx → EReal)
    (W2 : S128x128.Idx → EReal) (B2 : S1x128.Idx → EReal)
    (x0 x1 : S2000x128.Idx → EReal) (n : Fin 50000) (p : Fin 2000) (q : Fin 128)
    (h0 : ∀ j, x0 (ix2 p j) = X (ix2 n j)) (h1 : ∀ j, x1 (ix2 p j) = AGG (ix2 n j)) :
    max ((∑ k : Fin 128, hid1 x0 x1 W1 B1 G BB MU VAR p k * W2 (ix2 k q)) + B2 (ix2 0 q)) 0
      = Cert.Spec.gin128 X AGG W1 (Cert.Spec.row128 B1) (Cert.Spec.row128 G) (Cert.Spec.row128 BB) (Cert.Spec.row128 MU)
          (Cert.Spec.row128 VAR) W2 (Cert.Spec.row128 B2) (ix2 n q) := by
  unfold Cert.Spec.gin128 Cert.Spec.hid128 Cert.Spec.row128 hid1
  simp only [h0, h1]

/-! ## What a point writes back, and the array after the run -/

/-- WHAT POINT t WRITES BACK is block t of the layer's output of the arrays as the region finds them. -/
theorem flushed1_eq (c : Dev nD) (t : Fin cfg1.N) :
    (dat1 (F := Ideal) V c).flushed 10 t = ((cfg1.win 10).blk t).view.read (Elt Ideal) (G1 V c) := by
  show (cfg1.win 10).cut (grid1.coords t) ((dat1 (F := Ideal) V c).after 10 t) = _
  rw [after1_10]
  unfold out1_10
  rw [View.canon_unit_zero hz1]
  simp only [View.ld_unit_zero (S := S2000x128) hz1, View.ld_unit_zero (S := S128x128) hz1, View.ld_unit_zero (S := S1x128) hz1]
  obtain ⟨e0a, e0b, e1a, e1b, e2a, e2b, e3a, e3b, e4a, e4b, e5a, e5b, e6a, e6b, e7a, e7b, e8a, e8b, e9a, e9b, e10a, e10b⟩ := idx1 t
  have ht : t.val < 25 := N_1 ▸ t.isLt
  funext y
  obtain ⟨p, q, rfl⟩ : ∃ (p : Fin 2000) (q : Fin 128), y = ix2 p q := ⟨y 0, y 1, eq_ix2 y⟩
  show k1_pay1 (k1_pay2 (iblk1 V c 0 t) (iblk1 V c 1 t) (iblk1 V c 2 t) (iblk1 V c 3 t) (iblk1 V c 7 t) (iblk1 V c 6 t) (iblk1 V c 4 t) (iblk1 V c 5 t) (iblk1 V c 8 t)) (iblk1 V c 9 t) (ix2 p q)
    = G1 V c (((cfg1.win 10).blk t).view.emb (ix2 p q))
  have hi : ((cfg1.win 10).blk t).view.emb (ix2 p q) = (ix2 (⟨t.val * 2000 + p.val, by have := p.isLt; omega⟩ : Fin 50000) q : S50000x128.Idx) :=
    funext fun a => Fin.ext (by
      match a with
      | ⟨0, _⟩ => show win1_10.index t (0 : Fin 2) * 2000 + 1 * p.val = t.val * 2000 + p.val; omega
      | ⟨1, _⟩ => show win1_10.index t (1 : Fin 2) * 128 + 1 * q.val = q.val; omega)
  refine (k1_pay1_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p q).trans ?_
  refine Eq.trans ?_ (congrArg (G1 V c) hi.symm)
  rw [blk1_2 V c t, blk1_3 V c t, blk1_4 V c t, blk1_5 V c t, blk1_6 V c t, blk1_7 V c t, blk1_8 V c t, blk1_9 V c t]
  exact layer1_of_blocks (V c main_v20) (V c main_v30) (V c main_arg11) (V c main_v31) (V c main_v32) (V c main_v33) (V c main_v34) (V c main_v35)
    (V c main_arg17) (V c main_v36) (iblk1 V c 0 t) (iblk1 V c 1 t) _ p q (fun j => blk1_0 V c t p j _ rfl) (fun j => blk1_1 V c t p j _ rfl)

/-- An index of the array is in point t's block iff each coordinate is in the block's range on its axis. -/
theorem mem_blk1 (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v37).slice (win1_10.rect t)).set ↔ _
  rw [View.set_slice_whole, Rect.mem_set_unit]
  exact Iff.rfl

/-- Every row of the array is in the block of the point  row / 2000 , which writes it back. -/
theorem cover1 (i : S50000x128.Idx) : ∃ t : Fin cfg1.N, (cfg1.win 10).flush t = true ∧ i ∈ ((cfg1.win 10).blk t).view.set := by
  have h0 : (i 0).val < 50000 := (i 0).isLt
  have h1 : (i 1).val < 128 := (i 1).isLt
  obtain ⟨t, ht⟩ : ∃ t : Fin cfg1.N, t.val = (i 0).val / 2000 := ⟨⟨(i 0).val / 2000, by rw [show cfg1.N = 25 from N_1]; omega⟩, rfl⟩
  obtain ⟨e0a, e0b, e1a, e1b, e2a, e2b, e3a, e3b, e4a, e4b, e5a, e5b, e6a, e6b, e7a, e7b, e8a, e8b, e9a, e9b, e10a, e10b⟩ := idx1 t
  refine ⟨t, flush1_10 t, ?_⟩
  rw [mem_blk1]
  intro a
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 128 ≤ (i 1).val ∧ (i 1).val < win1_10.index t (1 : Fin 2) * 128 + 128; omega

/-- THE ARRAY after the region's run: the layer's output of the arrays the region finds, at every index. -/
theorem final1 (c : Dev nD) :
    ((dat1 (F := Ideal) V c).arrAt 10 cfg1.N : S50000x128.Idx → EReal)
      = Cert.Spec.gin128 (V c main_v20) (V c main_v30) (V c main_arg11) (Cert.Spec.row128 (V c main_v31)) (Cert.Spec.row128 (V c main_v32))
          (Cert.Spec.row128 (V c main_v33)) (Cert.Spec.row128 (V c main_v34)) (Cert.Spec.row128 (V c main_v35)) (V c main_arg17) (Cert.Spec.row128 (V c main_v36)) :=
  (dat1 (F := Ideal) V c).arrAt_eq_of_cover 10 (G1 V c) (fun t _ => flushed1_eq V c t) cover1

end Value1

end Cert.KernelIdeal.HandValue

end
-- ==== Proof.KI.Val2.lean ====
/- REGION 2 of @main, the VALUE of its output array at the ideal values: after the region's run the output array
   holds, index by index, the layer  relu (hidden[n, ·] · W₂[·, q] + b₂[q])  with
   hidden[n, k] = relu (((x + agg)[n, ·] · W₁[·, k] + b₁[k] − μ[k]) · rsqrt (σ²[k] + ε) · γ[k] + β[k])
   of the arrays the region finds at entry. The body's payload is read at one index of a block (the two matrix
   products as sums over the contracted axis, the row vectors broadcast down the rows); each window's block is read
   back to its array (row 2000·t + p of the moving windows at point t, the whole array of the constant ones); every
   row of the array is in the block of point  row / 2000. -/
import proofs.«418047_j44229573214958_1_alg».proof.Proof.KI.Reg2
import proofs.«418047_j44229573214958_1_alg».proof.Proof.Spec
import proofs.«418047_j44229573214958_1_alg».proof.Proof.LibMatmulAt
import Idealize.ShloMosaic.Lib.Pipeline.Value
import Idealize.ShloMosaic.Lib.ValueIdx
import Idealize.ShloMosaic.PureOps.Ideal.Laws

set_option maxRecDepth 16384

noncomputable section

namespace Cert.KernelIdeal.HandValue

open Gen Hand
open Idealize.ShloMosaic Idealize.ShloMosaic.TcCoe Idealize.ShloMosaic.ValueIdx Idealize.SL.Sem
open Idealize.ShloMosaic.Pipeline (Dat)

/-! ## The matrix product of the body, read at an entry -/

/-- The printed dimension numbers contract the left operand's second axis with the right operand's first: the left
    operand is read at (row, k), -/
theorem dot2_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot2_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and the right at (k, column). -/
theorem dot2_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot2_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of a [2000 × 128] by [128 × 128] product into the zero accumulator: the sum over the contracted axis. -/
theorem mm2_at (l : FVec Ideal S2000x128 .f32) (r : FVec Ideal S128x128 .f32) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) :=
  Idealize.ShloMosaic.MatmulAt.matmul_zero_at dot_S2000x128_S128x128_S2000x128_1_0_0_1_n_n rfl rfl dot2_l0 dot2_l1 dot2_r0 dot2_r1 none l r p q

/-- A row vector broadcast down the rows, read at (p, q), is the row at q. -/
theorem row2_at {α : Type} (v : S1x128.Idx → α) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => by
    match a with
    | ⟨0, _⟩ => rfl
    | ⟨1, _⟩ => rfl)

/-! ## The body's payload, read at an index of the block -/

/-- The hidden unit k of row p of a block, from the blocks of x, agg, W₁, b₁, γ, β, μ, σ² (window order). -/
def hid2 (x0 x1 : S2000x128.Idx → EReal) (x2 : S128x128.Idx → EReal) (x3 x4 x5 x6 x7 : S1x128.Idx → EReal)
    (p : Fin 2000) (k : Fin 128) : EReal :=
  max ((((∑ j : Fin 128, (x0 (ix2 p j) + x1 (ix2 p j)) * x2 (ix2 j k)) + x3 (ix2 0 k)) - x6 (ix2 0 k))
      * Ideal.rsqrt (x7 (ix2 0 k) + Cert.Spec.eps) * x4 (ix2 0 k) + x5 (ix2 0 k)) 0

/-- The hidden layer's payload at (p, k): the hidden units of row p against column k of W₂. The payload's arguments
    come in the order the body loads them: b₁, then σ², μ, γ, β. -/
theorem k2_pay2_at (x0 x1 : Vec Ideal S2000x128 .f32) (x2 : Vec Ideal S128x128 .f32) (x3 x4 x5 x6 x7 : Vec Ideal S1x128 .f32)
    (x8 : Vec Ideal S128x128 .f32) (p : Fin 2000) (q : Fin 128) :
    k2_pay2 x0 x1 x2 x3 x7 x6 x4 x5 x8 (ix2 p q) = ∑ k : Fin 128, hid2 x0 x1 x2 x3 x4 x5 x6 x7 p k * x8 (ix2 k q) := by
  unfold k2_pay2
  rw [mm2_at]
  refine Finset.sum_congr rfl fun k _ => ?_
  congr 1
  unfold hid2
  rw [maximumf_apply, addf_apply, mulf_apply, mulf_apply, subf_apply, addf_apply, mm2_at, row2_at, row2_at, row2_at, row2_at, row2_at]
  simp only [shapeCast_self, Ideal.ofBits_def, Ideal.ofBits_zero_f32]
  rfl

/-- The stored payload at (p, q): the layer's output entry. -/
theorem k2_pay1_at (x0 x1 : Vec Ideal S2000x128 .f32) (x2 : Vec Ideal S128x128 .f32) (x3 x4 x5 x6 x7 : Vec Ideal S1x128 .f32)
    (x8 : Vec Ideal S128x128 .f32) (x9 : Vec Ideal S1x128 .f32) (p : Fin 2000) (q : Fin 128) :
    k2_pay1 (k2_pay2 x0 x1 x2 x3 x7 x6 x4 x5 x8) x9 (ix2 p q)
      = max ((∑ k : Fin 128, hid2 x0 x1 x2 x3 x4 x5 x6 x7 p k * x8 (ix2 k q)) + x9 (ix2 0 q)) 0 := by
  unfold k2_pay1
  rw [maximumf_apply, addf_apply, row2_at, k2_pay2_at, shapeCast_self, broadcast_apply]
  simp only [Ideal.ofBits_def, Ideal.ofBits_zero_f32]

/-! ## The blocks, read back to the arrays -/

section Value2
variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the windows of x, agg and the output are at block (t, 0) at
    point t; every other window is at block (0, 0) throughout. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = t.val
    ∧ win2_10.index t (1 : Fin 2) = 0 :=
  (by decide +kernel : ∀ t : Fin grid2.N, _)

/-- Row p of window 0's block at point t is row 2000·t + p of its array. -/
theorem blk2_0 (c : Dev nD) (t : Fin cfg2.N) (p : Fin 2000) (j : Fin 128) (n : Fin 50000) (hn : n.val = t.val * 2000 + p.val) :
    (iblk2 V c 0 t : S2000x128.Idx → EReal) (ix2 p j) = (V c main_v37 : S50000x128.Idx → EReal) (ix2 n j) := by
  obtain ⟨e0a, e0b, e1a, e1b, e2a, e2b, e3a, e3b, e4a, e4b, e5a, e5b, e6a, e6b, e7a, e7b, e8a, e8b, e9a, e9b, e10a, e10b⟩ := idx2 t
  show V c main_v37 (((cfg2.win 0).blk t).view.emb (ix2 p j)) = V c main_v37 (ix2 n j)
  refine congrArg (V c main_v37) (funext fun a => Fin.ext ?_)
  match a with
  | ⟨0, _⟩ => show win2_0.index t (0 : Fin 2) * 2000 + 1 * p.val = n.val; omega
  | ⟨1, _⟩ => show win2_0.index t (1 : Fin 2) * 128 + 1 * j.val = j.val; omega

/-- Row p of window 1's block at point t is row 2000·t + p of its array. -/
theorem blk2_1 (c : Dev nD) (t : Fin cfg2.N) (p : Fin 2000) (j : Fin 128) (n : Fin 50000) (hn : n.val = t.val * 2000 + p.val) :
    (iblk2 V c 1 t : S2000x128.Idx → EReal) (ix2 p j) = (V c main_v47 : S50000x128.Idx → EReal) (ix2 n j) := by
  obtain ⟨e0a, e0b, e1a, e1b, e2a, e2b, e3a, e3b, e4a, e4b, e5a, e5b, e6a, e6b, e7a, e7b, e8a, e8b, e9a, e9b, e10a, e10b⟩ := idx2 t
  show V c main_v47 (((cfg2.win 1).blk t).view.emb (ix2 p j)) = V c main_v47 (ix2 n j)
  refine congrArg (V c main_v47) (funext fun a => Fin.ext ?_)
  match a with
  | ⟨0, _⟩ => show win2_1.index t (0 : Fin 2) * 2000 + 1 * p.val = n.val; omega
  | ⟨1, _⟩ => show win2_1.index t (1 : Fin 2) * 128 + 1 * j.val = j.val; omega

/-- Window 2's block at any point is its whole array. -/
theorem blk2_2 (c : Dev nD) (t : Fin cfg2.N) : (iblk2 V c 2 t : S128x128.Idx → EReal) = (V c main_arg19 : S128x128.Idx → EReal) := by
  obtain ⟨e0a, e0b, e1a, e1b, e2a, e2b, e3a, e3b, e4a, e4b, e5a, e5b, e6a, e6b, e7a, e7b, e8a, e8b, e9a, e9b, e10a, e10b⟩ := idx2 t
  funext z
  show V c main_arg19 (((cfg2.win 2).blk t).view.emb z) = V c main_arg19 z
  refine congrArg (V c main_arg19) (funext fun a => Fin.ext ?_)
  match a with
  | ⟨0, _⟩ => show win2_2.index t (0 : Fin 2) * 128 + 1 * (z 0).val = (z 0).val; omega
  | ⟨1, _⟩ => show win2_2.index t (1 : Fin 2) * 128 + 1 * (z 1).val = (z 1).val; omega

/-- Window 3's block at any point is its whole array. -/
theorem blk2_3 (c : Dev nD) (t : Fin cfg2.N) : (iblk2 V c 3 t : S1x128.Idx → EReal) = (V c main_v48 : S1x128.Idx → EReal) := by
  obtain ⟨e0a, e0b, e1a, e1b, e2a, e2b, e3a, e3b, e4a, e4b, e5a, e5b, e6a, e6b, e7a, e7b, e8a, e8b, e9a, e9b, e10a, e10b⟩ := idx2 t
  funext z
  show V c main_v48 (((cfg2.win 3).blk t).view.emb z) = V c main_v48 z
  refine congrArg (V c main_v48) (funext fun a => Fin.ext ?_)
  match a with
  | ⟨0, _⟩ => show win2_3.index t (0 : Fin 2) * 1 + 1 * (z 0).val = (z 0).val; omega
  | ⟨1, _⟩ => show win2_3.index t (1 : Fin 2) * 128 + 1 * (z 1).val = (z 1).val; omega

/-- Window 4's block at any point is its whole array. -/
theorem blk2_4 (c : Dev nD) (t : Fin cfg2.N) : (iblk2 V c 4 t : S1x128.Idx → EReal) = (V c main_v49 : S1x128.Idx → EReal) := by
  obtain ⟨e0a, e0b, e1a, e1b, e2a, e2b, e3a, e3b, e4a, e4b, e5a, e5b, e6a, e6b, e7a, e7b, e8a, e8b, e9a, e9b, e10a, e10b⟩ := idx2 t
  funext z
  show V c main_v49 (((cfg2.win 4).blk t).view.emb z) = V c main_v49 z
  refine congrArg (V c main_v49) (funext fun a => Fin.ext ?_)
  match a with
  | ⟨0, _⟩ => show win2_4.index t (0 : Fin 2) * 1 + 1 * (z 0).val = (z 0).val; omega
  | ⟨1, _⟩ => show win2_4.index t (1 : Fin 2) * 128 + 1 * (z 1).val = (z 1).val; omega

/-- Window 5's block at any point is its whole array. -/
theorem blk2_5 (c : Dev nD) (t : Fin cfg2.N) : (iblk2 V c 5 t : S1x128.Idx → EReal) = (V c main_v50 : S1x128.Idx → EReal) := by
  obtain ⟨e0a, e0b, e1a, e1b, e2a, e2b, e3a, e3b, e4a, e4b, e5a, e5b, e6a, e6b, e7a, e7b, e8a, e8b, e9a, e9b, e10a, e10b⟩ := idx2 t
  funext z
  show V c main_v50 (((cfg2.win 5).blk t).view.emb z) = V c main_v50 z
  refine congrArg (V c main_v50) (funext fun a => Fin.ext ?_)
  match a with
  | ⟨0, _⟩ => show win2_5.index t (0 : Fin 2) * 1 + 1 * (z 0).val = (z 0).val; omega
  | ⟨1, _⟩ => show win2_5.index t (1 : Fin 2) * 128 + 1 * (z 1).val = (z 1).val; omega

/-- Window 6's block at any point is its whole array. -/
theorem blk2_6 (c : Dev nD) (t : Fin cfg2.N) : (iblk2 V c 6 t : S1x128.Idx → EReal) = (V c main_v51 : S1x128.Idx → EReal) := by
  obtain ⟨e0a, e0b, e1a, e1b, e2a, e2b, e3a, e3b, e4a, e4b, e5a, e5b, e6a, e6b, e7a, e7b, e8a, e8b, e9a, e9b, e10a, e10b⟩ := idx2 t
  funext z
  show V c main_v51 (((cfg2.win 6).blk t).view.emb z) = V c main_v51 z
  refine congrArg (V c main_v51) (funext fun a => Fin.ext ?_)
  match a with
  | ⟨0, _⟩ => show win2_6.index t (0 : Fin 2) * 1 + 1 * (z 0).val = (z 0).val; omega
  | ⟨1, _⟩ => show win2_6.index t (1 : Fin 2) * 128 + 1 * (z 1).val = (z 1).val; omega

/-- Window 7's block at any point is its whole array. -/
theorem blk2_7 (c : Dev nD) (t : Fin cfg2.N) : (iblk2 V c 7 t : S1x128.Idx → EReal) = (V c main_v52 : S1x128.Idx → EReal) := by
  obtain ⟨e0a, e0b, e1a, e1b, e2a, e2b, e3a, e3b, e4a, e4b, e5a, e5b, e6a, e6b, e7a, e7b, e8a, e8b, e9a, e9b, e10a, e10b⟩ := idx2 t
  funext z
  show V c main_v52 (((cfg2.win 7).blk t).view.emb z) = V c main_v52 z
  refine congrArg (V c main_v52) (funext fun a => Fin.ext ?_)
  match a with
  | ⟨0, _⟩ => show win2_7.index t (0 : Fin 2) * 1 + 1 * (z 0).val = (z 0).val; omega
  | ⟨1, _⟩ => show win2_7.index t (1 : Fin 2) * 128 + 1 * (z 1).val = (z 1).val; omega

/-- Window 8's block at any point is its whole array. -/
theorem blk2_8 (c : Dev nD) (t : Fin cfg2.N) : (iblk2 V c 8 t : S128x128.Idx → EReal) = (V c main_arg25 : S128x128.Idx → EReal) := by
  obtain ⟨e0a, e0b, e1a, e1b, e2a, e2b, e3a, e3b, e4a, e4b, e5a, e5b, e6a, e6b, e7a, e7b, e8a, e8b, e9a, e9b, e10a, e10b⟩ := idx2 t
  funext z
  show V c main_arg25 (((cfg2.win 8).blk t).view.emb z) = V c main_arg25 z
  refine congrArg (V c main_arg25) (funext fun a => Fin.ext ?_)
  match a with
  | ⟨0, _⟩ => show win2_8.index t (0 : Fin 2) * 128 + 1 * (z 0).val = (z 0).val; omega
  | ⟨1, _⟩ => show win2_8.index t (1 : Fin 2) * 128 + 1 * (z 1).val = (z 1).val; omega

/-- Window 9's block at any point is its whole array. -/
theorem blk2_9 (c : Dev nD) (t : Fin cfg2.N) : (iblk2 V c 9 t : S1x128.Idx → EReal) = (V c main_v53 : S1x128.Idx → EReal) := by
  obtain ⟨e0a, e0b, e1a, e1b, e2a, e2b, e3a, e3b, e4a, e4b, e5a, e5b, e6a, e6b, e7a, e7b, e8a, e8b, e9a, e9b, e10a, e10b⟩ := idx2 t
  funext z
  show V c main_v53 (((cfg2.win 9).blk t).view.emb z) = V c main_v53 z
  refine congrArg (V c main_v53) (funext fun a => Fin.ext ?_)
  match a with
  | ⟨0, _⟩ => show win2_9.index t (0 : Fin 2) * 1 + 1 * (z 0).val = (z 0).val; omega
  | ⟨1, _⟩ => show win2_9.index t (1 : Fin 2) * 128 + 1 * (z 1).val = (z 1).val; omega

/-! ## From the blocks to the layer -/

/-- The layer's output of the arrays the region finds. -/
abbrev G2 (c : Dev nD) : S50000x128.Idx → EReal :=
  Cert.Spec.gin128 (V c main_v37) (V c main_v47) (V c main_arg19) (Cert.Spec.row128 (V c main_v48)) (Cert.Spec.row128 (V c main_v49))
    (Cert.Spec.row128 (V c main_v50)) (Cert.Spec.row128 (V c main_v51)) (Cert.Spec.row128 (V c main_v52)) (V c main_arg25) (Cert.Spec.row128 (V c main_v53))

/-- Blocks that are row p ↦ row n of x and agg, and the whole of the other arrays, give at (p, q) the layer's entry (n, q). -/
theorem layer2_of_blocks (X AGG : S50000x128.Idx → EReal) (W1 : S128x128.Idx → EReal) (B1 G BB MU VAR : S1x128.Idx → EReal)
    (W2 : S128x128.Idx → EReal) (B2 : S1x128.Idx → EReal)
    (x0 x1 : S2000x128.Idx → EReal) (n : Fin 50000) (p : Fin 2000) (q : Fin 128)
    (h0 : ∀ j, x0 (ix2 p j) = X (ix2 n j)) (h1 : ∀ j, x1 (ix2 p j) = AGG (ix2 n j)) :
    max ((∑ k : Fin 128, hid2 x0 x1 W1 B1 G BB MU VAR p k * W2 (ix2 k q)) + B2 (ix2 0 q)) 0
      = Cert.Spec.gin128 X AGG W1 (Cert.Spec.row128 B1) (Cert.Spec.row128 G) (Cert.Spec.row128 BB) (Cert.Spec.row128 MU)
          (Cert.Spec.row128 VAR) W2 (Cert.Spec.row128 B2) (ix2 n q) := by
  unfold Cert.Spec.gin128 Cert.Spec.hid128 Cert.Spec.row128 hid2
  simp only [h0, h1]

/-! ## What a point writes back, and the array after the run -/

/-- WHAT POINT t WRITES BACK is block t of the layer's output of the arrays as the region finds them. -/
theorem flushed2_eq (c : Dev nD) (t : Fin cfg2.N) :
    (dat2 (F := Ideal) V c).flushed 10 t = ((cfg2.win 10).blk t).view.read (Elt Ideal) (G2 V c) := by
  show (cfg2.win 10).cut (grid2.coords t) ((dat2 (F := Ideal) V c).after 10 t) = _
  rw [after2_10]
  unfold out2_10
  rw [View.canon_unit_zero hz2]
  simp only [View.ld_unit_zero (S := S2000x128) hz2, View.ld_unit_zero (S := S128x128) hz2, View.ld_unit_zero (S := S1x128) hz2]
  obtain ⟨e0a, e0b, e1a, e1b, e2a, e2b, e3a, e3b, e4a, e4b, e5a, e5b, e6a, e6b, e7a, e7b, e8a, e8b, e9a, e9b, e10a, e10b⟩ := idx2 t
  have ht : t.val < 25 := N_2 ▸ t.isLt
  funext y
  obtain ⟨p, q, rfl⟩ : ∃ (p : Fin 2000) (q : Fin 128), y = ix2 p q := ⟨y 0, y 1, eq_ix2 y⟩
  show k2_pay1 (k2_pay2 (iblk2 V c 0 t) (iblk2 V c 1 t) (iblk2 V c 2 t) (iblk2 V c 3 t) (iblk2 V c 7 t) (iblk2 V c 6 t) (iblk2 V c 4 t) (iblk2 V c 5 t) (iblk2 V c 8 t)) (iblk2 V c 9 t) (ix2 p q)
    = G2 V c (((cfg2.win 10).blk t).view.emb (ix2 p q))
  have hi : ((cfg2.win 10).blk t).view.emb (ix2 p q) = (ix2 (⟨t.val * 2000 + p.val, by have := p.isLt; omega⟩ : Fin 50000) q : S50000x128.Idx) :=
    funext fun a => Fin.ext (by
      match a with
      | ⟨0, _⟩ => show win2_10.index t (0 : Fin 2) * 2000 + 1 * p.val = t.val * 2000 + p.val; omega
      | ⟨1, _⟩ => show win2_10.index t (1 : Fin 2) * 128 + 1 * q.val = q.val; omega)
  refine (k2_pay1_at (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) p q).trans ?_
  refine Eq.trans ?_ (congrArg (G2 V c) hi.symm)
  rw [blk2_2 V c t, blk2_3 V c t, blk2_4 V c t, blk2_5 V c t, blk2_6 V c t, blk2_7 V c t, blk2_8 V c t, blk2_9 V c t]
  exact layer2_of_blocks (V c main_v37) (V c main_v47) (V c main_arg19) (V c main_v48) (V c main_v49) (V c main_v50) (V c main_v51) (V c main_v52)
    (V c main_arg25) (V c main_v53) (iblk2 V c 0 t) (iblk2 V c 1 t) _ p q (fun j => blk2_0 V c t p j _ rfl) (fun j => blk2_1 V c t p j _ rfl)

/-- An index of the array is in point t's block iff each coordinate is in the block's range on its axis. -/
theorem mem_blk2 (t : Fin cfg2.N) (i : S50000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v54).slice (win2_10.rect t)).set ↔ _
  rw [View.set_slice_whole, Rect.mem_set_unit]
  exact Iff.rfl

/-- Every row of the array is in the block of the point  row / 2000 , which writes it back. -/
theorem cover2 (i : S50000x128.Idx) : ∃ t : Fin cfg2.N, (cfg2.win 10).flush t = true ∧ i ∈ ((cfg2.win 10).blk t).view.set := by
  have h0 : (i 0).val < 50000 := (i 0).isLt
  have h1 : (i 1).val < 128 := (i 1).isLt
  obtain ⟨t, ht⟩ : ∃ t : Fin cfg2.N, t.val = (i 0).val / 2000 := ⟨⟨(i 0).val / 2000, by rw [show cfg2.N = 25 from N_2]; omega⟩, rfl⟩
  obtain ⟨e0a, e0b, e1a, e1b, e2a, e2b, e3a, e3b, e4a, e4b, e5a, e5b, e6a, e6b, e7a, e7b, e8a, e8b, e9a, e9b, e10a, e10b⟩ := idx2 t
  refine ⟨t, flush2_10 t, ?_⟩
  rw [mem_blk2]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 128 ≤ (i 1).val ∧ (i 1).val < win2_10.index t (1 : Fin 2) * 128 + 128; omega

/-- THE ARRAY after the region's run: the layer's output of the arrays the region finds, at every index. -/
theorem final2 (c : Dev nD) :
    ((dat2 (F := Ideal) V c).arrAt 10 cfg2.N : S50000x128.Idx → EReal)
      = Cert.Spec.gin128 (V c main_v37) (V c main_v47) (V c main_arg19) (Cert.Spec.row128 (V c main_v48)) (Cert.Spec.row128 (V c main_v49))
          (Cert.Spec.row128 (V c main_v50)) (Cert.Spec.row128 (V c main_v51)) (Cert.Spec.row128 (V c main_v52)) (V c main_arg25) (Cert.Spec.row128 (V c main_v53)) :=
  (dat2 (F := Ideal) V c).arrAt_eq_of_cover 10 (G2 V c) (fun t _ => flushed2_eq V c t) cover2

end Value2

end Cert.KernelIdeal.HandValue

end
-- ==== Proof.KI.PoolMath.lean ====
/- The mathematics of the pooling region at the ideal values, over variables only: the three accumulators, each reset to
   zero and then fed, block of 2000 rows by block, the product of the block's membership matrix (row r belongs to graph g)
   with the block's rows, end after the 25 blocks at the per-graph sum of all 50000 rows. -/
import proofs.«418047_j44229573214958_1_alg».proof.Proof.Gen.KernelIdeal.Skeleton
import proofs.«418047_j44229573214958_1_alg».proof.Proof.Spec
import proofs.«418047_j44229573214958_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

/-! ## Words and numbers -/

/-- A graph number below 256, as a 32-bit word read signed, is itself. -/
theorem toInt_ofNat_graph (g : Fin 256) : (BitVec.ofNat 32 g.val).toInt = (g.val : Int) := by
  have hg := g.isLt
  rw [BitVec.toInt_eq_toNat_cond, BitVec.toNat_ofNat, Nat.mod_eq_of_lt (by omega)]
  split <;> omega

/-- A word is the graph number's word iff, read signed, it is the graph number. -/
theorem word_eq_graph_iff (w : BitVec 32) (g : Fin 256) : (w = BitVec.ofNat 32 g.val) ↔ w.toInt = (g.val : Int) := by
  constructor
  · intro h; rw [h, toInt_ofNat_graph]
  · intro h; exact BitVec.eq_of_toInt_eq (h.trans (toInt_ofNat_graph g).symm)

/-! ## A product contracting the first axis of both operands -/

/-- Entry (p, q) of a product into zero whose dimension numbers contract the FIRST axis of both operands — the left
    read at (k, p), the right at (k, q) — is `∑ₖ l[k, p] · r[k, q]`. -/
theorem matmul_zero_at_first {A K B : Nat} {φ₁ φ₂ : FTy}
    (D : DotDims (⟨2, ![K, A]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (q ⟨0, by omega⟩).val)
    (hl1 : ∀ (i : (⟨2, ![A, B]⟩ : Shape).Idx) (q : D.contr.Idx), (D.lhsIdx i q 1).val = (i 0).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![K, A]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 k p) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p := funext fun a => Fin.ext (by
    match a with
    | ⟨0, _⟩ => exact (hl0 _ _).trans hk
    | ⟨1, _⟩ => exact hl1 _ _)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The pooling product: a `[2000, 256]` membership matrix against a `[2000, 128]` block of rows, into zero. -/
theorem mm_pool (l : FVec Ideal S2000x256 .f32) (r : FVec Ideal S2000x128 .f32) (g : Fin 256) (d : Fin 128) :
    FloatOps.matmul dot_S2000x256_S2000x128_S256x128_0_0_1_1_n_n none l r (constant (F := Ideal) S256x128 .f32 0x00000000#32) (ix2 g d)
      = ∑ k : Fin 2000, l (ix2 k g) * r (ix2 k d) :=
  matmul_zero_at_first dot_S2000x256_S2000x128_S256x128_0_0_1_1_n_n rfl rfl (fun _ _ => rfl) (fun _ _ => rfl) (fun _ _ => rfl) (fun _ _ => rfl) none l r g d

/-! ## The membership matrix -/

/-- Entry (r, g) of the membership matrix of a block of graph ids: one where row `r`'s id is the word of `g`, zero elsewhere. -/
theorem member_at (bblk : Vec Ideal S2000x1 .i32) (r : Fin 2000) (g : Fin 256) :
    k3_pay5 (F := Ideal) bblk (ix2 r g) = if bblk (ix2 r 0) = BitVec.ofNat 32 g.val then (1 : EReal) else 0 := by
  unfold k3_pay5
  simp only [shapeCast_self]
  rw [sitofp_apply, extui_apply]
  have hb : broadcastTo S2000x256 bblk broadcasts_S2000x1_S2000x256 (ix2 r g) = bblk (ix2 r 0) :=
    broadcastTo_apply bblk _ (ix2 r g) (ix2 r 0) fun ax => by
      match ax with
      | ⟨0, _⟩ => show r.val = if 2000 = 1 then 0 else r.val; simp
      | ⟨1, _⟩ => show (0 : Fin 1).val = if 1 = 1 then 0 else g.val; simp
  have hi : iota .tc S2000x256 32 [1] iota_S2000x256_d1_w32 (ix2 r g) = BitVec.ofNat 32 g.val :=
    iota_single_apply .tc S2000x256 32 1 _ (ix2 r g)
  show ((((IntOp.cmpi .eq (broadcastTo S2000x256 bblk broadcasts_S2000x1_S2000x256 (ix2 r g)) (iota .tc S2000x256 32 [1] iota_S2000x256_d1_w32 (ix2 r g))).setWidth 32).toInt : ℝ) : EReal) = (if bblk (ix2 r 0) = BitVec.ofNat 32 g.val then (1 : EReal) else 0)
  rw [hb, hi]
  by_cases h : (bblk (ix2 r 0) = BitVec.ofNat 32 g.val)
  · have hc : IntOp.cmpi .eq (bblk (ix2 r 0)) (BitVec.ofNat 32 g.val) = 1#1 := by simp [IntOp.cmpi, h]
    rw [if_pos h, hc, show (BitVec.setWidth 32 1#1).toInt = 1 from by decide]; simp
  · have hne : (bblk (ix2 r 0) == BitVec.ofNat 32 g.val) = false := beq_eq_false_iff_ne.mpr h
    have hc : IntOp.cmpi .eq (bblk (ix2 r 0)) (BitVec.ofNat 32 g.val) = 0#1 := by simp [IntOp.cmpi, hne]
    rw [if_neg h, hc, show (BitVec.setWidth 32 0#1).toInt = 0 from by decide]; simp

/-! ## The accumulators' reset and update at an entry -/

theorem zero_at2 (i : S256x128.Idx) : k3_pay2 (F := Ideal) i = 0 := by
  unfold k3_pay2
  simp only [shapeCast_self]
  show Ideal.ofBits .f32 0x00000000#32 = 0
  exact Ideal.ofBits_zero_f32

theorem zero_at3 (i : S256x128.Idx) : k3_pay3 (F := Ideal) i = 0 := by
  unfold k3_pay3
  simp only [shapeCast_self]
  show Ideal.ofBits .f32 0x00000000#32 = 0
  exact Ideal.ofBits_zero_f32

theorem zero_at4 (i : S256x128.Idx) : k3_pay4 (F := Ideal) i = 0 := by
  unfold k3_pay4
  simp only [shapeCast_self]
  show Ideal.ofBits .f32 0x00000000#32 = 0
  exact Ideal.ofBits_zero_f32

/-- The first accumulator's update at an entry: what it held plus the block's product. -/
theorem pay6_at (bblk : Vec Ideal S2000x1 .i32) (acc : Vec Ideal S256x128 .f32) (hblk : Vec Ideal S2000x128 .f32) (g : Fin 256) (d : Fin 128) :
    k3_pay6 (F := Ideal) bblk acc hblk (ix2 g d) = acc (ix2 g d) + ∑ r : Fin 2000, k3_pay5 (F := Ideal) bblk (ix2 r g) * hblk (ix2 r d) := by
  unfold k3_pay6
  simp only [shapeCast_self, matmul]
  rw [addf_apply, mm_pool]

/-- The second accumulator's update at an entry: what it held plus the block's product. -/
theorem pay7_at (bblk : Vec Ideal S2000x1 .i32) (acc : Vec Ideal S256x128 .f32) (hblk : Vec Ideal S2000x128 .f32) (g : Fin 256) (d : Fin 128) :
    k3_pay7 (F := Ideal) bblk acc hblk (ix2 g d) = acc (ix2 g d) + ∑ r : Fin 2000, k3_pay5 (F := Ideal) bblk (ix2 r g) * hblk (ix2 r d) := by
  unfold k3_pay7
  simp only [shapeCast_self, matmul]
  rw [addf_apply, mm_pool]

/-- The third accumulator's update at an entry: what it held plus the block's product. -/
theorem pay8_at (bblk : Vec Ideal S2000x1 .i32) (acc : Vec Ideal S256x128 .f32) (hblk : Vec Ideal S2000x128 .f32) (g : Fin 256) (d : Fin 128) :
    k3_pay8 (F := Ideal) bblk acc hblk (ix2 g d) = acc (ix2 g d) + ∑ r : Fin 2000, k3_pay5 (F := Ideal) bblk (ix2 r g) * hblk (ix2 r d) := by
  unfold k3_pay8
  simp only [shapeCast_self, matmul]
  rw [addf_apply, mm_pool]

/-- The third accumulator is stored through a shape cast that changes nothing. -/
theorem pay1_eq (v : FVec Ideal S256x128 .f32) : k3_pay1 (F := Ideal) v = v := by
  unfold k3_pay1
  exact shapeCast_self _ _

/-! ## One block's contribution -/

/-- Row `n`'s contribution to entry (g, d) of the per-graph sum: its feature `d` if its graph, read signed, is `g`. -/
def term (h : S50000x128.Idx → EReal) (b : IVec S50000x1 32) (g : Fin 256) (d : Fin 128) (n : Fin 50000) : EReal :=
  if (b (ix2 n 0)).toInt = (g.val : Int) then h (ix2 n d) else 0

theorem row_lt (t : Fin 25) (r : Fin 2000) : 2000 * t.val + r.val < 50000 := by
  have := t.isLt; have := r.isLt; omega

/-- A block's product at entry (g, d) adds the contributions of the block's rows. -/
theorem block_sum (h : S50000x128.Idx → EReal) (b : IVec S50000x1 32) (hblk : Vec Ideal S2000x128 .f32) (bblk : Vec Ideal S2000x1 .i32) (t : Fin 25)
    (hh : ∀ (r : Fin 2000) (d : Fin 128), hblk (ix2 r d) = h (ix2 ⟨2000 * t.val + r.val, row_lt t r⟩ d))
    (hbk : ∀ r : Fin 2000, bblk (ix2 r 0) = b (ix2 ⟨2000 * t.val + r.val, row_lt t r⟩ 0)) (g : Fin 256) (d : Fin 128) :
    (∑ r : Fin 2000, k3_pay5 (F := Ideal) bblk (ix2 r g) * hblk (ix2 r d))
      = ∑ r : Fin 2000, term h b g d ⟨2000 * t.val + r.val, row_lt t r⟩ := by
  refine Finset.sum_congr rfl fun r _ => ?_
  rw [member_at, hh, hbk]
  unfold term
  by_cases hw : (b (ix2 ⟨2000 * t.val + r.val, row_lt t r⟩ 0) = BitVec.ofNat 32 g.val)
  · rw [if_pos hw, if_pos ((word_eq_graph_iff _ g).mp hw), one_mul]
  · rw [if_neg hw, if_neg (fun e => hw ((word_eq_graph_iff _ g).mpr e)), zero_mul]

/-! ## The fold over the 25 blocks -/

/-- A sequence that starts at the first of 25 terms and adds the next at each step ends at their sum. -/
theorem fold25 (S : Fin 25 → EReal) (a : ℕ → EReal) (h0 : a 0 = S ⟨0, by omega⟩)
    (hs : ∀ n (hn : n + 1 < 25), a (n + 1) = a n + S ⟨n + 1, hn⟩) : a 24 = ∑ t : Fin 25, S t := by
  have key : ∀ n (hn : n < 25), a n = ∑ t : Fin (n + 1), S ⟨t.val, by have := t.isLt; omega⟩ := by
    intro n
    induction n with
    | zero => intro hn; rw [h0, Fin.sum_univ_one]; rfl
    | succ n ih =>
      intro hn
      rw [hs n hn, ih (by omega)]
      exact (Fin.sum_univ_castSucc (fun t : Fin (n + 1 + 1) => S ⟨t.val, by have := t.isLt; omega⟩)).symm
  exact key 24 (by omega)

/-- The 50000 rows, block by block. -/
theorem sum_blocks (f : Fin 50000 → EReal) :
    (∑ t : Fin 25, ∑ r : Fin 2000, f ⟨2000 * t.val + r.val, row_lt t r⟩) = ∑ n : Fin 50000, f n := by
  have e := Equiv.sum_comp (finProdFinEquiv (m := 25) (n := 2000)) f
  rw [← e, Fintype.sum_prod_type]
  refine Finset.sum_congr rfl fun t _ => Finset.sum_congr rfl fun r _ => ?_
  congr 1
  apply Fin.ext
  show 2000 * t.val + r.val = r.val + 2000 * t.val
  omega

/-- An accumulator that starts at zero plus the first block's product and adds each later block's product ends at the
    per-graph sum. -/
theorem pool_of_steps (h : S50000x128.Idx → EReal) (b : IVec S50000x1 32)
    (hb : Fin 25 → Vec Ideal S2000x128 .f32) (bb : Fin 25 → Vec Ideal S2000x1 .i32)
    (hhb : ∀ (t : Fin 25) (r : Fin 2000) (d : Fin 128), hb t (ix2 r d) = h (ix2 ⟨2000 * t.val + r.val, row_lt t r⟩ d))
    (hbb : ∀ (t : Fin 25) (r : Fin 2000), bb t (ix2 r 0) = b (ix2 ⟨2000 * t.val + r.val, row_lt t r⟩ 0))
    (A : ℕ → Vec Ideal S256x128 .f32)
    (h0 : ∀ (g : Fin 256) (d : Fin 128), A 0 (ix2 g d) = 0 + ∑ r : Fin 2000, k3_pay5 (F := Ideal) (bb 0) (ix2 r g) * hb 0 (ix2 r d))
    (hs : ∀ n (hn : n + 1 < 25) (g : Fin 256) (d : Fin 128),
      A (n + 1) (ix2 g d) = A n (ix2 g d) + ∑ r : Fin 2000, k3_pay5 (F := Ideal) (bb ⟨n + 1, hn⟩) (ix2 r g) * hb ⟨n + 1, hn⟩ (ix2 r d)) :
    A 24 = Cert.Spec.pool h (Cert.Spec.col50000 b) := by
  funext i
  obtain ⟨g, d, rfl⟩ : ∃ g d, i = ix2 g d := ⟨i 0, i 1, eq_ix2 i⟩
  have hfold := fold25 (fun t => ∑ r : Fin 2000, term h b g d ⟨2000 * t.val + r.val, row_lt t r⟩) (fun n => A n (ix2 g d))
    (by
      show A 0 (ix2 g d) = _
      rw [h0 g d, zero_add]
      exact block_sum h b (hb 0) (bb 0) 0 (hhb 0) (hbb 0) g d)
    (fun n hn => by
      show A (n + 1) (ix2 g d) = A n (ix2 g d) + _
      rw [hs n hn g d]
      exact congrArg (A n (ix2 g d) + ·) (block_sum h b (hb ⟨n + 1, hn⟩) (bb ⟨n + 1, hn⟩) ⟨n + 1, hn⟩ (hhb ⟨n + 1, hn⟩) (hbb ⟨n + 1, hn⟩) g d))
  refine hfold.trans ?_
  rw [sum_blocks (term h b g d)]
  rfl

/-! ## The three accumulators -/

/-- The first accumulator after the 25 blocks is the per-graph sum of the rows. -/
theorem pool_fold6 (h : S50000x128.Idx → EReal) (b : IVec S50000x1 32)
    (hb : Fin 25 → Vec Ideal S2000x128 .f32) (bb : Fin 25 → Vec Ideal S2000x1 .i32)
    (hhb : ∀ (t : Fin 25) (r : Fin 2000) (d : Fin 128), hb t (ix2 r d) = h (ix2 ⟨2000 * t.val + r.val, by omega⟩ d))
    (hbb : ∀ (t : Fin 25) (r : Fin 2000), bb t (ix2 r 0) = b (ix2 ⟨2000 * t.val + r.val, by omega⟩ 0))
    (A : ℕ → Vec Ideal S256x128 .f32)
    (hA0 : A 0 = k3_pay6 (F := Ideal) (bb 0) (k3_pay2 (F := Ideal)) (hb 0))
    (hAs : ∀ n (hn : n + 1 < 25), A (n + 1) = k3_pay6 (F := Ideal) (bb ⟨n + 1, hn⟩) (A n) (hb ⟨n + 1, hn⟩)) :
    A 24 = Cert.Spec.pool h (Cert.Spec.col50000 b) :=
  pool_of_steps h b hb bb hhb hbb A
    (fun g d => by rw [hA0, pay6_at, zero_at2])
    (fun n hn g d => by rw [hAs n hn, pay6_at])

/-- The second accumulator after the 25 blocks is the per-graph sum of the rows. -/
theorem pool_fold7 (h : S50000x128.Idx → EReal) (b : IVec S50000x1 32)
    (hb : Fin 25 → Vec Ideal S2000x128 .f32) (bb : Fin 25 → Vec Ideal S2000x1 .i32)
    (hhb : ∀ (t : Fin 25) (r : Fin 2000) (d : Fin 128), hb t (ix2 r d) = h (ix2 ⟨2000 * t.val + r.val, by omega⟩ d))
    (hbb : ∀ (t : Fin 25) (r : Fin 2000), bb t (ix2 r 0) = b (ix2 ⟨2000 * t.val + r.val, by omega⟩ 0))
    (A : ℕ → Vec Ideal S256x128 .f32)
    (hA0 : A 0 = k3_pay7 (F := Ideal) (bb 0) (k3_pay3 (F := Ideal)) (hb 0))
    (hAs : ∀ n (hn : n + 1 < 25), A (n + 1) = k3_pay7 (F := Ideal) (bb ⟨n + 1, hn⟩) (A n) (hb ⟨n + 1, hn⟩)) :
    A 24 = Cert.Spec.pool h (Cert.Spec.col50000 b) :=
  pool_of_steps h b hb bb hhb hbb A
    (fun g d => by rw [hA0, pay7_at, zero_at3])
    (fun n hn g d => by rw [hAs n hn, pay7_at])

/-- The third accumulator after the 25 blocks is the per-graph sum of the rows. -/
theorem pool_fold8 (h : S50000x128.Idx → EReal) (b : IVec S50000x1 32)
    (hb : Fin 25 → Vec Ideal S2000x128 .f32) (bb : Fin 25 → Vec Ideal S2000x1 .i32)
    (hhb : ∀ (t : Fin 25) (r : Fin 2000) (d : Fin 128), hb t (ix2 r d) = h (ix2 ⟨2000 * t.val + r.val, by omega⟩ d))
    (hbb : ∀ (t : Fin 25) (r : Fin 2000), bb t (ix2 r 0) = b (ix2 ⟨2000 * t.val + r.val, by omega⟩ 0))
    (A : ℕ → Vec Ideal S256x128 .f32)
    (hA0 : A 0 = k3_pay1 (F := Ideal) (k3_pay8 (F := Ideal) (bb 0) (k3_pay4 (F := Ideal)) (hb 0)))
    (hAs : ∀ n (hn : n + 1 < 25), A (n + 1) = k3_pay1 (F := Ideal) (k3_pay8 (F := Ideal) (bb ⟨n + 1, hn⟩) (A n) (hb ⟨n + 1, hn⟩))) :
    A 24 = Cert.Spec.pool h (Cert.Spec.col50000 b) :=
  pool_of_steps h b hb bb hhb hbb A
    (fun g d => by rw [hA0, pay1_eq, pay8_at, zero_at4])
    (fun n hn g d => by rw [hAs n hn, pay1_eq, pay8_at])

end Cert.KernelIdeal.HandValue

end
-- ==== Proof.KI.Val3.lean ====
/- The VALUE half of region 3 (the pooling kernel) at the ideal values: each output array of the region, after the run,
   holds the per-graph sum of the rows of its input array. The output's one write-back is at the last point, of the whole
   array, and writes the accumulator's contents after that point (`final3_acc_j`); the accumulator's contents follow the
   recursion "reset, then add each block's contribution", whose blocks are the consecutive 2000-row blocks of the input
   arrays (`rd3_j`), so the mathematics of the fold over variables (`pool_fold6/7/8`) applies. -/
import proofs.«418047_j44229573214958_1_alg».proof.Proof.KI.Reg3
import proofs.«418047_j44229573214958_1_alg».proof.Proof.KI.PoolMath
import proofs.«418047_j44229573214958_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Gen Hand
open Idealize.ShloMosaic Idealize.ShloMosaic.TcCoe Idealize.SL.Sem Idealize.ShloMosaic.ValueIdx
open Idealize.ShloMosaic.Pipeline (Dat)

/-! ## Where the windows' blocks sit -/

/-- The row-blocked input windows' block at point `t` is row-block `t`; the output windows' block is the whole array. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The last point of the grid, the one that writes the output windows back. -/
def t3_24 : Fin cfg3.N := ⟨24, by decide⟩

/-- At it each output window's block starts at the array's origin. -/
theorem hz3_4 : (fun a => win3_4.index t3_24 a * main_v56_0.ty.shape.size a) = fun _ => 0 := funext fun a => by
  obtain ⟨a00, a01, a10, a11, a20, a21, a30, a31, a40, a41, a50, a51, a60, a61⟩ := idx_facts3 t3_24
  fin_cases a
  · show win3_4.index t3_24 (0 : Fin 2) * _ = 0; rw [a40, Nat.zero_mul]
  · show win3_4.index t3_24 (1 : Fin 2) * _ = 0; rw [a41, Nat.zero_mul]
theorem hz3_5 : (fun a => win3_5.index t3_24 a * main_v56_1.ty.shape.size a) = fun _ => 0 := funext fun a => by
  obtain ⟨a00, a01, a10, a11, a20, a21, a30, a31, a40, a41, a50, a51, a60, a61⟩ := idx_facts3 t3_24
  fin_cases a
  · show win3_5.index t3_24 (0 : Fin 2) * _ = 0; rw [a50, Nat.zero_mul]
  · show win3_5.index t3_24 (1 : Fin 2) * _ = 0; rw [a51, Nat.zero_mul]
theorem hz3_6 : (fun a => win3_6.index t3_24 a * main_v56_2.ty.shape.size a) = fun _ => 0 := funext fun a => by
  obtain ⟨a00, a01, a10, a11, a20, a21, a30, a31, a40, a41, a50, a51, a60, a61⟩ := idx_facts3 t3_24
  fin_cases a
  · show win3_6.index t3_24 (0 : Fin 2) * _ = 0; rw [a60, Nat.zero_mul]
  · show win3_6.index t3_24 (1 : Fin 2) * _ = 0; rw [a61, Nat.zero_mul]

variable (V : (c : Dev nD) → (b : Ref sig .tc) → Buf (Elt Ideal) ((c : Thread nD τ).loc b))

/-- Window 0: row `p` of its block at point `t` is row `2000 t + p` of its array. -/
theorem rd3_0 (c : Dev nD) (t : Fin cfg3.N) (p : Fin 2000) (k : Fin 128) :
    iblk3 V c 0 t (ix2 p k) = V c main_v20 (ix2 ⟨2000 * t.val + p.val, by have := lt_of_lt_of_eq t.isLt N_3; omega⟩ k) := by
  obtain ⟨a00, a01, a10, a11, a20, a21, a30, a31, a40, a41, a50, a51, a60, a61⟩ := idx_facts3 t
  show V c main_v20 (((cfg3.win 0).blk t).view.emb (ix2 p k)) = V c main_v20 (ix2 _ k)
  refine congrArg _ (funext fun a => Fin.ext ?_)
  match a with
  | ⟨0, _⟩ => show win3_0.index t (0 : Fin 2) * 2000 + 1 * p.val = 2000 * t.val + p.val; omega
  | ⟨1, _⟩ => show win3_0.index t (1 : Fin 2) * 128 + 1 * k.val = k.val; omega

/-- Window 1: row `p` of its block at point `t` is row `2000 t + p` of its array. -/
theorem rd3_1 (c : Dev nD) (t : Fin cfg3.N) (p : Fin 2000) (k : Fin 128) :
    iblk3 V c 1 t (ix2 p k) = V c main_v37 (ix2 ⟨2000 * t.val + p.val, by have := lt_of_lt_of_eq t.isLt N_3; omega⟩ k) := by
  obtain ⟨a00, a01, a10, a11, a20, a21, a30, a31, a40, a41, a50, a51, a60, a61⟩ := idx_facts3 t
  show V c main_v37 (((cfg3.win 1).blk t).view.emb (ix2 p k)) = V c main_v37 (ix2 _ k)
  refine congrArg _ (funext fun a => Fin.ext ?_)
  match a with
  | ⟨0, _⟩ => show win3_1.index t (0 : Fin 2) * 2000 + 1 * p.val = 2000 * t.val + p.val; omega
  | ⟨1, _⟩ => show win3_1.index t (1 : Fin 2) * 128 + 1 * k.val = k.val; omega

/-- Window 2: row `p` of its block at point `t` is row `2000 t + p` of its array. -/
theorem rd3_2 (c : Dev nD) (t : Fin cfg3.N) (p : Fin 2000) (k : Fin 128) :
    iblk3 V c 2 t (ix2 p k) = V c main_v54 (ix2 ⟨2000 * t.val + p.val, by have := lt_of_lt_of_eq t.isLt N_3; omega⟩ k) := by
  obtain ⟨a00, a01, a10, a11, a20, a21, a30, a31, a40, a41, a50, a51, a60, a61⟩ := idx_facts3 t
  show V c main_v54 (((cfg3.win 2).blk t).view.emb (ix2 p k)) = V c main_v54 (ix2 _ k)
  refine congrArg _ (funext fun a => Fin.ext ?_)
  match a with
  | ⟨0, _⟩ => show win3_2.index t (0 : Fin 2) * 2000 + 1 * p.val = 2000 * t.val + p.val; omega
  | ⟨1, _⟩ => show win3_2.index t (1 : Fin 2) * 128 + 1 * k.val = k.val; omega

/-- Window 3 (the graph ids): row `p` of its block at point `t` is row `2000 t + p` of its array. -/
theorem rd3_3 (c : Dev nD) (t : Fin cfg3.N) (p : Fin 2000) :
    iblk3 V c 3 t (ix2 p 0) = V c main_v55 (ix2 ⟨2000 * t.val + p.val, by have := lt_of_lt_of_eq t.isLt N_3; omega⟩ 0) := by
  obtain ⟨a00, a01, a10, a11, a20, a21, a30, a31, a40, a41, a50, a51, a60, a61⟩ := idx_facts3 t
  show V c main_v55 (((cfg3.win 3).blk t).view.emb (ix2 p 0)) = V c main_v55 (ix2 _ 0)
  refine congrArg _ (funext fun a => Fin.ext ?_)
  match a with
  | ⟨0, _⟩ => show win3_3.index t (0 : Fin 2) * 2000 + 1 * p.val = 2000 * t.val + p.val; omega
  | ⟨1, _⟩ => show win3_3.index t (1 : Fin 2) * 1 + 1 * 0 = 0; omega

/-! ## The accumulators after the last point, the write-back, the arrays after the run -/

/-- Accumulator `j`'s contents after the last point, as contents of output array `j` (whose one block is the array). -/
abbrev res3_0 (c : Dev nD) : Buf (Elt Ideal) ((c : Thread nD τ).loc main_v56_0) := acc3_0 V c 24
abbrev res3_1 (c : Dev nD) : Buf (Elt Ideal) ((c : Thread nD τ).loc main_v56_1) := acc3_1 V c 24
abbrev res3_2 (c : Dev nD) : Buf (Elt Ideal) ((c : Thread nD τ).loc main_v56_2) := acc3_2 V c 24

/-- Accumulator 0 after the last point is the per-graph sum of the rows of window 0's array. -/
theorem acc3_0_last (c : Dev nD) :
    acc3_0 V c 24 = Cert.Spec.pool (V c main_v20) (Cert.Spec.col50000 (V c main_v55)) :=
  pool_fold6 (V c main_v20) (V c main_v55) (fun t => iblk3 V c 0 (t.cast N_3.symm)) (fun t => iblk3 V c 3 (t.cast N_3.symm))
    (fun t r d => rd3_0 V c (t.cast N_3.symm) r d) (fun t r => rd3_3 V c (t.cast N_3.symm) r) (acc3_0 V c)
    (acc3_0_first V c ((0 : Fin 25).cast N_3.symm) rfl)
    (fun n hn => acc3_0_step V c ((⟨n + 1, hn⟩ : Fin 25).cast N_3.symm) (Nat.succ_ne_zero n))

/-- The one write-back of output window 4, at the last point, writes accumulator 0's contents after that point: the window's
    block there is the whole array. -/
theorem flushed3_4_eq (c : Dev nD) (t : Fin cfg3.N) (hf : (cfg3.win 4).flush t = true) :
    (dat3 V c).flushed 4 t = ((cfg3.win 4).blk t).view.read (Elt Ideal) (res3_0 V c) := by
  have h24 : t.val = 24 := by have := (flush3_4 t).mp hf; have := lt_of_lt_of_eq t.isLt N_3; omega
  obtain rfl : t = t3_24 := Fin.ext h24
  show (cfg3.win 4).cut (grid3.coords t3_24) ((dat3 V c).after 4 t3_24) = _
  rw [after3_4]
  exact (Memref.read_access_unit_zero (Elt Ideal) main_v56_0 (hz3_4) (fun a => by rw [congrFun hz3_4 a]; simp) (res3_0 V c)).symm

/-- That block covers the array. -/
theorem cover3_4 (i : S256x128.Idx) : ∃ t : Fin cfg3.N, (cfg3.win 4).flush t = true ∧ i ∈ ((cfg3.win 4).blk t).view.set :=
  ⟨t3_24, (flush3_4 t3_24).mpr rfl, by
    show i ∈ ((View.whole main_v56_0).slice (win3_4.rect t3_24)).set
    rw [View.set_slice_whole]
    exact View.mem_set_unit_zero hz3_4 _ i⟩

/-- So the output array ends holding the per-graph sum. -/
theorem final3_0 (V : (c : Dev nD) → (b : Ref sig .tc) → Buf (Elt Ideal) ((c : Thread nD τ).loc b)) (c : Dev nD) :
    ((dat3 (F := Ideal) V c).arrAt 4 cfg3.N : S256x128.Idx → EReal) = Cert.Spec.pool (V c main_v20) (Cert.Spec.col50000 (V c main_v55)) :=
  ((dat3 V c).arrAt_eq_of_cover 4 (res3_0 V c) (flushed3_4_eq V c) cover3_4).trans (acc3_0_last V c)

/-- Accumulator 1 after the last point is the per-graph sum of the rows of window 1's array. -/
theorem acc3_1_last (c : Dev nD) :
    acc3_1 V c 24 = Cert.Spec.pool (V c main_v37) (Cert.Spec.col50000 (V c main_v55)) :=
  pool_fold7 (V c main_v37) (V c main_v55) (fun t => iblk3 V c 1 (t.cast N_3.symm)) (fun t => iblk3 V c 3 (t.cast N_3.symm))
    (fun t r d => rd3_1 V c (t.cast N_3.symm) r d) (fun t r => rd3_3 V c (t.cast N_3.symm) r) (acc3_1 V c)
    (acc3_1_first V c ((0 : Fin 25).cast N_3.symm) rfl)
    (fun n hn => acc3_1_step V c ((⟨n + 1, hn⟩ : Fin 25).cast N_3.symm) (Nat.succ_ne_zero n))

/-- The one write-back of output window 5, at the last point, writes accumulator 1's contents after that point: the window's
    block there is the whole array. -/
theorem flushed3_5_eq (c : Dev nD) (t : Fin cfg3.N) (hf : (cfg3.win 5).flush t = true) :
    (dat3 V c).flushed 5 t = ((cfg3.win 5).blk t).view.read (Elt Ideal) (res3_1 V c) := by
  have h24 : t.val = 24 := by have := (flush3_5 t).mp hf; have := lt_of_lt_of_eq t.isLt N_3; omega
  obtain rfl : t = t3_24 := Fin.ext h24
  show (cfg3.win 5).cut (grid3.coords t3_24) ((dat3 V c).after 5 t3_24) = _
  rw [after3_5]
  exact (Memref.read_access_unit_zero (Elt Ideal) main_v56_1 (hz3_5) (fun a => by rw [congrFun hz3_5 a]; simp) (res3_1 V c)).symm

/-- That block covers the array. -/
theorem cover3_5 (i : S256x128.Idx) : ∃ t : Fin cfg3.N, (cfg3.win 5).flush t = true ∧ i ∈ ((cfg3.win 5).blk t).view.set :=
  ⟨t3_24, (flush3_5 t3_24).mpr rfl, by
    show i ∈ ((View.whole main_v56_1).slice (win3_5.rect t3_24)).set
    rw [View.set_slice_whole]
    exact View.mem_set_unit_zero hz3_5 _ i⟩

/-- So the output array ends holding the per-graph sum. -/
theorem final3_1 (V : (c : Dev nD) → (b : Ref sig .tc) → Buf (Elt Ideal) ((c : Thread nD τ).loc b)) (c : Dev nD) :
    ((dat3 (F := Ideal) V c).arrAt 5 cfg3.N : S256x128.Idx → EReal) = Cert.Spec.pool (V c main_v37) (Cert.Spec.col50000 (V c main_v55)) :=
  ((dat3 V c).arrAt_eq_of_cover 5 (res3_1 V c) (flushed3_5_eq V c) cover3_5).trans (acc3_1_last V c)

/-- Accumulator 2 after the last point is the per-graph sum of the rows of window 2's array. -/
theorem acc3_2_last (c : Dev nD) :
    acc3_2 V c 24 = Cert.Spec.pool (V c main_v54) (Cert.Spec.col50000 (V c main_v55)) :=
  pool_fold8 (V c main_v54) (V c main_v55) (fun t => iblk3 V c 2 (t.cast N_3.symm)) (fun t => iblk3 V c 3 (t.cast N_3.symm))
    (fun t r d => rd3_2 V c (t.cast N_3.symm) r d) (fun t r => rd3_3 V c (t.cast N_3.symm) r) (acc3_2 V c)
    (acc3_2_first V c ((0 : Fin 25).cast N_3.symm) rfl)
    (fun n hn => acc3_2_step V c ((⟨n + 1, hn⟩ : Fin 25).cast N_3.symm) (Nat.succ_ne_zero n))

/-- The one write-back of output window 6, at the last point, writes accumulator 2's contents after that point: the window's
    block there is the whole array. -/
theorem flushed3_6_eq (c : Dev nD) (t : Fin cfg3.N) (hf : (cfg3.win 6).flush t = true) :
    (dat3 V c).flushed 6 t = ((cfg3.win 6).blk t).view.read (Elt Ideal) (res3_2 V c) := by
  have h24 : t.val = 24 := by have := (flush3_6 t).mp hf; have := lt_of_lt_of_eq t.isLt N_3; omega
  obtain rfl : t = t3_24 := Fin.ext h24
  show (cfg3.win 6).cut (grid3.coords t3_24) ((dat3 V c).after 6 t3_24) = _
  rw [after3_6]
  exact (Memref.read_access_unit_zero (Elt Ideal) main_v56_2 (hz3_6) (fun a => by rw [congrFun hz3_6 a]; simp) (res3_2 V c)).symm

/-- That block covers the array. -/
theorem cover3_6 (i : S256x128.Idx) : ∃ t : Fin cfg3.N, (cfg3.win 6).flush t = true ∧ i ∈ ((cfg3.win 6).blk t).view.set :=
  ⟨t3_24, (flush3_6 t3_24).mpr rfl, by
    show i ∈ ((View.whole main_v56_2).slice (win3_6.rect t3_24)).set
    rw [View.set_slice_whole]
    exact View.mem_set_unit_zero hz3_6 _ i⟩

/-- So the output array ends holding the per-graph sum. -/
theorem final3_2 (V : (c : Dev nD) → (b : Ref sig .tc) → Buf (Elt Ideal) ((c : Thread nD τ).loc b)) (c : Dev nD) :
    ((dat3 (F := Ideal) V c).arrAt 6 cfg3.N : S256x128.Idx → EReal) = Cert.Spec.pool (V c main_v54) (Cert.Spec.col50000 (V c main_v55)) :=
  ((dat3 V c).arrAt_eq_of_cover 6 (res3_2 V c) (flushed3_6_eq V c) cover3_6).trans (acc3_2_last V c)

end Cert.KernelIdeal.HandValue

end
-- ==== Proof.KI.Val4.lean ====
/- The value of REGION 4 (the head) at the ideal values: the array its one output window ends holding is the head of the
   specification, `relu ([q₁ | q₂ | q₃] · L₁ + c₁) · L₂ + c₂`, of the seven arrays the region reads as it finds them.
   The kernel multiplies the three readouts by the three row blocks of `L₁` and adds the products; the specification sums
   over all 384 rows at once: the sum over 384 splits into three sums over 128. -/
import proofs.«418047_j44229573214958_1_alg».proof.Proof.KI.Reg4
import proofs.«418047_j44229573214958_1_alg».proof.Proof.Spec
import proofs.«418047_j44229573214958_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- A product of a `[256, 128]` readout and a `[128, 384]` row block of the first weight, into zero, at an entry. -/
theorem mm_first (l : FVec Ideal S256x128 .f32) (r : FVec Ideal S128x384 .f32) (p : Fin 256) (k : Fin 384) :
    FloatOps.matmul dot_S256x128_S128x384_S256x384_1_0_0_1_n_n none l r (constant (F := Ideal) S256x384 .f32 0x00000000#32) (ix2 p k)
      = ∑ j : Fin 128, l (ix2 p j) * r (ix2 j k) :=
  MatmulAt.matmul_zero_at dot_S256x128_S128x384_S256x384_1_0_0_1_n_n rfl rfl (fun _ _ => rfl) (fun _ _ => rfl) (fun _ _ => rfl) (fun _ _ => rfl) none l r p k

/-- The product of the `[256, 384]` hidden layer and the `[384, 3]` second weight, into zero, at an entry. -/
theorem mm_second (l : FVec Ideal S256x384 .f32) (r : FVec Ideal S384x3 .f32) (p : Fin 256) (q : Fin 3) :
    FloatOps.matmul dot_S256x384_S384x3_S256x3_1_0_0_1_n_n none l r (constant (F := Ideal) S256x3 .f32 0x00000000#32) (ix2 p q)
      = ∑ k : Fin 384, l (ix2 p k) * r (ix2 k q) :=
  MatmulAt.matmul_zero_at dot_S256x384_S384x3_S256x3_1_0_0_1_n_n rfl rfl (fun _ _ => rfl) (fun _ _ => rfl) (fun _ _ => rfl) (fun _ _ => rfl) none l r p q

/-- A sum over 384 is the sum of its three thirds. -/
theorem sum384 (f : Fin 384 → EReal) :
    ∑ j : Fin 384, f j = ((∑ j : Fin 128, f ⟨j.val, by omega⟩) + (∑ j : Fin 128, f ⟨128 + j.val, by omega⟩)) + (∑ j : Fin 128, f ⟨256 + j.val, by omega⟩) := by
  have h := Fin.sum_univ_add (M := EReal) (a := 128 + 128) (b := 128) f
  have h' := Fin.sum_univ_add (M := EReal) (a := 128) (b := 128) (fun i => f (Fin.castAdd 128 i))
  exact h.trans (by rw [h']; rfl)

/-- The payload at entry `(p, q)`: the three products with the row blocks of the first weight, added, plus the first
    bias, clamped at zero, times the second weight, plus the second bias. -/
theorem pay4_at (x3 : Vec Ideal S384x384 .f32) (x0 x1 x2 : Vec Ideal S256x128 .f32) (x4 : Vec Ideal S1x384 .f32) (x5 : Vec Ideal S384x3 .f32) (x6 : Vec Ideal S1x3 .f32) (p : Fin 256) (q : Fin 3) :
    k4_pay1 x3 x0 x1 x2 x4 x5 x6 (ix2 p q)
      = (∑ k : Fin 384, max ((((∑ j : Fin 128, x0 (ix2 p j) * x3 (ix2 ⟨j.val, by omega⟩ k)) + (∑ j : Fin 128, x1 (ix2 p j) * x3 (ix2 ⟨128 + j.val, by omega⟩ k))) + (∑ j : Fin 128, x2 (ix2 p j) * x3 (ix2 ⟨256 + j.val, by omega⟩ k))) + x4 (ix2 0 k)) 0 * x5 (ix2 k q)) + x6 (ix2 0 q) := by
  unfold k4_pay1
  simp only [shapeCast_self, matmul]
  rw [addf_apply, mm_second, broadcastTo_1b_ab_apply]
  congr 1
  refine Finset.sum_congr rfl fun k _ => ?_
  rw [maximumf_apply, addf_apply, addf_apply, addf_apply, mm_first, mm_first, mm_first, broadcastTo_1b_ab_apply, broadcast_apply]
  have e0 : ∀ j : Fin 128, extractStridedSlice S128x384 ![0, 0] x3 slices_S384x384_o0_0_S128x384 (ix2 j k) = x3 (ix2 ⟨j.val, by omega⟩ k) :=
    fun j => slice2_axis0_apply 0 x3 _ j k ⟨j.val, by omega⟩ (by simp)
  have e1 : ∀ j : Fin 128, extractStridedSlice S128x384 ![128, 0] x3 slices_S384x384_o128_0_S128x384 (ix2 j k) = x3 (ix2 ⟨128 + j.val, by omega⟩ k) :=
    fun j => slice2_axis0_apply 128 x3 _ j k ⟨128 + j.val, by omega⟩ rfl
  have e2 : ∀ j : Fin 128, extractStridedSlice S128x384 ![256, 0] x3 slices_S384x384_o256_0_S128x384 (ix2 j k) = x3 (ix2 ⟨256 + j.val, by omega⟩ k) :=
    fun j => slice2_axis0_apply 256 x3 _ j k ⟨256 + j.val, by omega⟩ rfl
  simp only [e0, e1, e2]
  show max _ (Ideal.ofBits .f32 0x00000000#32) * _ = _
  rw [Ideal.ofBits_zero_f32]

/-! ## The three readouts side by side, third by third -/

theorem cat3_lo (q1 q2 q3 : (⟨2, ![256, 128]⟩ : Shape).Idx → EReal) (r : Fin 256) (j : Fin 128) :
    Cert.Spec.cat3 q1 q2 q3 r ⟨j.val, by omega⟩ = q1 (ix2 r j) := by
  unfold Cert.Spec.cat3
  rw [dif_pos (show (⟨j.val, by omega⟩ : Fin 384).val < 128 from j.isLt)]

theorem cat3_mid (q1 q2 q3 : (⟨2, ![256, 128]⟩ : Shape).Idx → EReal) (r : Fin 256) (j : Fin 128) :
    Cert.Spec.cat3 q1 q2 q3 r ⟨128 + j.val, by omega⟩ = q2 (ix2 r j) := by
  unfold Cert.Spec.cat3
  rw [dif_neg (show ¬ (⟨128 + j.val, by omega⟩ : Fin 384).val < 128 from by show ¬ (128 + j.val < 128); omega),
    dif_pos (show (⟨128 + j.val, by omega⟩ : Fin 384).val < 256 from by show 128 + j.val < 256; omega)]
  congr 2
  apply Fin.ext
  show 128 + j.val - 128 = j.val
  omega

theorem cat3_hi (q1 q2 q3 : (⟨2, ![256, 128]⟩ : Shape).Idx → EReal) (r : Fin 256) (j : Fin 128) :
    Cert.Spec.cat3 q1 q2 q3 r ⟨256 + j.val, by omega⟩ = q3 (ix2 r j) := by
  unfold Cert.Spec.cat3
  rw [dif_neg (show ¬ (⟨256 + j.val, by omega⟩ : Fin 384).val < 128 from by show ¬ (256 + j.val < 128); omega),
    dif_neg (show ¬ (⟨256 + j.val, by omega⟩ : Fin 384).val < 256 from by show ¬ (256 + j.val < 256); omega)]
  congr 2
  apply Fin.ext
  show 256 + j.val - 256 = j.val
  omega

/-- The payload is the head of the specification. -/
theorem pay4_eq_head (x3 : Vec Ideal S384x384 .f32) (x0 x1 x2 : Vec Ideal S256x128 .f32) (x4 : Vec Ideal S1x384 .f32) (x5 : Vec Ideal S384x3 .f32) (x6 : Vec Ideal S1x3 .f32) :
    k4_pay1 x3 x0 x1 x2 x4 x5 x6 = Cert.Spec.head x0 x1 x2 x3 (Cert.Spec.row384 x4) x5 (Cert.Spec.row3 x6) := by
  funext i
  obtain ⟨p, q, rfl⟩ : ∃ p q, i = ix2 p q := ⟨i 0, i 1, eq_ix2 i⟩
  rw [pay4_at]
  show _ = (∑ k : Fin 384, max ((∑ j : Fin 384, Cert.Spec.cat3 x0 x1 x2 p j * x3 (ix2 j k)) + x4 (ix2 0 k)) 0 * x5 (ix2 k q)) + x6 (ix2 0 q)
  congr 1
  refine Finset.sum_congr rfl fun k _ => ?_
  rw [sum384 (fun j => Cert.Spec.cat3 x0 x1 x2 p j * x3 (ix2 j k))]
  simp only [cat3_lo, cat3_mid, cat3_hi]

/-- What the body leaves in the output window's buffer, from whole input blocks. -/
theorem out4_7_eq_head (x0 x1 x2 : Vec Ideal S256x128 .f32) (x3 : Vec Ideal S384x384 .f32) (x4 : Vec Ideal S1x384 .f32) (x5 : Vec Ideal S384x3 .f32) (x6 : Vec Ideal S1x3 .f32) :
    out4_7 x0 x1 x2 x3 x4 x5 x6 = Cert.Spec.head x0 x1 x2 x3 (Cert.Spec.row384 x4) x5 (Cert.Spec.row3 x6) := by
  have hz : (![0, 0] : Fin 2 → Nat) = fun _ => 0 := funext fun a => by fin_cases a <;> rfl
  unfold out4_7
  rw [View.canon_unit_zero hz]
  simp only [View.ld_unit_zero (S := S256x128) hz, View.ld_unit_zero (S := S384x384) hz, View.ld_unit_zero (S := S1x384) hz,
    View.ld_unit_zero (S := S384x3) hz, View.ld_unit_zero (S := S1x3) hz]
  exact pay4_eq_head x3 x0 x1 x2 x4 x5 x6

/-! ## From blocks to the array: one point, every window's block its whole array -/

/-- Window 0's one block starts at the array's origin. -/
theorem origin4_0 : (fun a => win4_0.index t4_0 a * main_v67.ty.shape.size a) = fun _ => 0 := funext fun a => by fin_cases a <;> decide
/-- Window 1's one block starts at the array's origin. -/
theorem origin4_1 : (fun a => win4_1.index t4_0 a * main_v69.ty.shape.size a) = fun _ => 0 := funext fun a => by fin_cases a <;> decide
/-- Window 2's one block starts at the array's origin. -/
theorem origin4_2 : (fun a => win4_2.index t4_0 a * main_v71.ty.shape.size a) = fun _ => 0 := funext fun a => by fin_cases a <;> decide
/-- Window 3's one block starts at the array's origin. -/
theorem origin4_3 : (fun a => win4_3.index t4_0 a * main_arg27.ty.shape.size a) = fun _ => 0 := funext fun a => by fin_cases a <;> decide
/-- Window 4's one block starts at the array's origin. -/
theorem origin4_4 : (fun a => win4_4.index t4_0 a * main_v72.ty.shape.size a) = fun _ => 0 := funext fun a => by fin_cases a <;> decide
/-- Window 5's one block starts at the array's origin. -/
theorem origin4_5 : (fun a => win4_5.index t4_0 a * main_arg29.ty.shape.size a) = fun _ => 0 := funext fun a => by fin_cases a <;> decide
/-- Window 6's one block starts at the array's origin. -/
theorem origin4_6 : (fun a => win4_6.index t4_0 a * main_v73.ty.shape.size a) = fun _ => 0 := funext fun a => by fin_cases a <;> decide
/-- Window 7's one block starts at the array's origin. -/
theorem origin4_7 : (fun a => win4_7.index t4_0 a * main_v74.ty.shape.size a) = fun _ => 0 := funext fun a => by fin_cases a <;> decide

variable (V : (c : Dev nD) → (b : Ref sig .tc) → Buf (Elt Ideal) ((c : Thread nD τ).loc b))

/-- Input window 0's block is its whole array. -/
theorem iblk4_0_eq (c : Dev nD) : (iblk4 (F := Ideal) V c 0 t4_0 : Vec Ideal S256x128 .f32) = V c main_v67 := by
  unfold iblk4
  exact Memref.read_access_unit_zero (Elt Ideal) main_v67 origin4_0 (fun a => by rw [congrFun origin4_0 a]; simp) (V c main_v67)
/-- Input window 1's block is its whole array. -/
theorem iblk4_1_eq (c : Dev nD) : (iblk4 (F := Ideal) V c 1 t4_0 : Vec Ideal S256x128 .f32) = V c main_v69 := by
  unfold iblk4
  exact Memref.read_access_unit_zero (Elt Ideal) main_v69 origin4_1 (fun a => by rw [congrFun origin4_1 a]; simp) (V c main_v69)
/-- Input window 2's block is its whole array. -/
theorem iblk4_2_eq (c : Dev nD) : (iblk4 (F := Ideal) V c 2 t4_0 : Vec Ideal S256x128 .f32) = V c main_v71 := by
  unfold iblk4
  exact Memref.read_access_unit_zero (Elt Ideal) main_v71 origin4_2 (fun a => by rw [congrFun origin4_2 a]; simp) (V c main_v71)
/-- Input window 3's block is its whole array. -/
theorem iblk4_3_eq (c : Dev nD) : (iblk4 (F := Ideal) V c 3 t4_0 : Vec Ideal S384x384 .f32) = V c main_arg27 := by
  unfold iblk4
  exact Memref.read_access_unit_zero (Elt Ideal) main_arg27 origin4_3 (fun a => by rw [congrFun origin4_3 a]; simp) (V c main_arg27)
/-- Input window 4's block is its whole array. -/
theorem iblk4_4_eq (c : Dev nD) : (iblk4 (F := Ideal) V c 4 t4_0 : Vec Ideal S1x384 .f32) = V c main_v72 := by
  unfold iblk4
  exact Memref.read_access_unit_zero (Elt Ideal) main_v72 origin4_4 (fun a => by rw [congrFun origin4_4 a]; simp) (V c main_v72)
/-- Input window 5's block is its whole array. -/
theorem iblk4_5_eq (c : Dev nD) : (iblk4 (F := Ideal) V c 5 t4_0 : Vec Ideal S384x3 .f32) = V c main_arg29 := by
  unfold iblk4
  exact Memref.read_access_unit_zero (Elt Ideal) main_arg29 origin4_5 (fun a => by rw [congrFun origin4_5 a]; simp) (V c main_arg29)
/-- Input window 6's block is its whole array. -/
theorem iblk4_6_eq (c : Dev nD) : (iblk4 (F := Ideal) V c 6 t4_0 : Vec Ideal S1x3 .f32) = V c main_v73 := by
  unfold iblk4
  exact Memref.read_access_unit_zero (Elt Ideal) main_v73 origin4_6 (fun a => by rw [congrFun origin4_6 a]; simp) (V c main_v73)

/-- What the region's arrays end holding in the output window, as one function of the arrays the region finds. -/
abbrev G4 (c : Dev nD) : S256x3.Idx → EReal :=
  Cert.Spec.head (V c main_v67) (V c main_v69) (V c main_v71) (V c main_arg27) (Cert.Spec.row384 (V c main_v72)) (V c main_arg29) (Cert.Spec.row3 (V c main_v73))

/-- What the one point writes back is the one block of `G4`. -/
theorem flushed4_eq (c : Dev nD) (t : Fin cfg4.N) :
    (dat4 (F := Ideal) V c).flushed 7 t = ((cfg4.win 7).blk t).view.read (Elt Ideal) (G4 V c) := by
  have ht : t = t4_0 := fin_N4 t
  subst ht
  show (cfg4.win 7).cut (grid4.coords t4_0) ((dat4 (F := Ideal) V c).after 7 t4_0) = _
  rw [after4_7, out4_7_eq_head (iblk4 V c 0 t4_0) (iblk4 V c 1 t4_0) (iblk4 V c 2 t4_0) (iblk4 V c 3 t4_0) (iblk4 V c 4 t4_0) (iblk4 V c 5 t4_0) (iblk4 V c 6 t4_0),
    iblk4_0_eq, iblk4_1_eq, iblk4_2_eq, iblk4_3_eq, iblk4_4_eq, iblk4_5_eq, iblk4_6_eq]
  exact (Memref.read_access_unit_zero (Elt Ideal) main_v74 origin4_7 (fun a => by rw [congrFun origin4_7 a]; simp) (G4 V c)).symm

/-- THE ARRAY after the region: the head of the specification of the arrays the region finds. -/
theorem final4 (c : Dev nD) :
    ((dat4 (F := Ideal) V c).arrAt 7 cfg4.N : S256x3.Idx → EReal)
      = Cert.Spec.head (V c main_v67) (V c main_v69) (V c main_v71) (V c main_arg27) (Cert.Spec.row384 (V c main_v72)) (V c main_arg29) (Cert.Spec.row3 (V c main_v73)) :=
  (dat4 (F := Ideal) V c).arrAt_eq_of_cover 7 (G4 V c) (fun t _ => flushed4_eq V c t) fun i =>
    ⟨t4_0, flush4_7 t4_0, by
      show i ∈ ((View.whole main_v74).slice (win4_7.rect t4_0)).set
      rw [View.set_slice_whole, Rect.mem_set_unit]
      intro a
      have h0 : (i 0 : Nat) < 256 := (i 0).isLt
      have h1 : (i 1 : Nat) < 3 := (i 1).isLt
      match a with
      | ⟨0, _⟩ =>
        show win4_7.index t4_0 0 * win4_7.size 0 ≤ (i 0 : Nat) ∧ (i 0 : Nat) < win4_7.index t4_0 0 * win4_7.size 0 + win4_7.xsize (grid4.coords t4_0) 0
        rw [show win4_7.index t4_0 0 * win4_7.size 0 = 0 from by decide +kernel, show win4_7.xsize (grid4.coords t4_0) 0 = 256 from by decide +kernel]; omega
      | ⟨1, _⟩ =>
        show win4_7.index t4_0 1 * win4_7.size 1 ≤ (i 1 : Nat) ∧ (i 1 : Nat) < win4_7.index t4_0 1 * win4_7.size 1 + win4_7.xsize (grid4.coords t4_0) 1
        rw [show win4_7.index t4_0 1 * win4_7.size 1 = 0 from by decide +kernel, show win4_7.xsize (grid4.coords t4_0) 1 = 3 from by decide +kernel]; omega⟩

end Cert.KernelIdeal.HandValue

end
-- ==== Proof.KI.Value.lean ====
/-
  The value the kernel program leaves in its result buffer, assembled from the values of its five regions and the host
  operations between them.

  The program is three graph-isomorphism layers, a pooling of each layer's output per graph, and a head. Before each
  layer the host computes the neighbour sum of the layer's input (a gather of rows by source node, a scatter-add by
  destination node) and reshapes the layer's vector parameters to one-row matrices; after the pooling it multiplies each
  pooled sum by the reciprocal of `max (node count of the graph) 1`. Each region's value is a theorem about its entry
  contents; here the contents at each boundary are followed from the launch memory to the result.
-/
import proofs.«418047_j44229573214958_1_alg».proof.Proof.KI.Run
import proofs.«418047_j44229573214958_1_alg».proof.Proof.KI.Val0
import proofs.«418047_j44229573214958_1_alg».proof.Proof.KI.Val1
import proofs.«418047_j44229573214958_1_alg».proof.Proof.KI.Val2
import proofs.«418047_j44229573214958_1_alg».proof.Proof.KI.Val3
import proofs.«418047_j44229573214958_1_alg».proof.Proof.KI.Val4
import proofs.«418047_j44229573214958_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.StableHlo

/-! ## The host's terms -/

/-- The edge list's row of source nodes, flat. -/
def srcK (ei : IVec S2x400000 32) : IVec S400000 32 :=
  shapeCast S400000 (extractStridedSlice S1x400000 ![0, 0] ei slices_S2x400000_S1x400000_0_0) shapeCasts_S1x400000_S400000

/-- The edge list's row of destination nodes, flat. -/
def dstK (ei : IVec S2x400000 32) : IVec S400000 32 :=
  shapeCast S400000 (extractStridedSlice S1x400000 ![1, 0] ei slices_S2x400000_S1x400000_1_0) shapeCasts_S1x400000_S400000

/-- A node id read the way an index is: a negative one counts from the end. -/
def wrapK (s : IVec S400000 32) : IVec S400000 32 :=
  select (cmpi CmpIPredicate.slt s (broadcastInDim S400000 ![] bcast_S_S400000 (constantI S_ 32 0#32)))
    (addi s (broadcastInDim S400000 ![] bcast_S_S400000 (constantI S_ 32 50000#32))) s

/-- The neighbour sum over 513 features at sources `s` and destinations `d`: row `n` adds the rows `x[s e]` over the
    edges `e` with `d e = n`. -/
def aggT513 (s d : IVec S400000 32) (x : FVec Ideal S50000x513 .f32) : FVec Ideal S50000x513 .f32 :=
  Host.scatterAdd scatter_S50000x513_S400000x1_S400000x513_1_0_0_1
    (broadcastInDim S50000x513 ![] bcast_S_S50000x513 (constant (F := Ideal) S_ FTy.f32 0#32))
    (broadcastInDim S400000x1 ![0] bcast_S400000_S400000x1_0 d)
    (Host.gather gather_S50000x513_S400000x1_S400000x513_1_0_n_n_0_1_1513 x
      (broadcastInDim S400000x1 ![0] bcast_S400000_S400000x1_0 (wrapK s)))

/-- The neighbour sum over 128 features. -/
def aggT128 (s d : IVec S400000 32) (h : FVec Ideal S50000x128 .f32) : FVec Ideal S50000x128 .f32 :=
  Host.scatterAdd scatter_S50000x128_S400000x1_S400000x128_1_0_0_1
    (broadcastInDim S50000x128 ![] bcast_S_S50000x128 (constant (F := Ideal) S_ FTy.f32 0#32))
    (broadcastInDim S400000x1 ![0] bcast_S400000_S400000x1_0 d)
    (Host.gather gather_S50000x128_S400000x1_S400000x128_1_0_n_n_0_1_1128 h
      (broadcastInDim S400000x1 ![0] bcast_S400000_S400000x1_0 (wrapK s)))

/-- The kernel program's neighbour sum over 513 features, from the edge list. -/
def aggK513 (ei : IVec S2x400000 32) (x : FVec Ideal S50000x513 .f32) : FVec Ideal S50000x513 .f32 :=
  aggT513 (srcK ei) (dstK ei) x

/-- The kernel program's neighbour sum over 128 features, from the edge list. -/
def aggK128 (ei : IVec S2x400000 32) (h : FVec Ideal S50000x128 .f32) : FVec Ideal S50000x128 .f32 :=
  aggT128 (srcK ei) (dstK ei) h

/-- The kernel program's per-graph denominator: `max (the number of nodes whose graph id is g) 1`. -/
def denK (b : IVec S50000 32) : FVec Ideal S256 .f32 :=
  maximumf
    (Host.scatterAdd scatter_S256_S50000x1_S50000_n_0_0_1
      (broadcastInDim S256 ![] bcast_S_S256 (constant (F := Ideal) S_ FTy.f32 0#32))
      (broadcastInDim S50000x1 ![0] bcast_S50000_S50000x1_0 b)
      (broadcastInDim S50000 ![] bcast_S_S50000 (constant (F := Ideal) S_ FTy.f32 0x3F800000#32)))
    (broadcastInDim S256 ![] bcast_S_S256 (constant (F := Ideal) S_ FTy.f32 0x3F800000#32))

/-- The denominator is at least one, so never zero. -/
theorem denK_ne_zero (b : IVec S50000 32) (g : S256.Idx) : denK b g ≠ 0 := by
  have h : (0 : EReal) < denK b g := by
    unfold denK
    rw [maximumf_apply, broadcastInDim_scalar_apply, constant_apply, Ideal.ofBits_one_f32]
    exact lt_max_of_lt_right zero_lt_one
  exact ne_of_gt h

/-! ## One-row and one-column reshapes read back -/

theorem row128_cast (a : FVec Ideal S128 .f32) :
    Cert.Spec.row128 (fun i => shapeCast S1x128 a shapeCasts_S128_S1x128 i) = a := by
  funext i
  have hi : i = ix1 (i 0) := by funext a; obtain rfl : a = 0 := Subsingleton.elim _ _; rfl
  exact (shapeCast_a_1a_apply a shapeCasts_S128_S1x128 (0 : Fin 1) (i 0)).trans (congrArg a hi.symm)

theorem row384_cast (a : FVec Ideal S384 .f32) :
    Cert.Spec.row384 (fun i => shapeCast S1x384 a shapeCasts_S384_S1x384 i) = a := by
  funext i
  have hi : i = ix1 (i 0) := by funext a; obtain rfl : a = 0 := Subsingleton.elim _ _; rfl
  exact (shapeCast_a_1a_apply a shapeCasts_S384_S1x384 (0 : Fin 1) (i 0)).trans (congrArg a hi.symm)

theorem row3_cast (a : FVec Ideal S3 .f32) :
    Cert.Spec.row3 (fun i => shapeCast S1x3 a shapeCasts_S3_S1x3 i) = a := by
  funext i
  have hi : i = ix1 (i 0) := by funext a; obtain rfl : a = 0 := Subsingleton.elim _ _; rfl
  exact (shapeCast_a_1a_apply a shapeCasts_S3_S1x3 (0 : Fin 1) (i 0)).trans (congrArg a hi.symm)

theorem col50000_cast (b : IVec S50000 32) :
    Cert.Spec.col50000 (fun i => shapeCast S50000x1 b shapeCasts_S50000_S50000x1 i) = b := by
  funext i
  unfold Cert.Spec.col50000
  refine (shapeCast_apply b shapeCasts_S50000_S50000x1 _ i ?_).trans rfl
  rw [Shape.rowMajor_val_two, Shape.rowMajor_val_one]
  show (i 0).val = (i 0).val * 1 + 0
  omega

/-- One over a denominator that is never zero is its inverse. -/
theorem recip_apply (y : FVec Ideal S256 .f32) (hy : ∀ g, y g ≠ 0) (g : S256.Idx) :
    Host.divf (broadcastInDim S256 ![] bcast_S_S256 (constant (F := Ideal) S_ FTy.f32 0x3F800000#32)) y g = (y g)⁻¹ := by
  show Ideal.div (broadcastInDim S256 ![] bcast_S_S256 (constant (F := Ideal) S_ FTy.f32 0x3F800000#32) g) (y g) = _
  rw [broadcastInDim_scalar_apply, constant_apply, Ideal.ofBits_one_f32]
  unfold Ideal.div
  rw [if_neg (hy g), one_mul]

/-- Row `g` of a `[256, 128]` array times the inverse of entry `g` of a denominator. -/
def scaleBy (P : FVec Ideal S256x128 .f32) (y : FVec Ideal S256 .f32) : FVec Ideal S256x128 .f32 :=
  fun i => P i * (y (ix1 (i 0)))⁻¹

/-- A pooled sum times the broadcast reciprocal of a denominator that is never zero. -/
theorem scale_eq (P : FVec Ideal S256x128 .f32) (y : FVec Ideal S256 .f32) (hy : ∀ g, y g ≠ 0) :
    mulf P (broadcastInDim S256x128 ![0, 1] bcast_S256x1_S256x128_0_1 (broadcastInDim S256x1 ![0] bcast_S256_S256x1_0
      (Host.divf (broadcastInDim S256 ![] bcast_S_S256 (constant (F := Ideal) S_ FTy.f32 0x3F800000#32)) y)))
      = scaleBy P y := by
  funext i
  refine congrArg (fun z => P i * z) ?_
  refine (broadcastInDim_apply ![0, 1] bcast_S256x1_S256x128_0_1 _ i (ix2 (i 0) (0 : Fin 1)) ?_).trans ?_
  · intro a; fin_cases a <;> rfl
  refine (broadcastInDim_apply ![0] bcast_S256_S256x1_0 _ (ix2 (i 0) (0 : Fin 1)) (ix1 (i 0)) ?_).trans ?_
  · intro a; fin_cases a; rfl
  exact recip_apply y hy _

/-! ## The host stretches, at any entry contents -/

section Host
variable (V : Valuation τ sig (Elt Ideal))

theorem h0_v1 : (StableHlo.after hostOps0 V (Proc.devRef .tc main_v1) : IVec S400000 32) = srcK (V (Proc.devRef .tc main_arg1)) := by
  after_results_simp; rfl
theorem h0_v3 : (StableHlo.after hostOps0 V (Proc.devRef .tc main_v3) : IVec S400000 32) = dstK (V (Proc.devRef .tc main_arg1)) := by
  after_results_simp; rfl
theorem h0_v13 : (StableHlo.after hostOps0 V (Proc.devRef .tc main_v13) : FVec Ideal S50000x513 .f32)
    = aggK513 (V (Proc.devRef .tc main_arg1)) (V (Proc.devRef .tc main_arg0)) := by
  after_results_simp; rfl
theorem h0_v14 : Cert.Spec.row128 (StableHlo.after hostOps0 V (Proc.devRef .tc main_v14)) = V (Proc.devRef .tc main_arg4) := by
  refine Eq.trans (congrArg Cert.Spec.row128 ?_) (row128_cast (V (Proc.devRef .tc main_arg4)))
  after_results_simp; rfl
theorem h0_v15 : Cert.Spec.row128 (StableHlo.after hostOps0 V (Proc.devRef .tc main_v15)) = V (Proc.devRef .tc main_arg5) := by
  refine Eq.trans (congrArg Cert.Spec.row128 ?_) (row128_cast (V (Proc.devRef .tc main_arg5)))
  after_results_simp; rfl
theorem h0_v16 : Cert.Spec.row128 (StableHlo.after hostOps0 V (Proc.devRef .tc main_v16)) = V (Proc.devRef .tc main_arg6) := by
  refine Eq.trans (congrArg Cert.Spec.row128 ?_) (row128_cast (V (Proc.devRef .tc main_arg6)))
  after_results_simp; rfl
theorem h0_v17 : Cert.Spec.row128 (StableHlo.after hostOps0 V (Proc.devRef .tc main_v17)) = V (Proc.devRef .tc main_arg7) := by
  refine Eq.trans (congrArg Cert.Spec.row128 ?_) (row128_cast (V (Proc.devRef .tc main_arg7)))
  after_results_simp; rfl
theorem h0_v18 : Cert.Spec.row128 (StableHlo.after hostOps0 V (Proc.devRef .tc main_v18)) = V (Proc.devRef .tc main_arg8) := by
  refine Eq.trans (congrArg Cert.Spec.row128 ?_) (row128_cast (V (Proc.devRef .tc main_arg8)))
  after_results_simp; rfl
theorem h0_v19 : Cert.Spec.row128 (StableHlo.after hostOps0 V (Proc.devRef .tc main_v19)) = V (Proc.devRef .tc main_arg10) := by
  refine Eq.trans (congrArg Cert.Spec.row128 ?_) (row128_cast (V (Proc.devRef .tc main_arg10)))
  after_results_simp; rfl
theorem h1_v30 : (StableHlo.after hostOps1 V (Proc.devRef .tc main_v30) : FVec Ideal S50000x128 .f32)
    = aggT128 (V (Proc.devRef .tc main_v1)) (V (Proc.devRef .tc main_v3)) (V (Proc.devRef .tc main_v20)) := by
  after_results_simp; rfl
theorem h1_v31 : Cert.Spec.row128 (StableHlo.after hostOps1 V (Proc.devRef .tc main_v31)) = V (Proc.devRef .tc main_arg12) := by
  refine Eq.trans (congrArg Cert.Spec.row128 ?_) (row128_cast (V (Proc.devRef .tc main_arg12)))
  after_results_simp; rfl
theorem h1_v32 : Cert.Spec.row128 (StableHlo.after hostOps1 V (Proc.devRef .tc main_v32)) = V (Proc.devRef .tc main_arg13) := by
  refine Eq.trans (congrArg Cert.Spec.row128 ?_) (row128_cast (V (Proc.devRef .tc main_arg13)))
  after_results_simp; rfl
theorem h1_v33 : Cert.Spec.row128 (StableHlo.after hostOps1 V (Proc.devRef .tc main_v33)) = V (Proc.devRef .tc main_arg14) := by
  refine Eq.trans (congrArg Cert.Spec.row128 ?_) (row128_cast (V (Proc.devRef .tc main_arg14)))
  after_results_simp; rfl
theorem h1_v34 : Cert.Spec.row128 (StableHlo.after hostOps1 V (Proc.devRef .tc main_v34)) = V (Proc.devRef .tc main_arg15) := by
  refine Eq.trans (congrArg Cert.Spec.row128 ?_) (row128_cast (V (Proc.devRef .tc main_arg15)))
  after_results_simp; rfl
theorem h1_v35 : Cert.Spec.row128 (StableHlo.after hostOps1 V (Proc.devRef .tc main_v35)) = V (Proc.devRef .tc main_arg16) := by
  refine Eq.trans (congrArg Cert.Spec.row128 ?_) (row128_cast (V (Proc.devRef .tc main_arg16)))
  after_results_simp; rfl
theorem h1_v36 : Cert.Spec.row128 (StableHlo.after hostOps1 V (Proc.devRef .tc main_v36)) = V (Proc.devRef .tc main_arg18) := by
  refine Eq.trans (congrArg Cert.Spec.row128 ?_) (row128_cast (V (Proc.devRef .tc main_arg18)))
  after_results_simp; rfl
theorem h2_v47 : (StableHlo.after hostOps2 V (Proc.devRef .tc main_v47) : FVec Ideal S50000x128 .f32)
    = aggT128 (V (Proc.devRef .tc main_v1)) (V (Proc.devRef .tc main_v3)) (V (Proc.devRef .tc main_v37)) := by
  after_results_simp; rfl
theorem h2_v48 : Cert.Spec.row128 (StableHlo.after hostOps2 V (Proc.devRef .tc main_v48)) = V (Proc.devRef .tc main_arg20) := by
  refine Eq.trans (congrArg Cert.Spec.row128 ?_) (row128_cast (V (Proc.devRef .tc main_arg20)))
  after_results_simp; rfl
theorem h2_v49 : Cert.Spec.row128 (StableHlo.after hostOps2 V (Proc.devRef .tc main_v49)) = V (Proc.devRef .tc main_arg21) := by
  refine Eq.trans (congrArg Cert.Spec.row128 ?_) (row128_cast (V (Proc.devRef .tc main_arg21)))
  after_results_simp; rfl
theorem h2_v50 : Cert.Spec.row128 (StableHlo.after hostOps2 V (Proc.devRef .tc main_v50)) = V (Proc.devRef .tc main_arg22) := by
  refine Eq.trans (congrArg Cert.Spec.row128 ?_) (row128_cast (V (Proc.devRef .tc main_arg22)))
  after_results_simp; rfl
theorem h2_v51 : Cert.Spec.row128 (StableHlo.after hostOps2 V (Proc.devRef .tc main_v51)) = V (Proc.devRef .tc main_arg23) := by
  refine Eq.trans (congrArg Cert.Spec.row128 ?_) (row128_cast (V (Proc.devRef .tc main_arg23)))
  after_results_simp; rfl
theorem h2_v52 : Cert.Spec.row128 (StableHlo.after hostOps2 V (Proc.devRef .tc main_v52)) = V (Proc.devRef .tc main_arg24) := by
  refine Eq.trans (congrArg Cert.Spec.row128 ?_) (row128_cast (V (Proc.devRef .tc main_arg24)))
  after_results_simp; rfl
theorem h2_v53 : Cert.Spec.row128 (StableHlo.after hostOps2 V (Proc.devRef .tc main_v53)) = V (Proc.devRef .tc main_arg26) := by
  refine Eq.trans (congrArg Cert.Spec.row128 ?_) (row128_cast (V (Proc.devRef .tc main_arg26)))
  after_results_simp; rfl
theorem h3_v55 : Cert.Spec.col50000 (StableHlo.after hostOps3 V (Proc.devRef .tc main_v55)) = V (Proc.devRef .tc main_arg2) := by
  refine Eq.trans (congrArg Cert.Spec.col50000 ?_) (col50000_cast (V (Proc.devRef .tc main_arg2)))
  after_results_simp; rfl
theorem h4_v67 : (StableHlo.after hostOps4 V (Proc.devRef .tc main_v67) : FVec Ideal S256x128 .f32)
    = scaleBy (V (Proc.devRef .tc main_v56_0)) (denK (V (Proc.devRef .tc main_arg2))) := by
  refine Eq.trans ?_ (scale_eq (V (Proc.devRef .tc main_v56_0)) (denK (V (Proc.devRef .tc main_arg2))) (denK_ne_zero _))
  after_results_simp; rfl
theorem h4_v69 : (StableHlo.after hostOps4 V (Proc.devRef .tc main_v69) : FVec Ideal S256x128 .f32)
    = scaleBy (V (Proc.devRef .tc main_v56_1)) (denK (V (Proc.devRef .tc main_arg2))) := by
  refine Eq.trans ?_ (scale_eq (V (Proc.devRef .tc main_v56_1)) (denK (V (Proc.devRef .tc main_arg2))) (denK_ne_zero _))
  after_results_simp; rfl
theorem h4_v71 : (StableHlo.after hostOps4 V (Proc.devRef .tc main_v71) : FVec Ideal S256x128 .f32)
    = scaleBy (V (Proc.devRef .tc main_v56_2)) (denK (V (Proc.devRef .tc main_arg2))) := by
  refine Eq.trans ?_ (scale_eq (V (Proc.devRef .tc main_v56_2)) (denK (V (Proc.devRef .tc main_arg2))) (denK_ne_zero _))
  after_results_simp; rfl
theorem h4_v72 : Cert.Spec.row384 (StableHlo.after hostOps4 V (Proc.devRef .tc main_v72)) = V (Proc.devRef .tc main_arg28) := by
  refine Eq.trans (congrArg Cert.Spec.row384 ?_) (row384_cast (V (Proc.devRef .tc main_arg28)))
  after_results_simp; rfl
theorem h4_v73 : Cert.Spec.row3 (StableHlo.after hostOps4 V (Proc.devRef .tc main_v73)) = V (Proc.devRef .tc main_arg30) := by
  refine Eq.trans (congrArg Cert.Spec.row3 ?_) (row3_cast (V (Proc.devRef .tc main_arg30)))
  after_results_simp; rfl
end Host

/-! ## The boundaries, followed from the launch memory -/

section Run
variable (m : (ℓ : Loc nD τ sig) → Buf (Elt Ideal) ℓ) (c : Dev nD)

/-- Every reference a host stretch writes or a region may change: any other holds its launch contents throughout. -/
abbrev written : List (Ref sig .tc) :=
  hostOps0_W ++ (hostOps1_W ++ (hostOps2_W ++ (hostOps3_W ++ (hostOps4_W ++
    [main_v20, main_v37, main_v54, main_v56_0, main_v56_1, main_v56_2, main_v74]))))

theorem nw0 {b : Ref sig .tc} (h : b ∉ written) : b ∉ hostOps0_W := fun hh => h (List.mem_append_left _ hh)
theorem nw1 {b : Ref sig .tc} (h : b ∉ written) : b ∉ hostOps1_W :=
  fun hh => h (List.mem_append_right _ (List.mem_append_left _ hh))
theorem nw2 {b : Ref sig .tc} (h : b ∉ written) : b ∉ hostOps2_W :=
  fun hh => h (List.mem_append_right _ (List.mem_append_right _ (List.mem_append_left _ hh)))
theorem nw3 {b : Ref sig .tc} (h : b ∉ written) : b ∉ hostOps3_W :=
  fun hh => h (List.mem_append_right _ (List.mem_append_right _ (List.mem_append_right _ (List.mem_append_left _ hh))))
theorem nw4 {b : Ref sig .tc} (h : b ∉ written) : b ∉ hostOps4_W :=
  fun hh => h (List.mem_append_right _ (List.mem_append_right _ (List.mem_append_right _ (List.mem_append_right _
    (List.mem_append_left _ hh)))))
theorem nwr {b : Ref sig .tc} (h : b ∉ written) :
    b ∉ ([main_v20, main_v37, main_v54, main_v56_0, main_v56_1, main_v56_2, main_v74] : List (Ref sig .tc)) :=
  fun hh => h (List.mem_append_right _ (List.mem_append_right _ (List.mem_append_right _ (List.mem_append_right _
    (List.mem_append_right _ hh)))))

/-! A host stretch leaves what it does not write. -/
theorem W1_of (b : Ref sig .tc) (h : b ∉ hostOps0_W) : W1 m c (Proc.devRef .tc b) = m ((c : Thread nD τ).loc b) :=
  StableHlo.after_of_writes_sub hostOps0 _ hostOps0_writes h
theorem W3_of (b : Ref sig .tc) (h : b ∉ hostOps1_W) : W3 m c (Proc.devRef .tc b) = W2 m c (Proc.devRef .tc b) :=
  StableHlo.after_of_writes_sub hostOps1 _ hostOps1_writes h
theorem W5_of (b : Ref sig .tc) (h : b ∉ hostOps2_W) : W5 m c (Proc.devRef .tc b) = W4 m c (Proc.devRef .tc b) :=
  StableHlo.after_of_writes_sub hostOps2 _ hostOps2_writes h
theorem W7_of (b : Ref sig .tc) (h : b ∉ hostOps3_W) : W7 m c (Proc.devRef .tc b) = W6 m c (Proc.devRef .tc b) :=
  StableHlo.after_of_writes_sub hostOps3 _ hostOps3_writes h
theorem W9_of (b : Ref sig .tc) (h : b ∉ hostOps4_W) : W9 m c (Proc.devRef .tc b) = W8 m c (Proc.devRef .tc b) :=
  StableHlo.after_of_writes_sub hostOps4 _ hostOps4_writes h

/-! A reference nothing writes holds its launch contents at every boundary. -/
theorem held1 (b : Ref sig .tc) (h : b ∉ written) : W1 m c (Proc.devRef .tc b) = m ((c : Thread nD τ).loc b) :=
  W1_of m c b (nw0 h)
theorem held2 (b : Ref sig .tc) (h : b ∉ written) : W2 m c (Proc.devRef .tc b) = m ((c : Thread nD τ).loc b) :=
  (W2_keep m c b (fun hh => nwr h (by rw [List.mem_singleton.mp hh]; decide))).trans (held1 m c b h)
theorem held3 (b : Ref sig .tc) (h : b ∉ written) : W3 m c (Proc.devRef .tc b) = m ((c : Thread nD τ).loc b) :=
  (W3_of m c b (nw1 h)).trans (held2 m c b h)
theorem held4 (b : Ref sig .tc) (h : b ∉ written) : W4 m c (Proc.devRef .tc b) = m ((c : Thread nD τ).loc b) :=
  (W4_keep m c b (fun hh => nwr h (by rw [List.mem_singleton.mp hh]; decide))).trans (held3 m c b h)
theorem held5 (b : Ref sig .tc) (h : b ∉ written) : W5 m c (Proc.devRef .tc b) = m ((c : Thread nD τ).loc b) :=
  (W5_of m c b (nw2 h)).trans (held4 m c b h)
theorem held6 (b : Ref sig .tc) (h : b ∉ written) : W6 m c (Proc.devRef .tc b) = m ((c : Thread nD τ).loc b) :=
  (W6_keep m c b (fun hh => nwr h (by rw [List.mem_singleton.mp hh]; decide))).trans (held5 m c b h)
theorem held7 (b : Ref sig .tc) (h : b ∉ written) : W7 m c (Proc.devRef .tc b) = m ((c : Thread nD τ).loc b) :=
  (W7_of m c b (nw3 h)).trans (held6 m c b h)
theorem held8 (b : Ref sig .tc) (h : b ∉ written) : W8 m c (Proc.devRef .tc b) = m ((c : Thread nD τ).loc b) :=
  (W8_keep m c b (fun hh => nwr h (List.mem_cons_of_mem _ (List.mem_cons_of_mem _ (List.mem_cons_of_mem _
    (List.mem_append_left [main_v74] hh)))))).trans (held7 m c b h)
theorem held9 (b : Ref sig .tc) (h : b ∉ written) : W9 m c (Proc.devRef .tc b) = m ((c : Thread nD τ).loc b) :=
  (W9_of m c b (nw4 h)).trans (held8 m c b h)

/-! ### The launch arrays, named -/

/-- The node features. -/
abbrev pX : FVec Ideal S50000x513 .f32 := (m ((c : Thread nD τ).loc main_arg0))
/-- The edge list. -/
abbrev pEI : IVec S2x400000 32 := (m ((c : Thread nD τ).loc main_arg1))
/-- The graph id of each node. -/
abbrev pB : IVec S50000 32 := (m ((c : Thread nD τ).loc main_arg2))
/-- The first layer's parameters. -/
abbrev pL1 : Cert.Spec.Layer513 :=
  ⟨(m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8)), (m ((c : Thread nD τ).loc main_arg9)), (m ((c : Thread nD τ).loc main_arg10))⟩
/-- The second layer's parameters. -/
abbrev pL2 : Cert.Spec.Layer128 :=
  ⟨(m ((c : Thread nD τ).loc main_arg11)), (m ((c : Thread nD τ).loc main_arg12)), (m ((c : Thread nD τ).loc main_arg13)), (m ((c : Thread nD τ).loc main_arg14)), (m ((c : Thread nD τ).loc main_arg15)), (m ((c : Thread nD τ).loc main_arg16)), (m ((c : Thread nD τ).loc main_arg17)), (m ((c : Thread nD τ).loc main_arg18))⟩
/-- The third layer's parameters. -/
abbrev pL3 : Cert.Spec.Layer128 :=
  ⟨(m ((c : Thread nD τ).loc main_arg19)), (m ((c : Thread nD τ).loc main_arg20)), (m ((c : Thread nD τ).loc main_arg21)), (m ((c : Thread nD τ).loc main_arg22)), (m ((c : Thread nD τ).loc main_arg23)), (m ((c : Thread nD τ).loc main_arg24)), (m ((c : Thread nD τ).loc main_arg25)), (m ((c : Thread nD τ).loc main_arg26))⟩
/-- The head's parameters. -/
abbrev pH : Cert.Spec.HeadP :=
  ⟨(m ((c : Thread nD τ).loc main_arg27)), (m ((c : Thread nD τ).loc main_arg28)), (m ((c : Thread nD τ).loc main_arg29)), (m ((c : Thread nD τ).loc main_arg30))⟩

/-- The first layer's output. -/
def h1v : FVec Ideal S50000x128 .f32 := Cert.Spec.layer513 (pL1 m c) (pX m c) (aggK513 (pEI m c) (pX m c))
/-- The second layer's output. -/
def h2v : FVec Ideal S50000x128 .f32 := Cert.Spec.layer128 (pL2 m c) (h1v m c) (aggK128 (pEI m c) (h1v m c))
/-- The third layer's output. -/
def h3v : FVec Ideal S50000x128 .f32 := Cert.Spec.layer128 (pL3 m c) (h2v m c) (aggK128 (pEI m c) (h2v m c))

/-! ### Region 0: the first layer -/

theorem W1_v1 : (W1 m c (Proc.devRef .tc main_v1) : IVec S400000 32) = srcK (pEI m c) := h0_v1 (W0 m c)
theorem W1_v3 : (W1 m c (Proc.devRef .tc main_v3) : IVec S400000 32) = dstK (pEI m c) := h0_v3 (W0 m c)
theorem W1_v13 : (W1 m c (Proc.devRef .tc main_v13) : FVec Ideal S50000x513 .f32) = aggK513 (pEI m c) (pX m c) := h0_v13 (W0 m c)
theorem W1_v14 : Cert.Spec.row128 (W1 m c (Proc.devRef .tc main_v14)) = (m ((c : Thread nD τ).loc main_arg4)) := h0_v14 (W0 m c)
theorem W1_v15 : Cert.Spec.row128 (W1 m c (Proc.devRef .tc main_v15)) = (m ((c : Thread nD τ).loc main_arg5)) := h0_v15 (W0 m c)
theorem W1_v16 : Cert.Spec.row128 (W1 m c (Proc.devRef .tc main_v16)) = (m ((c : Thread nD τ).loc main_arg6)) := h0_v16 (W0 m c)
theorem W1_v17 : Cert.Spec.row128 (W1 m c (Proc.devRef .tc main_v17)) = (m ((c : Thread nD τ).loc main_arg7)) := h0_v17 (W0 m c)
theorem W1_v18 : Cert.Spec.row128 (W1 m c (Proc.devRef .tc main_v18)) = (m ((c : Thread nD τ).loc main_arg8)) := h0_v18 (W0 m c)
theorem W1_v19 : Cert.Spec.row128 (W1 m c (Proc.devRef .tc main_v19)) = (m ((c : Thread nD τ).loc main_arg10)) := h0_v19 (W0 m c)

theorem W2_v20 : (W2 m c (Proc.devRef .tc main_v20) : FVec Ideal S50000x128 .f32) = h1v m c := by
  refine (W2_arr m c (10 : Fin cfg0.W)).trans ((final0 (Vr1 m) c).trans ?_)
  dsimp only [Vr1]
  rw [held1 m c main_arg0 (by decide), W1_v13 m c, held1 m c main_arg3 (by decide), W1_v14 m c, W1_v15 m c, W1_v16 m c,
    W1_v17 m c, W1_v18 m c, held1 m c main_arg9 (by decide), W1_v19 m c]
  rfl

/-! ### Region 1: the second layer -/

theorem W2_v1 : (W2 m c (Proc.devRef .tc main_v1) : IVec S400000 32) = srcK (pEI m c) :=
  (W2_keep m c main_v1 (by decide)).trans (W1_v1 m c)
theorem W2_v3 : (W2 m c (Proc.devRef .tc main_v3) : IVec S400000 32) = dstK (pEI m c) :=
  (W2_keep m c main_v3 (by decide)).trans (W1_v3 m c)
theorem W3_v20 : (W3 m c (Proc.devRef .tc main_v20) : FVec Ideal S50000x128 .f32) = h1v m c :=
  (W3_of m c main_v20 (by decide)).trans (W2_v20 m c)
theorem W3_v30 : (W3 m c (Proc.devRef .tc main_v30) : FVec Ideal S50000x128 .f32) = aggK128 (pEI m c) (h1v m c) := by
  refine (h1_v30 (W2 m c)).trans ?_
  rw [W2_v1 m c, W2_v3 m c, W2_v20 m c]
  rfl
theorem W3_v31 : Cert.Spec.row128 (W3 m c (Proc.devRef .tc main_v31)) = (m ((c : Thread nD τ).loc main_arg12)) :=
  (h1_v31 (W2 m c)).trans (held2 m c main_arg12 (by decide))
theorem W3_v32 : Cert.Spec.row128 (W3 m c (Proc.devRef .tc main_v32)) = (m ((c : Thread nD τ).loc main_arg13)) :=
  (h1_v32 (W2 m c)).trans (held2 m c main_arg13 (by decide))
theorem W3_v33 : Cert.Spec.row128 (W3 m c (Proc.devRef .tc main_v33)) = (m ((c : Thread nD τ).loc main_arg14)) :=
  (h1_v33 (W2 m c)).trans (held2 m c main_arg14 (by decide))
theorem W3_v34 : Cert.Spec.row128 (W3 m c (Proc.devRef .tc main_v34)) = (m ((c : Thread nD τ).loc main_arg15)) :=
  (h1_v34 (W2 m c)).trans (held2 m c main_arg15 (by decide))
theorem W3_v35 : Cert.Spec.row128 (W3 m c (Proc.devRef .tc main_v35)) = (m ((c : Thread nD τ).loc main_arg16)) :=
  (h1_v35 (W2 m c)).trans (held2 m c main_arg16 (by decide))
theorem W3_v36 : Cert.Spec.row128 (W3 m c (Proc.devRef .tc main_v36)) = (m ((c : Thread nD τ).loc main_arg18)) :=
  (h1_v36 (W2 m c)).trans (held2 m c main_arg18 (by decide))

theorem W4_v37 : (W4 m c (Proc.devRef .tc main_v37) : FVec Ideal S50000x128 .f32) = h2v m c := by
  refine (W4_arr m c (10 : Fin cfg1.W)).trans ((final1 (Vr3 m) c).trans ?_)
  dsimp only [Vr3]
  rw [W3_v20 m c, W3_v30 m c, held3 m c main_arg11 (by decide), W3_v31 m c, W3_v32 m c, W3_v33 m c,
    W3_v34 m c, W3_v35 m c, held3 m c main_arg17 (by decide), W3_v36 m c]
  rfl

/-! ### Region 2: the third layer -/

theorem W4_v1 : (W4 m c (Proc.devRef .tc main_v1) : IVec S400000 32) = srcK (pEI m c) :=
  (W4_keep m c main_v1 (by decide)).trans ((W3_of m c main_v1 (by decide)).trans (W2_v1 m c))
theorem W4_v3 : (W4 m c (Proc.devRef .tc main_v3) : IVec S400000 32) = dstK (pEI m c) :=
  (W4_keep m c main_v3 (by decide)).trans ((W3_of m c main_v3 (by decide)).trans (W2_v3 m c))
theorem W4_v20 : (W4 m c (Proc.devRef .tc main_v20) : FVec Ideal S50000x128 .f32) = h1v m c :=
  (W4_keep m c main_v20 (by decide)).trans (W3_v20 m c)
theorem W5_v37 : (W5 m c (Proc.devRef .tc main_v37) : FVec Ideal S50000x128 .f32) = h2v m c :=
  (W5_of m c main_v37 (by decide)).trans (W4_v37 m c)
theorem W5_v47 : (W5 m c (Proc.devRef .tc main_v47) : FVec Ideal S50000x128 .f32) = aggK128 (pEI m c) (h2v m c) := by
  refine (h2_v47 (W4 m c)).trans ?_
  rw [W4_v1 m c, W4_v3 m c, W4_v37 m c]
  rfl
theorem W5_v48 : Cert.Spec.row128 (W5 m c (Proc.devRef .tc main_v48)) = (m ((c : Thread nD τ).loc main_arg20)) :=
  (h2_v48 (W4 m c)).trans (held4 m c main_arg20 (by decide))
theorem W5_v49 : Cert.Spec.row128 (W5 m c (Proc.devRef .tc main_v49)) = (m ((c : Thread nD τ).loc main_arg21)) :=
  (h2_v49 (W4 m c)).trans (held4 m c main_arg21 (by decide))
theorem W5_v50 : Cert.Spec.row128 (W5 m c (Proc.devRef .tc main_v50)) = (m ((c : Thread nD τ).loc main_arg22)) :=
  (h2_v50 (W4 m c)).trans (held4 m c main_arg22 (by decide))
theorem W5_v51 : Cert.Spec.row128 (W5 m c (Proc.devRef .tc main_v51)) = (m ((c : Thread nD τ).loc main_arg23)) :=
  (h2_v51 (W4 m c)).trans (held4 m c main_arg23 (by decide))
theorem W5_v52 : Cert.Spec.row128 (W5 m c (Proc.devRef .tc main_v52)) = (m ((c : Thread nD τ).loc main_arg24)) :=
  (h2_v52 (W4 m c)).trans (held4 m c main_arg24 (by decide))
theorem W5_v53 : Cert.Spec.row128 (W5 m c (Proc.devRef .tc main_v53)) = (m ((c : Thread nD τ).loc main_arg26)) :=
  (h2_v53 (W4 m c)).trans (held4 m c main_arg26 (by decide))

theorem W6_v54 : (W6 m c (Proc.devRef .tc main_v54) : FVec Ideal S50000x128 .f32) = h3v m c := by
  refine (W6_arr m c (10 : Fin cfg2.W)).trans ((final2 (Vr5 m) c).trans ?_)
  dsimp only [Vr5]
  rw [W5_v37 m c, W5_v47 m c, held5 m c main_arg19 (by decide), W5_v48 m c, W5_v49 m c, W5_v50 m c,
    W5_v51 m c, W5_v52 m c, held5 m c main_arg25 (by decide), W5_v53 m c]
  rfl

/-! ### Region 3: the three pooled sums -/

theorem W7_v20 : (W7 m c (Proc.devRef .tc main_v20) : FVec Ideal S50000x128 .f32) = h1v m c :=
  (W7_of m c main_v20 (by decide)).trans ((W6_keep m c main_v20 (by decide)).trans
    ((W5_of m c main_v20 (by decide)).trans (W4_v20 m c)))
theorem W7_v37 : (W7 m c (Proc.devRef .tc main_v37) : FVec Ideal S50000x128 .f32) = h2v m c :=
  (W7_of m c main_v37 (by decide)).trans ((W6_keep m c main_v37 (by decide)).trans (W5_v37 m c))
theorem W7_v54 : (W7 m c (Proc.devRef .tc main_v54) : FVec Ideal S50000x128 .f32) = h3v m c :=
  (W7_of m c main_v54 (by decide)).trans (W6_v54 m c)
theorem W7_v55 : Cert.Spec.col50000 (W7 m c (Proc.devRef .tc main_v55)) = pB m c :=
  (h3_v55 (W6 m c)).trans (held6 m c main_arg2 (by decide))

theorem W8_v56_0 : (W8 m c (Proc.devRef .tc main_v56_0) : FVec Ideal S256x128 .f32) = Cert.Spec.pool (h1v m c) (pB m c) := by
  refine (W8_arr m c (4 : Fin cfg3.W)).trans ((final3_0 (Vr7 m) c).trans ?_)
  dsimp only [Vr7]
  rw [W7_v20 m c, W7_v55 m c]
theorem W8_v56_1 : (W8 m c (Proc.devRef .tc main_v56_1) : FVec Ideal S256x128 .f32) = Cert.Spec.pool (h2v m c) (pB m c) := by
  refine (W8_arr m c (5 : Fin cfg3.W)).trans ((final3_1 (Vr7 m) c).trans ?_)
  dsimp only [Vr7]
  rw [W7_v37 m c, W7_v55 m c]
theorem W8_v56_2 : (W8 m c (Proc.devRef .tc main_v56_2) : FVec Ideal S256x128 .f32) = Cert.Spec.pool (h3v m c) (pB m c) := by
  refine (W8_arr m c (6 : Fin cfg3.W)).trans ((final3_2 (Vr7 m) c).trans ?_)
  dsimp only [Vr7]
  rw [W7_v54 m c, W7_v55 m c]

/-! ### Region 4: the readouts and the head -/
theorem W9_v67 : (W9 m c (Proc.devRef .tc main_v67) : FVec Ideal S256x128 .f32) = Cert.Spec.readout (h1v m c) (pB m c) (denK (pB m c)) := by
  refine (h4_v67 (W8 m c)).trans ?_
  rw [W8_v56_0 m c, held8 m c main_arg2 (by decide)]
  rfl
theorem W9_v69 : (W9 m c (Proc.devRef .tc main_v69) : FVec Ideal S256x128 .f32) = Cert.Spec.readout (h2v m c) (pB m c) (denK (pB m c)) := by
  refine (h4_v69 (W8 m c)).trans ?_
  rw [W8_v56_1 m c, held8 m c main_arg2 (by decide)]
  rfl
theorem W9_v71 : (W9 m c (Proc.devRef .tc main_v71) : FVec Ideal S256x128 .f32) = Cert.Spec.readout (h3v m c) (pB m c) (denK (pB m c)) := by
  refine (h4_v71 (W8 m c)).trans ?_
  rw [W8_v56_2 m c, held8 m c main_arg2 (by decide)]
  rfl
theorem W9_v72 : Cert.Spec.row384 (W9 m c (Proc.devRef .tc main_v72)) = (m ((c : Thread nD τ).loc main_arg28)) :=
  (h4_v72 (W8 m c)).trans (held8 m c main_arg28 (by decide))
theorem W9_v73 : Cert.Spec.row3 (W9 m c (Proc.devRef .tc main_v73)) = (m ((c : Thread nD τ).loc main_arg30)) :=
  (h4_v73 (W8 m c)).trans (held8 m c main_arg30 (by decide))

/-- THE KERNEL PROGRAM'S VALUE: its result buffer holds the network of the launch arrays, over the program's own neighbour
    sums and denominator. -/
theorem kernel_value :
    (W10 (F := Ideal) m c (Proc.devRef .tc main_v74) : S256x3.Idx → EReal)
      = Cert.Spec.net (aggK513 (pEI m c)) (aggK128 (pEI m c)) (denK (pB m c)) (pX m c) (pB m c)
          (pL1 m c) (pL2 m c) (pL3 m c) (pH m c) := by
  refine (W10_arr m c (7 : Fin cfg4.W)).trans ((final4 (Vr9 m) c).trans ?_)
  dsimp only [Vr9]
  rw [W9_v67 m c, W9_v69 m c, W9_v71 m c, held9 m c main_arg27 (by decide), W9_v72 m c,
    held9 m c main_arg29 (by decide), W9_v73 m c]
  rfl

end Run

end Cert.KernelIdeal.HandValue

end
-- ==== Proof.Ref.Base.lean ====
/-
  The reference's run and its operations read at an index, as generated; the modules under this directory build on them.
-/
import proofs.«418047_j44229573214958_1_alg».proof.Proof.Gen.ReferenceIdeal.Run
import proofs.«418047_j44229573214958_1_alg».proof.Proof.Gen.ReferenceIdeal.Read
-- ==== Proof.Ref.Agg.lean ====
/-
  The reference's neighbour sums and its per-graph denominator, named as functions of the arrays they read.

  A neighbour sum sends node features `h` to the array whose row `n` adds the rows `h[src e]` over the edges `e` with
  `dst e = n` (a gather by source, then a scatter-add by destination into zeros). It is never opened: both programs are
  compared through it. The denominator of graph `g` is `max (the number of nodes of g) 1`, so it is never zero.
-/
import proofs.«418047_j44229573214958_1_alg».proof.Proof.Ref.Base
import proofs.«418047_j44229573214958_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The neighbour sum over 513 features, as the reference computes it from the edge list. -/
def agg513 (ei : IVec S2x400000 32) (x : S50000x513.Idx → EReal) : S50000x513.Idx → EReal :=
  val_main_v13 (F := Ideal) x ei

/-- The neighbour sum over 128 features: the reference's gather by source and scatter-add by destination, at any node
    features `h`. -/
def agg128 (ei : IVec S2x400000 32) (h : S50000x128.Idx → EReal) : S50000x128.Idx → EReal :=
  (Host.scatterAdd scatter_S50000x128_S400000x1_S400000x128_1_0_0_1 (val_main_v47 (F := Ideal)) (val_main_v48 (F := Ideal) ei)
    (Host.gather gather_S50000x128_S400000x1_S400000x128_1_0_n_n_0_1_1128 (h : FVec Ideal S50000x128 .f32)
      (val_main_v45 (F := Ideal) ei)) : FVec Ideal S50000x128 .f32)

/-- The first layer adds to its input the neighbour sum over 513 features. -/
theorem v13_eq (x0 : (⟨S50000x513, .f32⟩ : BufTy).Contents (Elt Ideal)) (x1 : (⟨S2x400000, .i32⟩ : BufTy).Contents (Elt Ideal)) :
    val_main_v13 (F := Ideal) x0 x1 = agg513 x1 x0 := rfl

/-- The second layer's neighbour sum is `agg128` of the first layer's output. -/
theorem v49_eq (x0 : (⟨S50000x513, .f32⟩ : BufTy).Contents (Elt Ideal)) (x1 : (⟨S2x400000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v49 (F := Ideal) x0 x1 x3 x4 x5 x6 x7 x8 x9 x10 = agg128 x1 (val_main_v39 (F := Ideal) x0 x1 x3 x4 x5 x6 x7 x8 x9 x10) := rfl

/-- The third layer's neighbour sum is `agg128` of the second layer's output. -/
theorem v85_eq (x0 : (⟨S50000x513, .f32⟩ : BufTy).Contents (Elt Ideal)) (x1 : (⟨S2x400000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) :
    val_main_v85 (F := Ideal) x0 x1 x3 x4 x5 x6 x7 x8 x9 x10 x11 x12 x13 x14 x15 x16 x17 x18 = agg128 x1 (val_main_v75 (F := Ideal) x0 x1 x3 x4 x5 x6 x7 x8 x9 x10 x11 x12 x13 x14 x15 x16 x17 x18) := rfl

/-- The per-graph denominator: `max (number of nodes of the graph) 1`, as the reference computes it from the graph ids. -/
def den (b : IVec S50000 32) : S256.Idx → EReal := val_main_v120 (F := Ideal) b

/-- The second readout divides by the same denominator. -/
theorem v132_eq (b : IVec S50000 32) : val_main_v132 (F := Ideal) b = den b := rfl

/-- The third readout divides by the same denominator. -/
theorem v144_eq (b : IVec S50000 32) : val_main_v144 (F := Ideal) b = den b := rfl

/-- The float word `0x3F800000` is a positive real. -/
theorem one_word_pos : (0 : EReal) < Ideal.ofBits .f32 0x3F800000#32 := by
  simp [Ideal.ofBits, Ideal.ieee]
  norm_cast
  positivity

/-- A maximum with a positive number is never zero. -/
theorem den_ne_zero (b : IVec S50000 32) (g : S256.Idx) : den b g ≠ 0 := by
  have h : (0 : EReal) < den b g := by
    show (0 : EReal) < val_main_v120 (F := Ideal) b g
    rw [val_main_v120_apply, val_main_v119_apply, val_main_cst_13_apply, Ideal.maximumf_def, Ideal.ofBits_def]
    exact lt_max_of_lt_right one_word_pos
  exact ne_of_gt h

end Cert.ReferenceIdeal.RefValue

end
-- ==== Proof.Bridge.lean ====
/-
  The kernel program's host terms are the reference's own: the neighbour sums and the per-graph denominator are the same
  printed operations (a gather of rows by source node and a scatter-add by destination node; a scatter-add of ones by
  graph id and a maximum with one) applied to the same arrays, so the two programs' terms are equal by unfolding both.
  The kernel program's value then reads over the reference's terms.
-/
import proofs.«418047_j44229573214958_1_alg».proof.Proof.KI.Value
import proofs.«418047_j44229573214958_1_alg».proof.Proof.Ref.Agg

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

/-- The neighbour sum over 513 features is the reference's. -/
theorem aggK513_eq : aggK513 = Cert.ReferenceIdeal.RefValue.agg513 := rfl

/-- The neighbour sum over 128 features is the reference's. -/
theorem aggK128_eq : aggK128 = Cert.ReferenceIdeal.RefValue.agg128 := rfl

/-- The per-graph denominator is the reference's. -/
theorem denK_eq : denK = Cert.ReferenceIdeal.RefValue.den := rfl

/-- THE KERNEL PROGRAM'S VALUE over the reference's neighbour sums and denominator. -/
theorem kernel_value' (m : (ℓ : Loc nD τ sig) → Buf (Elt Ideal) ℓ) (c : Dev nD) :
    (W10 (F := Ideal) m c (Proc.devRef .tc main_v74) : S256x3.Idx → EReal)
      = Cert.Spec.net (Cert.ReferenceIdeal.RefValue.agg513 (pEI m c)) (Cert.ReferenceIdeal.RefValue.agg128 (pEI m c))
          (Cert.ReferenceIdeal.RefValue.den (pB m c)) (pX m c) (pB m c) (pL1 m c) (pL2 m c) (pL3 m c) (pH m c) := by
  rw [← aggK513_eq, ← aggK128_eq, ← denK_eq]
  exact kernel_value m c

end Cert.KernelIdeal.HandValue

end
-- ==== Proof.Ref.Layer1.lean ====
/-
  Layer 1 of the reference is the graph-isomorphism layer of the specification: read at an output index, the
  reference's chain of elementwise stages, broadcasts and two inner products over 513 input features is
  `relu (relu (((x + agg) · W₁ + b₁ − μ) · rsqrt (σ² + ε) · γ + β) · W₂ + b₂)` at that index, with `agg` the neighbour sum
  of the layer's input (kept as a name).
-/
import proofs.«418047_j44229573214958_1_alg».proof.Proof.Ref.Agg

noncomputable section

namespace Cert.ReferenceIdeal.RefValue

open Cert.ReferenceIdeal Cert.ReferenceIdeal.Gen Cert.ReferenceIdeal.Read Idealize.ShloMosaic Idealize.ShloMosaic.ValueIdx

/-! ## Which entry of each array the output entry `i` reads, through hidden unit `k` and input feature `j` -/

/-- The input entry the inner product reads: node `i 0`, feature `j`. -/
theorem l1_in (i : S50000x128.Idx) (k : Fin 128) (j : Fin 513) :
    lidx_main_v15 (lidx_main_v35 i k) j = ix2 (n0 := 50000) (n1 := 513) (i 0) j :=
  funext fun a => Fin.ext (by match a with | ⟨0, _⟩ => rfl | ⟨1, _⟩ => rfl)

/-- The first weight's entry: feature `j`, hidden unit `k`. -/
theorem l1_w1 (i : S50000x128.Idx) (k : Fin 128) (j : Fin 513) :
    ridx_main_v15 (lidx_main_v35 i k) j = ix2 (n0 := 513) (n1 := 128) j k :=
  funext fun a => Fin.ext (by match a with | ⟨0, _⟩ => rfl | ⟨1, _⟩ => rfl)

/-- The first bias at hidden unit `k`. -/
theorem l1_b1 (i : S50000x128.Idx) (k : Fin 128) :
    idx_main_v16 (idx_main_v17 (lidx_main_v35 i k)) = ix1 (n := 128) k :=
  funext fun a => Fin.ext (by match a with | ⟨0, _⟩ => rfl)

/-- The running mean at hidden unit `k`. -/
theorem l1_mu (i : S50000x128.Idx) (k : Fin 128) :
    idx_main_v19 (idx_main_v20 (lidx_main_v35 i k)) = ix1 (n := 128) k :=
  funext fun a => Fin.ext (by match a with | ⟨0, _⟩ => rfl)

/-- The running variance at hidden unit `k`. -/
theorem l1_var (i : S50000x128.Idx) (k : Fin 128) :
    idx_main_v25 (idx_main_v26 (lidx_main_v35 i k)) = ix1 (n := 128) k :=
  funext fun a => Fin.ext (by match a with | ⟨0, _⟩ => rfl)

/-- The scale at hidden unit `k`. -/
theorem l1_g (i : S50000x128.Idx) (k : Fin 128) :
    idx_main_v28 (idx_main_v29 (lidx_main_v35 i k)) = ix1 (n := 128) k :=
  funext fun a => Fin.ext (by match a with | ⟨0, _⟩ => rfl)

/-- The shift at hidden unit `k`. -/
theorem l1_bb (i : S50000x128.Idx) (k : Fin 128) :
    idx_main_v31 (idx_main_v32 (lidx_main_v35 i k)) = ix1 (n := 128) k :=
  funext fun a => Fin.ext (by match a with | ⟨0, _⟩ => rfl)

/-- The second weight's entry: hidden unit `k`, output column `i 1`. -/
theorem l1_w2 (i : S50000x128.Idx) (k : Fin 128) :
    ridx_main_v35 i k = ix2 (n0 := 128) (n1 := 128) k (i 1) :=
  funext fun a => Fin.ext (by match a with | ⟨0, _⟩ => rfl | ⟨1, _⟩ => rfl)

/-- The second bias at output column `i 1`. -/
theorem l1_b2 (i : S50000x128.Idx) :
    idx_main_v36 (idx_main_v37 i) = ix1 (n := 128) (i 1) :=
  funext fun a => Fin.ext (by match a with | ⟨0, _⟩ => rfl)

/-! ## The layer -/

/-- Layer 1 of the reference, as the specification's layer at the reference's own input and neighbour sum. -/
theorem layer1_eq (x0 : (⟨S50000x513, .f32⟩ : BufTy).Contents (Elt Ideal)) (x1 : (⟨S2x400000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v39 (F := Ideal) x0 x1 x3 x4 x5 x6 x7 x8 x9 x10 =
      Cert.Spec.gin513 x0 (agg513 x1 x0) x3 x4 x5 x6 x7 x8 x9 x10 := by
  funext i
  simp only [
    val_main_v39_apply, val_main_v38_apply, val_main_v35_apply, val_main_v34_apply, val_main_v33_apply,
    val_main_v30_apply, val_main_v27_apply, val_main_v21_apply, val_main_v18_apply, val_main_v15_apply,
    val_main_v14_apply, val_main_v17_apply, val_main_v16_apply, val_main_v20_apply, val_main_v19_apply,
    val_main_v26_apply, val_main_v25_apply, val_main_v24_apply, val_main_v23_apply, val_main_v22_apply,
    val_main_v29_apply, val_main_v28_apply, val_main_v32_apply, val_main_v31_apply, val_main_v37_apply,
    val_main_v36_apply, val_main_cst_1_apply, val_main_call0_v0_apply, val_main_call0_cst_apply,
    val_main_call1_v0_apply, val_main_call1_cst_apply,
    v13_eq,
    Ideal.addf_def, Ideal.subf_def, Ideal.mulf_def, Ideal.maximumf_def, Ideal.hostUnary_rsqrt_def, Ideal.ofBits_def,
    Ideal.ofBits_zero_f32,
    l1_in, l1_w1, l1_b1, l1_mu, l1_var, l1_g, l1_bb, l1_w2, l1_b2,
    Cert.Spec.gin513, Cert.Spec.hid513, Cert.Spec.eps]

end Cert.ReferenceIdeal.RefValue

end
-- ==== Proof.Ref.Layer2.lean ====
/-
  Layer 2 of the reference is the graph-isomorphism layer of the specification: read at an output index, the
  reference's chain of elementwise stages, broadcasts and two inner products over 128 input features is
  `relu (relu (((x + agg) · W₁ + b₁ − μ) · rsqrt (σ² + ε) · γ + β) · W₂ + b₂)` at that index, with `agg` the neighbour sum
  of the layer's input (kept as a name).
-/
import proofs.«418047_j44229573214958_1_alg».proof.Proof.Ref.Agg

noncomputable section

namespace Cert.ReferenceIdeal.RefValue

open Cert.ReferenceIdeal Cert.ReferenceIdeal.Gen Cert.ReferenceIdeal.Read Idealize.ShloMosaic Idealize.ShloMosaic.ValueIdx

/-! ## Which entry of each array the output entry `i` reads, through hidden unit `k` and input feature `j` -/

/-- The input entry the inner product reads: node `i 0`, feature `j`. -/
theorem l2_in (i : S50000x128.Idx) (k : Fin 128) (j : Fin 128) :
    lidx_main_v51 (lidx_main_v71 i k) j = ix2 (n0 := 50000) (n1 := 128) (i 0) j :=
  funext fun a => Fin.ext (by match a with | ⟨0, _⟩ => rfl | ⟨1, _⟩ => rfl)

/-- The first weight's entry: feature `j`, hidden unit `k`. -/
theorem l2_w1 (i : S50000x128.Idx) (k : Fin 128) (j : Fin 128) :
    ridx_main_v51 (lidx_main_v71 i k) j = ix2 (n0 := 128) (n1 := 128) j k :=
  funext fun a => Fin.ext (by match a with | ⟨0, _⟩ => rfl | ⟨1, _⟩ => rfl)

/-- The first bias at hidden unit `k`. -/
theorem l2_b1 (i : S50000x128.Idx) (k : Fin 128) :
    idx_main_v52 (idx_main_v53 (lidx_main_v71 i k)) = ix1 (n := 128) k :=
  funext fun a => Fin.ext (by match a with | ⟨0, _⟩ => rfl)

/-- The running mean at hidden unit `k`. -/
theorem l2_mu (i : S50000x128.Idx) (k : Fin 128) :
    idx_main_v55 (idx_main_v56 (lidx_main_v71 i k)) = ix1 (n := 128) k :=
  funext fun a => Fin.ext (by match a with | ⟨0, _⟩ => rfl)

/-- The running variance at hidden unit `k`. -/
theorem l2_var (i : S50000x128.Idx) (k : Fin 128) :
    idx_main_v61 (idx_main_v62 (lidx_main_v71 i k)) = ix1 (n := 128) k :=
  funext fun a => Fin.ext (by match a with | ⟨0, _⟩ => rfl)

/-- The scale at hidden unit `k`. -/
theorem l2_g (i : S50000x128.Idx) (k : Fin 128) :
    idx_main_v64 (idx_main_v65 (lidx_main_v71 i k)) = ix1 (n := 128) k :=
  funext fun a => Fin.ext (by match a with | ⟨0, _⟩ => rfl)

/-- The shift at hidden unit `k`. -/
theorem l2_bb (i : S50000x128.Idx) (k : Fin 128) :
    idx_main_v67 (idx_main_v68 (lidx_main_v71 i k)) = ix1 (n := 128) k :=
  funext fun a => Fin.ext (by match a with | ⟨0, _⟩ => rfl)

/-- The second weight's entry: hidden unit `k`, output column `i 1`. -/
theorem l2_w2 (i : S50000x128.Idx) (k : Fin 128) :
    ridx_main_v71 i k = ix2 (n0 := 128) (n1 := 128) k (i 1) :=
  funext fun a => Fin.ext (by match a with | ⟨0, _⟩ => rfl | ⟨1, _⟩ => rfl)

/-- The second bias at output column `i 1`. -/
theorem l2_b2 (i : S50000x128.Idx) :
    idx_main_v72 (idx_main_v73 i) = ix1 (n := 128) (i 1) :=
  funext fun a => Fin.ext (by match a with | ⟨0, _⟩ => rfl)

/-! ## The layer -/

/-- Layer 2 of the reference, as the specification's layer at the reference's own input and neighbour sum. -/
theorem layer2_eq (x0 : (⟨S50000x513, .f32⟩ : BufTy).Contents (Elt Ideal)) (x1 : (⟨S2x400000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) :
    val_main_v75 (F := Ideal) x0 x1 x3 x4 x5 x6 x7 x8 x9 x10 x11 x12 x13 x14 x15 x16 x17 x18 =
      Cert.Spec.gin128 (val_main_v39 (F := Ideal) x0 x1 x3 x4 x5 x6 x7 x8 x9 x10) (agg128 x1 (val_main_v39 (F := Ideal) x0 x1 x3 x4 x5 x6 x7 x8 x9 x10)) x11 x12 x13 x14 x15 x16 x17 x18 := by
  funext i
  simp only [
    val_main_v75_apply, val_main_v74_apply, val_main_v71_apply, val_main_v70_apply, val_main_v69_apply,
    val_main_v66_apply, val_main_v63_apply, val_main_v57_apply, val_main_v54_apply, val_main_v51_apply,
    val_main_v50_apply, val_main_v53_apply, val_main_v52_apply, val_main_v56_apply, val_main_v55_apply,
    val_main_v62_apply, val_main_v61_apply, val_main_v60_apply, val_main_v59_apply, val_main_v58_apply,
    val_main_v65_apply, val_main_v64_apply, val_main_v68_apply, val_main_v67_apply, val_main_v73_apply,
    val_main_v72_apply, val_main_cst_5_apply, val_main_call2_v0_apply, val_main_call2_cst_apply,
    val_main_call3_v0_apply, val_main_call3_cst_apply,
    v49_eq,
    Ideal.addf_def, Ideal.subf_def, Ideal.mulf_def, Ideal.maximumf_def, Ideal.hostUnary_rsqrt_def, Ideal.ofBits_def,
    Ideal.ofBits_zero_f32,
    l2_in, l2_w1, l2_b1, l2_mu, l2_var, l2_g, l2_bb, l2_w2, l2_b2,
    Cert.Spec.gin128, Cert.Spec.hid128, Cert.Spec.eps]

end Cert.ReferenceIdeal.RefValue

end
-- ==== Proof.Ref.Layer3.lean ====
/-
  Layer 3 of the reference is the graph-isomorphism layer of the specification: read at an output index, the
  reference's chain of elementwise stages, broadcasts and two inner products over 128 input features is
  `relu (relu (((x + agg) · W₁ + b₁ − μ) · rsqrt (σ² + ε) · γ + β) · W₂ + b₂)` at that index, with `agg` the neighbour sum
  of the layer's input (kept as a name).
-/
import proofs.«418047_j44229573214958_1_alg».proof.Proof.Ref.Agg

noncomputable section

namespace Cert.ReferenceIdeal.RefValue

open Cert.ReferenceIdeal Cert.ReferenceIdeal.Gen Cert.ReferenceIdeal.Read Idealize.ShloMosaic Idealize.ShloMosaic.ValueIdx

/-! ## Which entry of each array the output entry `i` reads, through hidden unit `k` and input feature `j` -/

/-- The input entry the inner product reads: node `i 0`, feature `j`. -/
theorem l3_in (i : S50000x128.Idx) (k : Fin 128) (j : Fin 128) :
    lidx_main_v87 (lidx_main_v107 i k) j = ix2 (n0 := 50000) (n1 := 128) (i 0) j :=
  funext fun a => Fin.ext (by match a with | ⟨0, _⟩ => rfl | ⟨1, _⟩ => rfl)

/-- The first weight's entry: feature `j`, hidden unit `k`. -/
theorem l3_w1 (i : S50000x128.Idx) (k : Fin 128) (j : Fin 128) :
    ridx_main_v87 (lidx_main_v107 i k) j = ix2 (n0 := 128) (n1 := 128) j k :=
  funext fun a => Fin.ext (by match a with | ⟨0, _⟩ => rfl | ⟨1, _⟩ => rfl)

/-- The first bias at hidden unit `k`. -/
theorem l3_b1 (i : S50000x128.Idx) (k : Fin 128) :
    idx_main_v88 (idx_main_v89 (lidx_main_v107 i k)) = ix1 (n := 128) k :=
  funext fun a => Fin.ext (by match a with | ⟨0, _⟩ => rfl)

/-- The running mean at hidden unit `k`. -/
theorem l3_mu (i : S50000x128.Idx) (k : Fin 128) :
    idx_main_v91 (idx_main_v92 (lidx_main_v107 i k)) = ix1 (n := 128) k :=
  funext fun a => Fin.ext (by match a with | ⟨0, _⟩ => rfl)

/-- The running variance at hidden unit `k`. -/
theorem l3_var (i : S50000x128.Idx) (k : Fin 128) :
    idx_main_v97 (idx_main_v98 (lidx_main_v107 i k)) = ix1 (n := 128) k :=
  funext fun a => Fin.ext (by match a with | ⟨0, _⟩ => rfl)

/-- The scale at hidden unit `k`. -/
theorem l3_g (i : S50000x128.Idx) (k : Fin 128) :
    idx_main_v100 (idx_main_v101 (lidx_main_v107 i k)) = ix1 (n := 128) k :=
  funext fun a => Fin.ext (by match a with | ⟨0, _⟩ => rfl)

/-- The shift at hidden unit `k`. -/
theorem l3_bb (i : S50000x128.Idx) (k : Fin 128) :
    idx_main_v103 (idx_main_v104 (lidx_main_v107 i k)) = ix1 (n := 128) k :=
  funext fun a => Fin.ext (by match a with | ⟨0, _⟩ => rfl)

/-- The second weight's entry: hidden unit `k`, output column `i 1`. -/
theorem l3_w2 (i : S50000x128.Idx) (k : Fin 128) :
    ridx_main_v107 i k = ix2 (n0 := 128) (n1 := 128) k (i 1) :=
  funext fun a => Fin.ext (by match a with | ⟨0, _⟩ => rfl | ⟨1, _⟩ => rfl)

/-- The second bias at output column `i 1`. -/
theorem l3_b2 (i : S50000x128.Idx) :
    idx_main_v108 (idx_main_v109 i) = ix1 (n := 128) (i 1) :=
  funext fun a => Fin.ext (by match a with | ⟨0, _⟩ => rfl)

/-! ## The layer -/

/-- Layer 3 of the reference, as the specification's layer at the reference's own input and neighbour sum. -/
theorem layer3_eq (x0 : (⟨S50000x513, .f32⟩ : BufTy).Contents (Elt Ideal)) (x1 : (⟨S2x400000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) :
    val_main_v111 (F := Ideal) x0 x1 x3 x4 x5 x6 x7 x8 x9 x10 x11 x12 x13 x14 x15 x16 x17 x18 x19 x20 x21 x22 x23 x24 x25 x26 =
      Cert.Spec.gin128 (val_main_v75 (F := Ideal) x0 x1 x3 x4 x5 x6 x7 x8 x9 x10 x11 x12 x13 x14 x15 x16 x17 x18) (agg128 x1 (val_main_v75 (F := Ideal) x0 x1 x3 x4 x5 x6 x7 x8 x9 x10 x11 x12 x13 x14 x15 x16 x17 x18)) x19 x20 x21 x22 x23 x24 x25 x26 := by
  funext i
  simp only [
    val_main_v111_apply, val_main_v110_apply, val_main_v107_apply, val_main_v106_apply, val_main_v105_apply,
    val_main_v102_apply, val_main_v99_apply, val_main_v93_apply, val_main_v90_apply, val_main_v87_apply,
    val_main_v86_apply, val_main_v89_apply, val_main_v88_apply, val_main_v92_apply, val_main_v91_apply,
    val_main_v98_apply, val_main_v97_apply, val_main_v96_apply, val_main_v95_apply, val_main_v94_apply,
    val_main_v101_apply, val_main_v100_apply, val_main_v104_apply, val_main_v103_apply, val_main_v109_apply,
    val_main_v108_apply, val_main_cst_9_apply, val_main_call4_v0_apply, val_main_call4_cst_apply,
    val_main_call5_v0_apply, val_main_call5_cst_apply,
    v85_eq,
    Ideal.addf_def, Ideal.subf_def, Ideal.mulf_def, Ideal.maximumf_def, Ideal.hostUnary_rsqrt_def, Ideal.ofBits_def,
    Ideal.ofBits_zero_f32,
    l3_in, l3_w1, l3_b1, l3_mu, l3_var, l3_g, l3_bb, l3_w2, l3_b2,
    Cert.Spec.gin128, Cert.Spec.hid128, Cert.Spec.eps]

end Cert.ReferenceIdeal.RefValue

end
-- ==== Proof.Ref.Layers.lean ====
/-
  The three graph-isomorphism layers of the reference, each as the specification's layer at the reference's own input
  and neighbour sum.
-/
import proofs.«418047_j44229573214958_1_alg».proof.Proof.Ref.Layer1
import proofs.«418047_j44229573214958_1_alg».proof.Proof.Ref.Layer2
import proofs.«418047_j44229573214958_1_alg».proof.Proof.Ref.Layer3
-- ==== Proof.Ref.Pool.lean ====
/-
  The reference's pooling step: an accumulating scatter of the node rows `h[n, ·]` into the row named by the node's
  graph id, onto zeros. Update element `(n, d)` lands at `(g, d)` exactly when the id of node `n`, read signed, is `g`;
  so entry `(g, d)` of the result is the sum of `h[n, d]` over the nodes of graph `g`.
-/
import proofs.«418047_j44229573214958_1_alg».proof.Proof.Gen.ReferenceIdeal
import proofs.«418047_j44229573214958_1_alg».proof.Proof.Spec

noncomputable section

namespace Cert.ReferenceIdeal.RefValue

open Cert.ReferenceIdeal Cert.ReferenceIdeal.Gen Idealize.ShloMosaic Idealize.ShloMosaic.ValueIdx

local notation "dP" => scatter_S256x128_S50000x1_S50000x128_1_0_0_1

/-- The window coordinate on the inserted (graph) axis is zero. -/
theorem pool_window0 (j : S50000x128.Idx) : ScatterDims.window dP j 0 = 0 := by
  unfold ScatterDims.window
  rw [dif_neg (by decide)]

/-- The window coordinate on the feature axis is the update's feature coordinate. -/
theorem pool_window1 (j : S50000x128.Idx) : ScatterDims.window dP j 1 = (j 1).val := by
  unfold ScatterDims.window
  rw [dif_pos (by decide)]
  rfl

/-- The start on the feature axis is zero: the index map does not name it. -/
theorem pool_start1 {w : Nat} (j : S50000x128.Idx) (idx : IVec S50000x1 w) : ScatterDims.start dP j idx 1 = 0 := by
  unfold ScatterDims.start
  rw [dif_neg (by decide)]

/-- The start on the graph axis is the node's graph id, read signed. -/
theorem pool_start0 {w : Nat} (j : S50000x128.Idx) (idx : IVec S50000x1 w) :
    ScatterDims.start dP j idx 0 = (idx (ix2 (j 0) 0)).toInt := by
  unfold ScatterDims.start
  rw [dif_pos (by decide)]
  congr 2
  funext b
  match b with
  | ⟨0, _⟩ => rfl
  | ⟨1, _⟩ => rfl

/-- Update element `j = (n, d)` lands at `i = (g, d')` exactly when node `n`'s id is `g` and `d = d'`. -/
theorem pool_resultIdx_iff {w : Nat} (j : S50000x128.Idx) (idx : IVec S50000x1 w) (i : S256x128.Idx) :
    ScatterDims.resultIdx? dP j idx = some i ↔ (idx (ix2 (j 0) 0)).toInt = ((i 0).val : Int) ∧ j 1 = i 1 := by
  have hi0 : (i 0).val < 256 := (i 0).isLt
  have hj1 : (j 1).val < 128 := (j 1).isLt
  unfold ScatterDims.resultIdx?
  split
  · rename_i h
    have h0 := h 0
    rw [pool_start0, pool_window0] at h0
    rw [Option.some.injEq]
    constructor
    · intro e
      have e0 := congrArg Fin.val (congrFun e 0)
      have e1 := congrArg Fin.val (congrFun e 1)
      simp only [pool_start0, pool_window0, pool_start1, pool_window1] at e0 e1
      refine ⟨by omega, Fin.ext (by omega)⟩
    · rintro ⟨e0, e1⟩
      funext a
      match a with
      | ⟨0, _⟩ => exact Fin.ext (by show (ScatterDims.start dP j idx 0 + ScatterDims.window dP j 0).toNat = (i 0).val; rw [pool_start0, pool_window0]; omega)
      | ⟨1, _⟩ => exact Fin.ext (by show (ScatterDims.start dP j idx 1 + ScatterDims.window dP j 1).toNat = (i 1).val; rw [pool_start1, pool_window1, e1]; omega)
  · rename_i h
    constructor
    · intro e; exact absurd e (by simp)
    · rintro ⟨e0, e1⟩
      exfalso; apply h
      intro a
      match a with
      | ⟨0, _⟩ =>
        show 0 ≤ ScatterDims.start dP j idx 0 + ScatterDims.window dP j 0 ∧ ScatterDims.start dP j idx 0 + ScatterDims.window dP j 0 < (256 : Nat)
        rw [pool_start0, pool_window0]; omega
      | ⟨1, _⟩ =>
        show 0 ≤ ScatterDims.start dP j idx 1 + ScatterDims.window dP j 1 ∧ ScatterDims.start dP j idx 1 + ScatterDims.window dP j 1 < (128 : Nat)
        rw [pool_start1, pool_window1]; omega

/-- The accumulating scatter of node rows into per-graph rows is the per-graph sum. -/
theorem pool_scatter (z : S256x128.Idx → EReal) (hz : ∀ i, z i = 0) (bi : IVec S50000x1 32) (b : IVec S50000 32)
    (hb : ∀ n : Fin 50000, bi (ix2 n 0) = b (ix1 n)) (h : S50000x128.Idx → EReal) :
    Host.scatterAdd (F := Ideal) (φ := .f32) dP z bi h = Cert.Spec.pool h b := by
  funext i
  show z i + ∑ j ∈ Finset.univ.filter (fun j => ScatterDims.resultIdx? dP j bi = some i), h j = _
  rw [hz, zero_add, Finset.sum_filter, ValueIdx.sum_idx2]
  unfold Cert.Spec.pool
  refine Finset.sum_congr rfl fun n _ => ?_
  have key : ∀ d : Fin 128, (ScatterDims.resultIdx? dP (ix2 n d) bi = some i) ↔
      ((b (ix1 n)).toInt = ((i 0).val : Int) ∧ d = i 1) := fun d => by
    rw [pool_resultIdx_iff]
    show (bi (ix2 n 0)).toInt = _ ∧ d = i 1 ↔ _
    rw [hb]
  by_cases hn : (b (ix1 n)).toInt = ((i 0).val : Int)
  · rw [if_pos hn]
    refine (Finset.sum_eq_single (i 1 : Fin 128) (fun d _ hd => if_neg fun e => hd ((key d).1 e).2)
      (fun hx => absurd (Finset.mem_univ _) hx)).trans ?_
    exact if_pos ((key _).2 ⟨hn, rfl⟩)
  · rw [if_neg hn]
    exact Finset.sum_eq_zero fun d _ => if_neg fun e => hn ((key d).1 e).1

end Cert.ReferenceIdeal.RefValue
-- ==== Proof.Ref.Cat.lean ====
/-
  Two small facts the reference's readout and head use: a quotient by a nonzero denominator is the product with the
  reciprocal (and a maximum with one is nonzero), and the three readouts joined along their second axis read, at
  column `j`, the first at `j` below 128, the second at `j - 128` below 256, the third at `j - 256` from there on.
-/
import proofs.«418047_j44229573214958_1_alg».proof.Proof.Gen.ReferenceIdeal
import proofs.«418047_j44229573214958_1_alg».proof.Proof.Spec
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx

/-- Off zero the quotient is the product with the reciprocal. -/
theorem div_of_ne_zero (x y : EReal) (hy : y ≠ 0) : Ideal.div x y = x * y⁻¹ := by
  unfold Ideal.div
  rw [if_neg hy]

/-- A maximum with one is not zero. -/
theorem max_one_ne_zero (x : EReal) : max x (Ideal.ofBits .f32 0x3F800000#32) ≠ 0 := by
  rw [Ideal.ofBits_one_f32]
  exact ne_of_gt (lt_of_lt_of_le zero_lt_one (le_max_right x 1))

/-- Column `j` of the three arrays joined along their second axis. -/
theorem cat3_apply (q1 q2 q3 : S256x128.Idx → EReal) (r : Fin 256) (j : Fin 384) :
    concatenate S256x384 1 [⟨S256x128, q1⟩, ⟨S256x128, q2⟩, ⟨S256x128, q3⟩]
      Facts₀.concatenates_S256x128_S256x128_S256x128_S256x384_d1 (ix2 r j) = Cert.Spec.cat3 q1 q2 q3 r j := by
  unfold Cert.Spec.cat3
  split
  · rename_i h1
    exact concatenate_apply_piece 1 _ _ (ix2 r j) 0 (by show (0 : Nat) < 3; omega) S256x128 q1 rfl rfl 0 rfl (ix2 r ⟨j.val, h1⟩)
      (fun b hb => by match b with | ⟨0, _⟩ => rfl | ⟨1, _⟩ => exact absurd rfl hb) (by show 0 + j.val = j.val; omega)
  · rename_i h1
    split
    · rename_i h2
      exact concatenate_apply_piece 1 _ _ (ix2 r j) 1 (by show (1 : Nat) < 3; omega) S256x128 q2 rfl rfl 128 rfl (ix2 r ⟨j.val - 128, by omega⟩)
        (fun b hb => by match b with | ⟨0, _⟩ => rfl | ⟨1, _⟩ => exact absurd rfl hb) (by show 128 + (j.val - 128) = j.val; omega)
    · rename_i h2
      exact concatenate_apply_piece 1 _ _ (ix2 r j) 2 (by show (2 : Nat) < 3; omega) S256x128 q3 rfl rfl 256 rfl (ix2 r ⟨j.val - 256, by omega⟩)
        (fun b hb => by match b with | ⟨0, _⟩ => rfl | ⟨1, _⟩ => exact absurd rfl hb) (by show 256 + (j.val - 256) = j.val; omega)

end Cert.ReferenceIdeal.RefValue
-- ==== Proof.Ref.Readout.lean ====
/-
  The reference's three readouts: each is the accumulating scatter of a layer's node rows onto zeros, divided by the
  per-graph denominator (the same one for all three, a maximum with one, hence nonzero): the pooled sum times the
  denominator's reciprocal.
-/
import proofs.«418047_j44229573214958_1_alg».proof.Proof.Ref.Base
import proofs.«418047_j44229573214958_1_alg».proof.Proof.Ref.Pool
import proofs.«418047_j44229573214958_1_alg».proof.Proof.Ref.Cat

noncomputable section

namespace Cert.ReferenceIdeal.RefValue

open Cert.ReferenceIdeal Cert.ReferenceIdeal.Gen Cert.ReferenceIdeal.Read Idealize.ShloMosaic Idealize.ShloMosaic.ValueIdx

local notation "dP" => scatter_S256x128_S50000x1_S50000x128_1_0_0_1

/-- Over variables: the scatter onto zeros divided by a broadcast nonzero denominator is the readout. -/
theorem readout_scatter (z : S256x128.Idx → EReal) (hz : ∀ i, z i = 0) (bi : IVec S50000x1 32) (b : IVec S50000 32)
    (hb : ∀ n : Fin 50000, bi (ix2 n 0) = b (ix1 n)) (h : S50000x128.Idx → EReal) (dn : S256x128.Idx → EReal)
    (den : S256.Idx → EReal) (hdn : ∀ i, dn i = den (ix1 (i 0))) (hden : ∀ g, den g ≠ 0) :
    Host.divf (F := Ideal) (φ := .f32) (Host.scatterAdd (F := Ideal) (φ := .f32) dP z bi h) dn = Cert.Spec.readout h b den := by
  rw [pool_scatter z hz bi b hb h]
  funext i
  show Ideal.div (Cert.Spec.pool h b i) (dn i) = _
  rw [hdn, div_of_ne_zero _ _ (hden _)]
  rfl

/-- The denominator is a maximum with one: never zero. -/
theorem den120_ne_zero (x2 : (⟨S50000, .i32⟩ : BufTy).Contents (Elt Ideal)) (g : S256.Idx) :
    val_main_v120 (F := Ideal) x2 g ≠ 0 := by
  rw [val_main_v120_apply, val_main_v119_apply, val_main_cst_13_apply]
  exact max_one_ne_zero _

/-- The first scatter's operand is zero everywhere. -/
theorem zero_v112 (i : S256x128.Idx) : val_main_v112 (F := Ideal) i = 0 := by
  rw [val_main_v112_apply, val_main_cst_10_apply]
  exact Ideal.ofBits_zero_f32

/-- The first scatter's index column is the graph ids. -/
theorem ids_v113 (x2 : (⟨S50000, .i32⟩ : BufTy).Contents (Elt Ideal)) (n : Fin 50000) :
    val_main_v113 (F := Ideal) x2 (ix2 n 0) = x2 (ix1 n) := by
  rw [val_main_v113_apply]
  exact congrArg x2 (funext fun a => by match a with | ⟨0, _⟩ => rfl)

/-- The first quotient's denominator at `(g, d)` is the denominator of graph `g`. -/
theorem den_v122 (x2 : (⟨S50000, .i32⟩ : BufTy).Contents (Elt Ideal)) (i : S256x128.Idx) :
    val_main_v122 (F := Ideal) x2 i = val_main_v120 (F := Ideal) x2 (ix1 (i 0)) := by
  rw [val_main_v122_apply, val_main_v121_apply]
  show val_main_v120 (F := Ideal) x2 _ = _
  exact congrArg (val_main_v120 (F := Ideal) x2) (funext fun a => by match a with | ⟨0, _⟩ => rfl)

/-- The first readout of the reference: the pooled sum over the denominator. -/
theorem readout123_eq (x0 : (⟨S50000x513, .f32⟩ : BufTy).Contents (Elt Ideal)) (x1 : (⟨S2x400000, .i32⟩ : BufTy).Contents (Elt Ideal)) (x2 : (⟨S50000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v123 (F := Ideal) x0 x1 x2 x3 x4 x5 x6 x7 x8 x9 x10 =
      Cert.Spec.readout (val_main_v39 (F := Ideal) x0 x1 x3 x4 x5 x6 x7 x8 x9 x10) x2 (val_main_v120 (F := Ideal) x2) := by
  unfold val_main_v123 val_main_v114
  exact readout_scatter _ zero_v112 _ x2 (ids_v113 x2) _ _ _ (den_v122 x2) (den120_ne_zero x2)

/-- The second scatter's operand is zero everywhere. -/
theorem zero_v124 (i : S256x128.Idx) : val_main_v124 (F := Ideal) i = 0 := by
  rw [val_main_v124_apply, val_main_cst_14_apply]
  exact Ideal.ofBits_zero_f32

/-- The second scatter's index column is the graph ids. -/
theorem ids_v125 (x2 : (⟨S50000, .i32⟩ : BufTy).Contents (Elt Ideal)) (n : Fin 50000) :
    val_main_v125 (F := Ideal) x2 (ix2 n 0) = x2 (ix1 n) := by
  rw [val_main_v125_apply]
  exact congrArg x2 (funext fun a => by match a with | ⟨0, _⟩ => rfl)

/-- The second quotient's denominator at `(g, d)` is the denominator of graph `g`. -/
theorem den_v134 (x2 : (⟨S50000, .i32⟩ : BufTy).Contents (Elt Ideal)) (i : S256x128.Idx) :
    val_main_v134 (F := Ideal) x2 i = val_main_v120 (F := Ideal) x2 (ix1 (i 0)) := by
  rw [val_main_v134_apply, val_main_v133_apply]
  show val_main_v120 (F := Ideal) x2 _ = _
  exact congrArg (val_main_v120 (F := Ideal) x2) (funext fun a => by match a with | ⟨0, _⟩ => rfl)

/-- The second readout of the reference: the pooled sum over the denominator. -/
theorem readout135_eq (x0 : (⟨S50000x513, .f32⟩ : BufTy).Contents (Elt Ideal)) (x1 : (⟨S2x400000, .i32⟩ : BufTy).Contents (Elt Ideal)) (x2 : (⟨S50000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) :
    val_main_v135 (F := Ideal) x0 x1 x2 x3 x4 x5 x6 x7 x8 x9 x10 x11 x12 x13 x14 x15 x16 x17 x18 =
      Cert.Spec.readout (val_main_v75 (F := Ideal) x0 x1 x3 x4 x5 x6 x7 x8 x9 x10 x11 x12 x13 x14 x15 x16 x17 x18) x2 (val_main_v120 (F := Ideal) x2) := by
  unfold val_main_v135 val_main_v126
  exact readout_scatter _ zero_v124 _ x2 (ids_v125 x2) _ _ _ (den_v134 x2) (den120_ne_zero x2)

/-- The third scatter's operand is zero everywhere. -/
theorem zero_v136 (i : S256x128.Idx) : val_main_v136 (F := Ideal) i = 0 := by
  rw [val_main_v136_apply, val_main_cst_18_apply]
  exact Ideal.ofBits_zero_f32

/-- The third scatter's index column is the graph ids. -/
theorem ids_v137 (x2 : (⟨S50000, .i32⟩ : BufTy).Contents (Elt Ideal)) (n : Fin 50000) :
    val_main_v137 (F := Ideal) x2 (ix2 n 0) = x2 (ix1 n) := by
  rw [val_main_v137_apply]
  exact congrArg x2 (funext fun a => by match a with | ⟨0, _⟩ => rfl)

/-- The third quotient's denominator at `(g, d)` is the denominator of graph `g`. -/
theorem den_v146 (x2 : (⟨S50000, .i32⟩ : BufTy).Contents (Elt Ideal)) (i : S256x128.Idx) :
    val_main_v146 (F := Ideal) x2 i = val_main_v120 (F := Ideal) x2 (ix1 (i 0)) := by
  rw [val_main_v146_apply, val_main_v145_apply]
  show val_main_v120 (F := Ideal) x2 _ = _
  exact congrArg (val_main_v120 (F := Ideal) x2) (funext fun a => by match a with | ⟨0, _⟩ => rfl)

/-- The third readout of the reference: the pooled sum over the denominator. -/
theorem readout147_eq (x0 : (⟨S50000x513, .f32⟩ : BufTy).Contents (Elt Ideal)) (x1 : (⟨S2x400000, .i32⟩ : BufTy).Contents (Elt Ideal)) (x2 : (⟨S50000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) :
    val_main_v147 (F := Ideal) x0 x1 x2 x3 x4 x5 x6 x7 x8 x9 x10 x11 x12 x13 x14 x15 x16 x17 x18 x19 x20 x21 x22 x23 x24 x25 x26 =
      Cert.Spec.readout (val_main_v111 (F := Ideal) x0 x1 x3 x4 x5 x6 x7 x8 x9 x10 x11 x12 x13 x14 x15 x16 x17 x18 x19 x20 x21 x22 x23 x24 x25 x26) x2 (val_main_v120 (F := Ideal) x2) := by
  unfold val_main_v147 val_main_v138
  exact readout_scatter _ zero_v136 _ x2 (ids_v137 x2) _ _ _ (den_v146 x2) (den120_ne_zero x2)

end Cert.ReferenceIdeal.RefValue
-- ==== Proof.Ref.Head.lean ====
/-
  The reference's head: the three readouts side by side, times the first head matrix plus its bias, clamped below at
  zero, times the second head matrix plus its bias.
-/
import proofs.«418047_j44229573214958_1_alg».proof.Proof.Ref.Readout

noncomputable section

namespace Cert.ReferenceIdeal.RefValue

open Cert.ReferenceIdeal Cert.ReferenceIdeal.Gen Cert.ReferenceIdeal.Read Idealize.ShloMosaic Idealize.ShloMosaic.ValueIdx

/-- The first head bias, broadcast over the rows. -/
theorem bias_v151 (x28 : (⟨S384, .f32⟩ : BufTy).Contents (Elt Ideal)) (r : Fin 256) (k : Fin 384) :
    val_main_v151 (F := Ideal) x28 (ix2 r k) = x28 (ix1 k) := by
  rw [val_main_v151_apply, val_main_v150_apply]
  exact congrArg x28 (funext fun a => by match a with | ⟨0, _⟩ => rfl)

/-- The second head bias, broadcast over the rows. -/
theorem bias_v156 (x30 : (⟨S3, .f32⟩ : BufTy).Contents (Elt Ideal)) (r : Fin 256) (c : Fin 3) :
    val_main_v156 (F := Ideal) x30 (ix2 r c) = x30 (ix1 c) := by
  rw [val_main_v156_apply, val_main_v155_apply]
  exact congrArg x30 (funext fun a => by match a with | ⟨0, _⟩ => rfl)

/-- The clamp's lower bound is zero everywhere. -/
theorem zero_call6 (i : S256x384.Idx) : val_main_call6_v0 (F := Ideal) i = 0 := by
  rw [val_main_call6_v0_apply, val_main_call6_cst_apply]
  exact Ideal.ofBits_zero_f32

/-- The joined array at `(r, j)` is column `j` of the three readouts side by side. -/
theorem v148_apply (x0 : (⟨S50000x513, .f32⟩ : BufTy).Contents (Elt Ideal)) (x1 : (⟨S2x400000, .i32⟩ : BufTy).Contents (Elt Ideal)) (x2 : (⟨S50000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) (r : Fin 256) (j : Fin 384) :
    val_main_v148 (F := Ideal) x0 x1 x2 x3 x4 x5 x6 x7 x8 x9 x10 x11 x12 x13 x14 x15 x16 x17 x18 x19 x20 x21 x22 x23 x24 x25 x26 (ix2 r j) =
      Cert.Spec.cat3 (val_main_v123 (F := Ideal) x0 x1 x2 x3 x4 x5 x6 x7 x8 x9 x10) (val_main_v135 (F := Ideal) x0 x1 x2 x3 x4 x5 x6 x7 x8 x9 x10 x11 x12 x13 x14 x15 x16 x17 x18) (val_main_v147 (F := Ideal) x0 x1 x2 x3 x4 x5 x6 x7 x8 x9 x10 x11 x12 x13 x14 x15 x16 x17 x18 x19 x20 x21 x22 x23 x24 x25 x26) r j := by
  unfold val_main_v148
  exact cat3_apply _ _ _ r j

/-- The hidden unit `k` of graph `r`. -/
theorem hidden_apply (x0 : (⟨S50000x513, .f32⟩ : BufTy).Contents (Elt Ideal)) (x1 : (⟨S2x400000, .i32⟩ : BufTy).Contents (Elt Ideal)) (x2 : (⟨S50000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S384x384, .f32⟩ : BufTy).Contents (Elt Ideal)) (x28 : (⟨S384, .f32⟩ : BufTy).Contents (Elt Ideal)) (r : Fin 256) (k : Fin 384) :
    val_main_v153 (F := Ideal) x0 x1 x2 x3 x4 x5 x6 x7 x8 x9 x10 x11 x12 x13 x14 x15 x16 x17 x18 x19 x20 x21 x22 x23 x24 x25 x26 x27 x28 (ix2 r k) =
      max ((∑ j : Fin 384, Cert.Spec.cat3 (val_main_v123 (F := Ideal) x0 x1 x2 x3 x4 x5 x6 x7 x8 x9 x10) (val_main_v135 (F := Ideal) x0 x1 x2 x3 x4 x5 x6 x7 x8 x9 x10 x11 x12 x13 x14 x15 x16 x17 x18) (val_main_v147 (F := Ideal) x0 x1 x2 x3 x4 x5 x6 x7 x8 x9 x10 x11 x12 x13 x14 x15 x16 x17 x18 x19 x20 x21 x22 x23 x24 x25 x26) r j * x27 (ix2 j k)) + x28 (ix1 k)) 0 := by
  rw [val_main_v153_apply, val_main_v152_apply, val_main_v149_apply, zero_call6, bias_v151]
  show max ((∑ j : Fin 384, _) + x28 (ix1 k)) 0 = _
  refine congrArg (fun s => max (s + x28 (ix1 k)) 0) (Finset.sum_congr rfl fun j _ => ?_)
  have e1 : lidx_main_v149 (ix2 r k) j = ix2 r j := funext fun a => by
    match a with | ⟨0, _⟩ => rfl | ⟨1, _⟩ => rfl
  have e2 : ridx_main_v149 (ix2 r k) j = ix2 j k := funext fun a => by
    match a with | ⟨0, _⟩ => rfl | ⟨1, _⟩ => rfl
  rw [e1, e2, v148_apply]

/-- The reference's result is the head of its three quotients. -/
theorem head_core (x0 : (⟨S50000x513, .f32⟩ : BufTy).Contents (Elt Ideal)) (x1 : (⟨S2x400000, .i32⟩ : BufTy).Contents (Elt Ideal)) (x2 : (⟨S50000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S384x384, .f32⟩ : BufTy).Contents (Elt Ideal)) (x28 : (⟨S384, .f32⟩ : BufTy).Contents (Elt Ideal)) (x29 : (⟨S384x3, .f32⟩ : BufTy).Contents (Elt Ideal)) (x30 : (⟨S3, .f32⟩ : BufTy).Contents (Elt Ideal)) :
    val_main_v157 (F := Ideal) x0 x1 x2 x3 x4 x5 x6 x7 x8 x9 x10 x11 x12 x13 x14 x15 x16 x17 x18 x19 x20 x21 x22 x23 x24 x25 x26 x27 x28 x29 x30 =
      Cert.Spec.head (val_main_v123 (F := Ideal) x0 x1 x2 x3 x4 x5 x6 x7 x8 x9 x10) (val_main_v135 (F := Ideal) x0 x1 x2 x3 x4 x5 x6 x7 x8 x9 x10 x11 x12 x13 x14 x15 x16 x17 x18) (val_main_v147 (F := Ideal) x0 x1 x2 x3 x4 x5 x6 x7 x8 x9 x10 x11 x12 x13 x14 x15 x16 x17 x18 x19 x20 x21 x22 x23 x24 x25 x26) x27 x28 x29 x30 := by
  funext i
  obtain ⟨r, c, rfl⟩ : ∃ (r : Fin 256) (c : Fin 3), i = ix2 r c := ⟨i 0, i 1, eq_ix2 i⟩
  rw [val_main_v157_apply, val_main_v154_apply, bias_v156]
  show (∑ k : Fin 384, _) + x30 (ix1 c) = _
  have e3 : ∀ k : Fin 384, lidx_main_v154 (ix2 r c) k = ix2 r k := fun k => funext fun a => by
    match a with | ⟨0, _⟩ => rfl | ⟨1, _⟩ => rfl
  have e4 : ∀ k : Fin 384, ridx_main_v154 (ix2 r c) k = ix2 k c := fun k => funext fun a => by
    match a with | ⟨0, _⟩ => rfl | ⟨1, _⟩ => rfl
  refine congrArg (fun s => s + x30 (ix1 c)) (Finset.sum_congr rfl fun k _ => ?_)
  rw [e3, e4, hidden_apply]

/-- The reference's result is the head of the three layers' readouts over the one denominator. -/
theorem head_eq (x0 : (⟨S50000x513, .f32⟩ : BufTy).Contents (Elt Ideal)) (x1 : (⟨S2x400000, .i32⟩ : BufTy).Contents (Elt Ideal)) (x2 : (⟨S50000, .i32⟩ : BufTy).Contents (Elt Ideal)) (x3 : (⟨S513x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S384x384, .f32⟩ : BufTy).Contents (Elt Ideal)) (x28 : (⟨S384, .f32⟩ : BufTy).Contents (Elt Ideal)) (x29 : (⟨S384x3, .f32⟩ : BufTy).Contents (Elt Ideal)) (x30 : (⟨S3, .f32⟩ : BufTy).Contents (Elt Ideal)) :
    val_main_v157 (F := Ideal) x0 x1 x2 x3 x4 x5 x6 x7 x8 x9 x10 x11 x12 x13 x14 x15 x16 x17 x18 x19 x20 x21 x22 x23 x24 x25 x26 x27 x28 x29 x30 =
      Cert.Spec.head
        (Cert.Spec.readout (val_main_v39 (F := Ideal) x0 x1 x3 x4 x5 x6 x7 x8 x9 x10) x2 (val_main_v120 (F := Ideal) x2))
        (Cert.Spec.readout (val_main_v75 (F := Ideal) x0 x1 x3 x4 x5 x6 x7 x8 x9 x10 x11 x12 x13 x14 x15 x16 x17 x18) x2 (val_main_v120 (F := Ideal) x2))
        (Cert.Spec.readout (val_main_v111 (F := Ideal) x0 x1 x3 x4 x5 x6 x7 x8 x9 x10 x11 x12 x13 x14 x15 x16 x17 x18 x19 x20 x21 x22 x23 x24 x25 x26) x2 (val_main_v120 (F := Ideal) x2))
        x27 x28 x29 x30 := by
  rw [head_core, readout123_eq, readout135_eq, readout147_eq]

end Cert.ReferenceIdeal.RefValue
-- ==== Proof.Ref.Net.lean ====
/-
  The reference computes the network: its three layers (each the layer function of its input and that input's neighbour
  sum) and its head over the three readouts, put together.
-/
import proofs.«418047_j44229573214958_1_alg».proof.Proof.Ref.Agg
import proofs.«418047_j44229573214958_1_alg».proof.Proof.Ref.Layers
import proofs.«418047_j44229573214958_1_alg».proof.Proof.Ref.Head
import proofs.«418047_j44229573214958_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result is the network of its arguments, with its own neighbour sums and denominator. -/
theorem ref_net (x0 : (⟨S50000x513, .f32⟩ : BufTy).Contents (Elt Ideal)) (x1 : (⟨S2x400000, .i32⟩ : BufTy).Contents (Elt Ideal)) (x2 : (⟨S50000, .i32⟩ : BufTy).Contents (Elt Ideal)) (x3 : (⟨S513x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S384x384, .f32⟩ : BufTy).Contents (Elt Ideal)) (x28 : (⟨S384, .f32⟩ : BufTy).Contents (Elt Ideal)) (x29 : (⟨S384x3, .f32⟩ : BufTy).Contents (Elt Ideal)) (x30 : (⟨S3, .f32⟩ : BufTy).Contents (Elt Ideal)) :
    val_main_v157 (F := Ideal) x0 x1 x2 x3 x4 x5 x6 x7 x8 x9 x10 x11 x12 x13 x14 x15 x16 x17 x18 x19 x20 x21 x22 x23 x24 x25 x26 x27 x28 x29 x30
      = Cert.Spec.net (agg513 x1) (agg128 x1) (den x2) x0 x2 ⟨x3, x4, x5, x6, x7, x8, x9, x10⟩ ⟨x11, x12, x13, x14, x15, x16, x17, x18⟩
          ⟨x19, x20, x21, x22, x23, x24, x25, x26⟩ ⟨x27, x28, x29, x30⟩ := by
  rw [head_eq, layer3_eq, layer2_eq, layer1_eq]
  rfl

end Cert.ReferenceIdeal.RefValue

end
-- ==== Proof.lean ====
/-
  The certificate of the graph network: three fused graph-isomorphism layers, a mean-pool readout and a two-layer head.

  Both idealized programs compute, over the extended reals, `Cert.Spec.net` of their arguments (Proof/Spec.lean): each
  layer is `relu (relu (((x + agg x) · W₁ + b₁ − μ) · rsqrt (σ² + ε) · γ + β) · W₂ + b₂)` with `agg` the neighbour sum both
  programs compute by the same gather and scatter-add; the readout of a layer is, per graph, the sum of its nodes' rows
  divided by `max (node count) 1`; the head is `relu ([q₁ | q₂ | q₃] · L₁ + c₁) · L₂ + c₂`. The kernel program tiles the node
  axis, pools by a one-hot matrix product accumulated tile by tile (a sum of `1 · h` and `0 · h`, the per-graph sum on the
  extended reals), multiplies by the reciprocal of the denominator (the quotient, the denominator being nonzero), and
  splits the head's first product into three products over the three readouts (one sum over 384 split in three):
  nothing but the commutativity and associativity of the sum, `0 · x = 0`, `1 · x = x` and `x · y⁻¹ = x / y` for `y ≠ 0`.
  The three frames are the programs' runs with the results dropped; the kernel program's run is written over the
  library's launch of a program of several kernel regions (Proof/KI/Run.lean; Proof/K/Run.lean for the word-level program).
  The ideal pass rewrote nothing, so `preserves` is `True`.
-/
import proofs.«418047_j44229573214958_1_alg».proof.Defs
import proofs.«418047_j44229573214958_1_alg».proof.Proof.Gen.Kernel
import proofs.«418047_j44229573214958_1_alg».proof.Proof.Gen.KernelIdeal
import proofs.«418047_j44229573214958_1_alg».proof.Proof.Gen.ReferenceIdeal
import proofs.«418047_j44229573214958_1_alg».proof.Proof.Gen.Pre_finite_inputs
import proofs.«418047_j44229573214958_1_alg».proof.Proof.K.Run
import proofs.«418047_j44229573214958_1_alg».proof.Proof.KI.Run
import proofs.«418047_j44229573214958_1_alg».proof.Proof.KI.Value
import proofs.«418047_j44229573214958_1_alg».proof.Proof.Bridge
import proofs.«418047_j44229573214958_1_alg».proof.Proof.Ref.Net
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end at `Cert.Spec.net` of arguments that agree. -/
theorem algebraic : Cert.algebraic_KernelIdeal_ReferenceIdeal := by
  intro m ρ m' ρ' _ hagree
  refine ⟨fun c => Cert.Spec.net (Cert.ReferenceIdeal.RefValue.agg513 (Cert.KernelIdeal.HandValue.pEI m c)) (Cert.ReferenceIdeal.RefValue.agg128 (Cert.KernelIdeal.HandValue.pEI m c)) (Cert.ReferenceIdeal.RefValue.den (Cert.KernelIdeal.HandValue.pB m c)) (Cert.KernelIdeal.HandValue.pX m c) (Cert.KernelIdeal.HandValue.pB m c)
      (Cert.KernelIdeal.HandValue.pL1 m c) (Cert.KernelIdeal.HandValue.pL2 m c) (Cert.KernelIdeal.HandValue.pL3 m c) (Cert.KernelIdeal.HandValue.pH m c), ?_, ?_⟩
  · exact (θ_run Cert.KernelIdeal.defs _ _).mono
      (fun r h c => ⟨(h c).1.trans (Cert.KernelIdeal.HandValue.kernel_value' m c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25, e26, e27, e28, e29, e30⟩ := hagree c
    rw [Cert.ReferenceIdeal.Read.val_main_v157_eq, Cert.ReferenceIdeal.RefValue.ref_net, e0, e1, e2, e3, e4, e5, e6, e7, e8, e9, e10, e11, e12, e13, e14, e15, e16, e17, e18, e19, e20, e21, e22, e23, e24, e25, e26, e27, e28, e29, e30]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
